-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x256 : Shape := ⟨3, ![4, 2048, 256]⟩
abbrev S256x256 : Shape := ⟨2, ![256, 256]⟩
abbrev S256 : Shape := ⟨1, ![256]⟩
abbrev S_ : Shape := ⟨0, ![]⟩

class Facts : Prop where
  bcast_S_S4x2048x256 : S_.BroadcastsInDim S4x2048x256 (![] : Fin 0 → Fin S4x2048x256.rank)
  reducesTo_S4x2048x256_S_d0_1_2 : S4x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256 .f32) (main_arg12 : FVec F S256x256 .f32) (main_arg13 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4x2048x256 .f32) (main_arg1 : FVec F S4x2048x256 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) : IVec S_ 1 :=
  let main_v0 : FVec F S4x2048x256 .f32 := Host.absf main_arg0
  let main_cst : FVec F S_ .f32 := constant S_ .f32 0x7F800000#32
  let main_v1 : FVec F S4x2048x256 .f32 := broadcastInDim S4x2048x256 ![] bcast_S_S4x2048x256 main_cst
  let main_v2 : IVec S4x2048x256 1 := cmpf .olt main_v0 main_v1
  let main_c : IVec S_ 1 := constantI S_ 1 1#1
  let main_v3 : IVec S_ 1 := (fun x v => Host.reduce IntOp.andi x v reducesTo_S4x2048x256_S_d0_1_2 h_S_) main_v2 main_c
  let main_v4 : FVec F S4x2048x256 .f32 := Host.absf main_arg1
  let main_cst_0 : FVec F S_ .f32 := constant S_ .f32 0x7F800000#32
  let main_v5 : FVec F S4x2048x256 .f32 := broadcastInDim S4x2048x256 ![] bcast_S_S4x2048x256 main_cst_0
  let main_v6 : IVec S4x2048x256 1 := cmpf .olt main_v4 main_v5
  let main_c_1 : IVec S_ 1 := constantI S_ 1 1#1
  let main_v7 : IVec S_ 1 := (fun x v => Host.reduce IntOp.andi x v reducesTo_S4x2048x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_v13 main_v16
-- ==== Kernel.lean ====
abbrev S4x2048x256 : Shape := ⟨3, ![4, 2048, 256]⟩
abbrev S256x256 : Shape := ⟨2, ![256, 256]⟩
abbrev S256 : Shape := ⟨1, ![256]⟩
abbrev S8192x256 : Shape := ⟨2, ![8192, 256]⟩
abbrev S1x256 : Shape := ⟨2, ![1, 256]⟩
abbrev S1024x256 : Shape := ⟨2, ![1024, 256]⟩
abbrev S4x128x4096 : Shape := ⟨3, ![4, 128, 4096]⟩
abbrev S4x4096x128 : Shape := ⟨3, ![4, 4096, 128]⟩
abbrev S1x4096x128 : Shape := ⟨3, ![1, 4096, 128]⟩
abbrev S1x128x4096 : Shape := ⟨3, ![1, 128, 4096]⟩
abbrev S4096x128 : Shape := ⟨2, ![4096, 128]⟩
abbrev S128x4096 : Shape := ⟨2, ![128, 4096]⟩
abbrev S128x128 : Shape := ⟨2, ![128, 128]⟩

abbrev nBuf : Space → Nat
  | .hbm => 59
  | .vmem => 52
  | .smem => 0
  | _ => 0

abbrev bufTy : (tb : Table) → Fin (tcTables nBuf tb) → BufTy
  | .hbm, ⟨0, _⟩ => ⟨S4x2048x256, .f32⟩
  | .hbm, ⟨1, _⟩ => ⟨S4x2048x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S8192x256, .f32⟩
  | .hbm, ⟨15, _⟩ => ⟨S256x256, .f32⟩
  | .hbm, ⟨16, _⟩ => ⟨S1x256, .f32⟩
  | .hbm, ⟨17, _⟩ => ⟨S8192x256, .f32⟩
  | .hbm, ⟨18, _⟩ => ⟨S4x2048x256, .f32⟩
  | .hbm, ⟨19, _⟩ => ⟨S8192x256, .f32⟩
  | .hbm, ⟨20, _⟩ => ⟨S256x256, .f32⟩
  | .hbm, ⟨21, _⟩ => ⟨S1x256, .f32⟩
  | .hbm, ⟨22, _⟩ => ⟨S8192x256, .f32⟩
  | .hbm, ⟨23, _⟩ => ⟨S4x2048x256, .f32⟩
  | .hbm, ⟨24, _⟩ => ⟨S8192x256, .f32⟩
  | .hbm, ⟨25, _⟩ => ⟨S256x256, .f32⟩
  | .hbm, ⟨26, _⟩ => ⟨S1x256, .f32⟩
  | .hbm, ⟨27, _⟩ => ⟨S8192x256, .f32⟩
  | .hbm, ⟨28, _⟩ => ⟨S4x2048x256, .f32⟩
  | .hbm, ⟨29, _⟩ => ⟨S8192x256, .f32⟩
  | .hbm, ⟨30, _⟩ => ⟨S256x256, .f32⟩
  | .hbm, ⟨31, _⟩ => ⟨S1x256, .f32⟩
  | .hbm, ⟨32, _⟩ => ⟨S8192x256, .f32⟩
  | .hbm, ⟨33, _⟩ => ⟨S4x2048x256, .f32⟩
  | .hbm, ⟨34, _⟩ => ⟨S4x128x4096, .f32⟩
  | .hbm, ⟨35, _⟩ => ⟨S4x4096x128, .f32⟩
  | .hbm, ⟨36, _⟩ => ⟨S4x128x4096, .f32⟩
  | .hbm, ⟨37, _⟩ => ⟨S4x4096x128, .f32⟩
  | .hbm, ⟨38, _⟩ => ⟨S4x128x4096, .f32⟩
  | .hbm, ⟨39, _⟩ => ⟨S4x4096x128, .f32⟩
  | .hbm, ⟨40, _⟩ => ⟨S4x128x4096, .f32⟩
  | .hbm, ⟨41, _⟩ => ⟨S4x4096x128, .f32⟩
  | .hbm, ⟨42, _⟩ => ⟨S4x4096x128, .f32⟩
  | .hbm, ⟨43, _⟩ => ⟨S4x128x4096, .f32⟩
  | .hbm, ⟨44, _⟩ => ⟨S4x2048x256, .f32⟩
  | .hbm, ⟨45, _⟩ => ⟨S4x128x4096, .f32⟩
  | .hbm, ⟨46, _⟩ => ⟨S4x2048x256, .f32⟩
  | .hbm, ⟨47, _⟩ => ⟨S8192x256, .f32⟩
  | .hbm, ⟨48, _⟩ => ⟨S256x256, .f32⟩
  | .hbm, ⟨49, _⟩ => ⟨S1x256, .f32⟩
  | .hbm, ⟨50, _⟩ => ⟨S8192x256, .f32⟩
  | .hbm, ⟨51, _⟩ => ⟨S8192x256, .f32⟩
  | .hbm, ⟨52, _⟩ => ⟨S4x2048x256, .f32⟩
  | .hbm, ⟨53, _⟩ => ⟨S8192x256, .f32⟩
  | .hbm, ⟨54, _⟩ => ⟨S256x256, .f32⟩
  | .hbm, ⟨55, _⟩ => ⟨S1x256, .f32⟩
  | .hbm, ⟨56, _⟩ => ⟨S8192x256, .f32⟩
  | .hbm, ⟨57, _⟩ => ⟨S8192x256, .f32⟩
  | .hbm, ⟨58, _⟩ => ⟨S4x2048x256, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S1x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S256x256, .f32⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S256x256, .f32⟩
  | .local _ .vmem, ⟨15, _⟩ => ⟨S1x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S256x256, .f32⟩
  | .local _ .vmem, ⟨21, _⟩ => ⟨S1x256, .f32⟩
  | .local _ .vmem, ⟨22, _⟩ => ⟨S1024x256, .f32⟩
  | .local _ .vmem, ⟨23, _⟩ => ⟨S1024x256, .f32⟩
  | .local _ .vmem, ⟨24, _⟩ => ⟨S1x4096x128, .f32⟩
  | .local _ .vmem, ⟨25, _⟩ => ⟨S1x4096x128, .f32⟩
  | .local _ .vmem, ⟨26, _⟩ => ⟨S1x4096x128, .f32⟩
  | .local _ .vmem, ⟨27, _⟩ => ⟨S1x4096x128, .f32⟩
  | .local _ .vmem, ⟨28, _⟩ => ⟨S1x4096x128, .f32⟩
  | .local _ .vmem, ⟨29, _⟩ => ⟨S1x4096x128, .f32⟩
  | .local _ .vmem, ⟨30, _⟩ => ⟨S1x128x4096, .f32⟩
  | .local _ .vmem, ⟨31, _⟩ => ⟨S1x128x4096, .f32⟩
  | .local _ .vmem, ⟨32, _⟩ => ⟨S1x4096x128, .f32⟩
  | .local _ .vmem, ⟨33, _⟩ => ⟨S1x4096x128, .f32⟩
  | .local _ .vmem, ⟨34, _⟩ => ⟨S1x4096x128, .f32⟩
  | .local _ .vmem, ⟨35, _⟩ => ⟨S1x4096x128, .f32⟩
  | .local _ .vmem, ⟨36, _⟩ => ⟨S1024x256, .f32⟩
  | .local _ .vmem, ⟨37, _⟩ => ⟨S1024x256, .f32⟩
  | .local _ .vmem, ⟨38, _⟩ => ⟨S256x256, .f32⟩
  | .local _ .vmem, ⟨39, _⟩ => ⟨S1x256, .f32⟩
  | .local _ .vmem, ⟨40, _⟩ => ⟨S1024x256, .f32⟩
  | .local _ .vmem, ⟨41, _⟩ => ⟨S1024x256, .f32⟩
  | .local _ .vmem, ⟨42, _⟩ => ⟨S1024x256, .f32⟩
  | .local _ .vmem, ⟨43, _⟩ => ⟨S1024x256, .f32⟩
  | .local _ .vmem, ⟨44, _⟩ => ⟨S1024x256, .f32⟩
  | .local _ .vmem, ⟨45, _⟩ => ⟨S1024x256, .f32⟩
  | .local _ .vmem, ⟨46, _⟩ => ⟨S256x256, .f32⟩
  | .local _ .vmem, ⟨47, _⟩ => ⟨S1x256, .f32⟩
  | .local _ .vmem, ⟨48, _⟩ => ⟨S1024x256, .f32⟩
  | .local _ .vmem, ⟨49, _⟩ => ⟨S1024x256, .f32⟩
  | .local _ .vmem, ⟨50, _⟩ => ⟨S1024x256, .f32⟩
  | .local _ .vmem, ⟨51, _⟩ => ⟨S1024x256, .f32⟩
  | _, _ => ⟨S4x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc4_stg4_0 : Ref sig .tc := ⟨.vmem, 32, rfl⟩
abbrev cc4_stg4_1 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc5_stg4_0 : Ref sig .tc := ⟨.vmem, 42, rfl⟩
abbrev cc5_stg4_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg3_1 : Ref sig .tc := ⟨.vmem, 49, rfl⟩
abbrev cc6_stg4_0 : Ref sig .tc := ⟨.vmem, 50, rfl⟩
abbrev cc6_stg4_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc4_sem4_0 : DmaSem sig := 32
abbrev cc4_sem4_1 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc5_sem4_0 : DmaSem sig := 42
abbrev cc5_sem4_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem3_0 : DmaSem sig := 48
abbrev cc6_sem3_1 : DmaSem sig := 49
abbrev cc6_sem4_0 : DmaSem sig := 50
abbrev cc6_sem4_1 : DmaSem sig := 51

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x4096x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x4096x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x4096x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x128x4096 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x4096x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x4096x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1024x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1024x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1024x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1024x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  shapeCasts_S4x2048x256_S8192x256 : S4x2048x256.ShapeCasts S8192x256
  transposes_S256x256_S256x256_1_0 : S256x256.Transposes [1, 0] S256x256
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S8192x256_S4x2048x256 : S8192x256.ShapeCasts S4x2048x256
  shapeCasts_S4x2048x256_S4x128x4096 : S4x2048x256.ShapeCasts S4x128x4096
  transposes_S4x128x4096_S4x4096x128_0_2_1 : S4x128x4096.Transposes [0, 2, 1] S4x4096x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S4096x128_S1x4096x128 : S4096x128.ShapeCasts S1x4096x128
  transposes_S4x4096x128_S4x128x4096_0_2_1 : S4x4096x128.Transposes [0, 2, 1] S4x128x4096
  shapeCasts_S4x128x4096_S4x2048x256 : S4x128x4096.ShapeCasts S4x2048x256
  dot_S1024x256_S256x256_S1024x256_1_0_0_1_n_n_wf : DotDims.WF S1024x256 S256x256 S1024x256 [1] [0] [0] [1] [] []
  dot_S128x4096_S4096x128_S128x128_1_0_0_1_n_n_wf : DotDims.WF S128x4096 S4096x128 S128x128 [1] [0] [0] [1] [] []
  dot_S4096x128_S128x128_S4096x128_1_0_0_1_n_n_wf : DotDims.WF S4096x128 S128x128 S4096x128 [1] [0] [0] [1] [] []
  dot_S4096x128_S4096x128_S128x128_0_0_1_1_n_n_wf : DotDims.WF S4096x128 S4096x128 S128x128 [0] [0] [1] [1] [] []
  dot_S128x4096_S128x128_S4096x128_0_0_1_1_n_n_wf : DotDims.WF S128x4096 S128x128 S4096x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .f32 = 32 ∨ (Rect.block (s := S8192x256) S1024x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S8192x256.size a
  hwx2_3 : ∀ i : grid2.Coords, EltTy.bits .f32 = 32 ∨ (Rect.block (s := S8192x256) S1024x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S8192x256.size a
  hwx3_0 : ∀ i : grid3.Coords, EltTy.bits .f32 = 32 ∨ (Rect.block (s := S8192x256) S1024x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x256.size a ≤ S8192x256.size a
  hwx3_3 : ∀ i : grid3.Coords, EltTy.bits .f32 = 32 ∨ (Rect.block (s := S8192x256) S1024x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x4096x128.size a ≤ S4x4096x128.size a
  hwx4_0 : ∀ i : grid4.Coords, EltTy.bits .f32 = 32 ∨ (Rect.block (s := S4x4096x128) S1x4096x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x4096x128.size a ≤ S4x4096x128.size a
  hwx4_1 : ∀ i : grid4.Coords, EltTy.bits .f32 = 32 ∨ (Rect.block (s := S4x4096x128) S1x4096x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x4096x128.size a ≤ S4x4096x128.size a
  hwx4_2 : ∀ i : grid4.Coords, EltTy.bits .f32 = 32 ∨ (Rect.block (s := S4x4096x128) S1x4096x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x128x4096.size a ≤ S4x128x4096.size a
  hwx4_3 : ∀ i : grid4.Coords, EltTy.bits .f32 = 32 ∨ (Rect.block (s := S4x128x4096) S1x128x4096.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x4096x128.size a ≤ S4x4096x128.size a
  hwx4_4 : ∀ i : grid4.Coords, EltTy.bits .f32 = 32 ∨ (Rect.block (s := S4x4096x128) S1x4096x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x4096x128.size a ≤ S4x4096x128.size a
  hwx4_5 : ∀ i : grid4.Coords, EltTy.bits .f32 = 32 ∨ (Rect.block (s := S4x4096x128) S1x4096x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x256.size a ≤ S8192x256.size a
  hwx5_0 : ∀ i : grid5.Coords, EltTy.bits .f32 = 32 ∨ (Rect.block (s := S8192x256) S1024x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x256.size a ≤ S8192x256.size a
  hwx5_3 : ∀ i : grid5.Coords, EltTy.bits .f32 = 32 ∨ (Rect.block (s := S8192x256) S1024x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1024x256.size a ≤ S8192x256.size a
  hwx5_4 : ∀ i : grid5.Coords, EltTy.bits .f32 = 32 ∨ (Rect.block (s := S8192x256) S1024x256.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x256.size a ≤ S8192x256.size a
  hwx6_0 : ∀ i : grid6.Coords, EltTy.bits .f32 = 32 ∨ (Rect.block (s := S8192x256) S1024x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x256.size a ≤ S8192x256.size a
  hwx6_3 : ∀ i : grid6.Coords, EltTy.bits .f32 = 32 ∨ (Rect.block (s := S8192x256) S1024x256.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1024x256.size a ≤ S8192x256.size a
  hwx6_4 : ∀ i : grid6.Coords, EltTy.bits .f32 = 32 ∨ (Rect.block (s := S8192x256) S1024x256.size (cc6_transform_4 i) (hinb6_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S128x4096_S4096x128_S128x128_1_0_0_1_n_n : DotDims S128x4096 S4096x128 S128x128 where
  lhsContracting := [1]
  rhsContracting := [0]
  lhsNonContracting := [0]
  rhsNonContracting := [1]
  lhsBatch := []
  rhsBatch := []
  wf := dot_S128x4096_S4096x128_S128x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S4096x128_S128x128_0_0_1_1_n_n : DotDims S4096x128 S4096x128 S128x128 where
  lhsContracting := [0]
  rhsContracting := [0]
  lhsNonContracting := [1]
  rhsNonContracting := [1]
  lhsBatch := []
  rhsBatch := []
  wf := dot_S4096x128_S4096x128_S128x128_0_0_1_1_n_n_wf
def dot_S128x4096_S128x128_S4096x128_0_0_1_1_n_n : DotDims S128x4096 S128x128 S4096x128 where
  lhsContracting := [0]
  rhsContracting := [0]
  lhsNonContracting := [1]
  rhsNonContracting := [1]
  lhsBatch := []
  rhsBatch := []
  wf := dot_S128x4096_S128x128_S4096x128_0_0_1_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1024x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v15) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v18) S1024x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v21) S1x4096x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v23) S1x4096x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v25) S1x4096x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v26) S1x128x4096.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v27_0) S1x4096x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v27_1) S1x4096x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v32) S1024x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v33) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v34) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v35) S1024x256.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v36) S1024x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v38) S1024x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v39) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v40) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v41) S1024x256.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v42) S1024x256.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S4x2048x256 : Shape := ⟨3, ![4, 2048, 256]⟩
abbrev S256x256 : Shape := ⟨2, ![256, 256]⟩
abbrev S256 : Shape := ⟨1, ![256]⟩
abbrev S1x1x256 : Shape := ⟨3, ![1, 1, 256]⟩
abbrev S4x128x4096 : Shape := ⟨3, ![4, 128, 4096]⟩
abbrev S4x4096x128 : Shape := ⟨3, ![4, 4096, 128]⟩
abbrev S4x4096x4096 : Shape := ⟨3, ![4, 4096, 4096]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S4x2048x256, .f32⟩
  | .hbm, ⟨1, _⟩ => ⟨S4x2048x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S4x2048x256, .f32⟩
  | .hbm, ⟨15, _⟩ => ⟨S1x1x256, .f32⟩
  | .hbm, ⟨16, _⟩ => ⟨S4x2048x256, .f32⟩
  | .hbm, ⟨17, _⟩ => ⟨S4x2048x256, .f32⟩
  | .hbm, ⟨18, _⟩ => ⟨S4x128x4096, .f32⟩
  | .hbm, ⟨19, _⟩ => ⟨S4x4096x128, .f32⟩
  | .hbm, ⟨20, _⟩ => ⟨S4x2048x256, .f32⟩
  | .hbm, ⟨21, _⟩ => ⟨S1x1x256, .f32⟩
  | .hbm, ⟨22, _⟩ => ⟨S4x2048x256, .f32⟩
  | .hbm, ⟨23, _⟩ => ⟨S4x2048x256, .f32⟩
  | .hbm, ⟨24, _⟩ => ⟨S4x128x4096, .f32⟩
  | .hbm, ⟨25, _⟩ => ⟨S4x4096x128, .f32⟩
  | .hbm, ⟨26, _⟩ => ⟨S4x2048x256, .f32⟩
  | .hbm, ⟨27, _⟩ => ⟨S1x1x256, .f32⟩
  | .hbm, ⟨28, _⟩ => ⟨S4x2048x256, .f32⟩
  | .hbm, ⟨29, _⟩ => ⟨S4x2048x256, .f32⟩
  | .hbm, ⟨30, _⟩ => ⟨S4x128x4096, .f32⟩
  | .hbm, ⟨31, _⟩ => ⟨S4x4096x128, .f32⟩
  | .hbm, ⟨32, _⟩ => ⟨S4x2048x256, .f32⟩
  | .hbm, ⟨33, _⟩ => ⟨S1x1x256, .f32⟩
  | .hbm, ⟨34, _⟩ => ⟨S4x2048x256, .f32⟩
  | .hbm, ⟨35, _⟩ => ⟨S4x2048x256, .f32⟩
  | .hbm, ⟨36, _⟩ => ⟨S4x128x4096, .f32⟩
  | .hbm, ⟨37, _⟩ => ⟨S4x4096x4096, .f32⟩
  | .hbm, ⟨38, _⟩ => ⟨S_, .f32⟩
  | .hbm, ⟨39, _⟩ => ⟨S4x4096x4096, .f32⟩
  | .hbm, ⟨40, _⟩ => ⟨S4x4096x4096, .f32⟩
  | .hbm, ⟨41, _⟩ => ⟨S4x4096x4096, .f32⟩
  | .hbm, ⟨42, _⟩ => ⟨S_, .f32⟩
  | .hbm, ⟨43, _⟩ => ⟨S4x4096x4096, .f32⟩
  | .hbm, ⟨44, _⟩ => ⟨S4x4096x4096, .f32⟩
  | .hbm, ⟨45, _⟩ => ⟨S4x4096x128, .f32⟩
  | .hbm, ⟨46, _⟩ => ⟨S4x128x4096, .f32⟩
  | .hbm, ⟨47, _⟩ => ⟨S4x2048x256, .f32⟩
  | .hbm, ⟨48, _⟩ => ⟨S4x2048x256, .f32⟩
  | .hbm, ⟨49, _⟩ => ⟨S1x1x256, .f32⟩
  | .hbm, ⟨50, _⟩ => ⟨S4x2048x256, .f32⟩
  | .hbm, ⟨51, _⟩ => ⟨S4x2048x256, .f32⟩
  | .hbm, ⟨52, _⟩ => ⟨S4x2048x256, .f32⟩
  | .hbm, ⟨53, _⟩ => ⟨S4x4096x128, .f32⟩
  | .hbm, ⟨54, _⟩ => ⟨S4x128x4096, .f32⟩
  | .hbm, ⟨55, _⟩ => ⟨S4x2048x256, .f32⟩
  | .hbm, ⟨56, _⟩ => ⟨S4x2048x256, .f32⟩
  | .hbm, ⟨57, _⟩ => ⟨S1x1x256, .f32⟩
  | .hbm, ⟨58, _⟩ => ⟨S4x2048x256, .f32⟩
  | .hbm, ⟨59, _⟩ => ⟨S4x2048x256, .f32⟩
  | .hbm, ⟨60, _⟩ => ⟨S4x2048x256, .f32⟩
  | _, _ => ⟨S4x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x2048x256_0_1_2 : S1x1x256.BroadcastsInDim S4x2048x256 (![0, 1, 2] : Fin 3 → Fin S4x2048x256.rank)
  shapeCasts_S4x2048x256_S4x128x4096 : S4x2048x256.ShapeCasts S4x128x4096
  transposes_S4x128x4096_S4x4096x128_0_2_1 : S4x128x4096.Transposes [0, 2, 1] S4x4096x128
  bcast_S_S4x4096x4096 : S_.BroadcastsInDim S4x4096x4096 (![] : Fin 0 → Fin S4x4096x4096.rank)
  transposes_S4x4096x4096_S4x4096x4096_0_2_1 : S4x4096x4096.Transposes [0, 2, 1] S4x4096x4096
  transposes_S4x4096x128_S4x128x4096_0_2_1 : S4x4096x128.Transposes [0, 2, 1] S4x128x4096
  shapeCasts_S4x128x4096_S4x2048x256 : S4x128x4096.ShapeCasts S4x2048x256
  dot_S4x2048x256_S256x256_S4x2048x256_2_1_01_0_n_n_wf : DotDims.WF S4x2048x256 S256x256 S4x2048x256 [2] [1] [0, 1] [0] [] []
  dot_S4x4096x128_S4x128x4096_S4x4096x4096_2_1_1_2_0_0_wf : DotDims.WF S4x4096x128 S4x128x4096 S4x4096x4096 [2] [1] [1] [2] [0] [0]
  dot_S4x4096x4096_S4x4096x128_S4x4096x128_2_1_1_2_0_0_wf : DotDims.WF S4x4096x4096 S4x4096x128 S4x4096x128 [2] [1] [1] [2] [0] [0]

variable [Facts₀]

def dot_S4x2048x256_S256x256_S4x2048x256_2_1_01_0_n_n : DotDims S4x2048x256 S256x256 S4x2048x256 where
  lhsContracting := [2]
  rhsContracting := [1]
  lhsNonContracting := [0, 1]
  rhsNonContracting := [0]
  lhsBatch := []
  rhsBatch := []
  wf := dot_S4x2048x256_S256x256_S4x2048x256_2_1_01_0_n_n_wf
def dot_S4x4096x128_S4x128x4096_S4x4096x4096_2_1_1_2_0_0 : DotDims S4x4096x128 S4x128x4096 S4x4096x4096 where
  lhsContracting := [2]
  rhsContracting := [1]
  lhsNonContracting := [1]
  rhsNonContracting := [2]
  lhsBatch := [0]
  rhsBatch := [0]
  wf := dot_S4x4096x128_S4x128x4096_S4x4096x4096_2_1_1_2_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.Spec.lean ====
/-
  What the two programs compute, as functions on whole arrays of extended reals.

  A linear layer sends row r of X [N, K] to the row  q ↦ (Σ_k X(r, k) · WT(k, q)) + B(0, q)  (linRows); with a residual
  array R added it is linResRows. Between the layers sits the cross term. Per batch b, with
  tx [4096, 128], px [128, 4096], dx and ax [4096, 128]:

    toward aim     (p, j) ↦ (Σ_l tx(p, l) · (Σ_q px(l, q) · dx(q, j))) · 2⁻¹²          (crossAim)
    toward detect  (q, j) ↦ (Σ_l px(l, q) · (Σ_p tx(p, l) · ax(p, j))) · 2⁻¹²          (crossDet)

  These are the products tx · (px · dx) and pxᵀ · (txᵀ · ax): the small 128 x 128 matrix is formed first. The factor
  2⁻¹² = 1 / 4096 is the single-precision word 0x39800000.
-/
import Idealize.ShloMosaic.PureOps.Ideal
import Idealize.ShloMosaic.Lib.ValueIdx

noncomputable section

open scoped BigOperators

namespace Cert.Proof.Spec

open Idealize.ShloMosaic Idealize.ShloMosaic.ValueIdx

/-- A linear layer applied to every row: entry (r, q) is the sum over k of X(r, k) · WT(k, q), plus the bias B(0, q). -/
def linRows {N K b : Nat} (X : (⟨2, ![N, K]⟩ : Shape).Idx → EReal) (WT : (⟨2, ![K, b]⟩ : Shape).Idx → EReal)
    (B : (⟨2, ![1, b]⟩ : Shape).Idx → EReal) : (⟨2, ![N, b]⟩ : Shape).Idx → EReal :=
  fun i => (∑ k : Fin K, X (ix2 (i 0) k) * WT (ix2 k (i 1))) + B (ix2 (0 : Fin 1) (i 1))

/-- The same layer with a residual array added entry by entry. -/
def linResRows {N K b : Nat} (X : (⟨2, ![N, K]⟩ : Shape).Idx → EReal) (WT : (⟨2, ![K, b]⟩ : Shape).Idx → EReal)
    (B : (⟨2, ![1, b]⟩ : Shape).Idx → EReal) (R : (⟨2, ![N, b]⟩ : Shape).Idx → EReal) : (⟨2, ![N, b]⟩ : Shape).Idx → EReal :=
  fun i => linRows X WT B i + R i

/-- The scale 2⁻¹² = 1 / 4096, as the single-precision word the tiled program multiplies by. -/
def scale : EReal := Ideal.ofBits .f32 0x39800000#32

/-- The cross term toward aim, with the 128 x 128 matrix px · dx formed first. -/
def crossAim (dx tx : (⟨3, ![4, 4096, 128]⟩ : Shape).Idx → EReal) (px : (⟨3, ![4, 128, 4096]⟩ : Shape).Idx → EReal) :
    (⟨3, ![4, 4096, 128]⟩ : Shape).Idx → EReal :=
  fun i => (∑ l : Fin 128, tx (ix3 (i 0) (i 1) l) * ∑ q : Fin 4096, px (ix3 (i 0) l q) * dx (ix3 (i 0) q (i 2))) * scale

/-- The cross term toward detect, with the 128 x 128 matrix txᵀ · ax formed first. -/
def crossDet (ax tx : (⟨3, ![4, 4096, 128]⟩ : Shape).Idx → EReal) (px : (⟨3, ![4, 128, 4096]⟩ : Shape).Idx → EReal) :
    (⟨3, ![4, 4096, 128]⟩ : Shape).Idx → EReal :=
  fun i => (∑ l : Fin 128, px (ix3 (i 0) l (i 1)) * ∑ p : Fin 4096, tx (ix3 (i 0) p l) * ax (ix3 (i 0) p (i 2))) * scale

end Cert.Proof.Spec

end
-- ==== Proof.KernelTerm.lean ====
/-
  The tiled program's two results as compositions of array functions.

  A linear launch flattens [4, 2048, 256] to [8192, 256], applies the layer to the rows against the transposed weight and
  the bias as a row, and unflattens (lin; linRes with a residual). Between the launches an array [4, 2048, 256] is viewed
  as [4, 128, 4096] (cols) and, for three of the four, transposed to [4, 4096, 128] (colsT); the cross launch's outputs
  are transposed back and viewed as [4, 2048, 256] again (rowsBack).
-/
import proofs.«170012_j14542759264790_1_alg».proof.Proof.Gen.KernelIdeal
import proofs.«170012_j14542759264790_1_alg».proof.Proof.Spec

noncomputable section

open scoped BigOperators

namespace Cert.Proof.KernelTerm

open Cert.KernelIdeal Cert.KernelIdeal.Gen Idealize.ShloMosaic Idealize.ShloMosaic.ValueIdx Cert.Proof.Spec

/-- A linear launch: flatten, the layer on rows, unflatten. -/
def lin (x : FVec Ideal S4x2048x256 .f32) (w : FVec Ideal S256x256 .f32) (b : FVec Ideal S256 .f32) : FVec Ideal S4x2048x256 .f32 :=
  shapeCast S4x2048x256 (linRows (shapeCast S8192x256 x shapeCasts_S4x2048x256_S8192x256)
    (transpose S256x256 [1, 0] w transposes_S256x256_S256x256_1_0) (shapeCast S1x256 b shapeCasts_S256_S1x256))
    shapeCasts_S8192x256_S4x2048x256

/-- A linear launch with a residual. -/
def linRes (x : FVec Ideal S4x2048x256 .f32) (w : FVec Ideal S256x256 .f32) (b : FVec Ideal S256 .f32)
    (r : FVec Ideal S4x2048x256 .f32) : FVec Ideal S4x2048x256 .f32 :=
  shapeCast S4x2048x256 (linResRows (shapeCast S8192x256 x shapeCasts_S4x2048x256_S8192x256)
    (transpose S256x256 [1, 0] w transposes_S256x256_S256x256_1_0) (shapeCast S1x256 b shapeCasts_S256_S1x256)
    (shapeCast S8192x256 r shapeCasts_S4x2048x256_S8192x256)) shapeCasts_S8192x256_S4x2048x256

/-- [4, 2048, 256] viewed as [4, 128, 4096]. -/
def cols (y : FVec Ideal S4x2048x256 .f32) : FVec Ideal S4x128x4096 .f32 :=
  shapeCast S4x128x4096 y shapeCasts_S4x2048x256_S4x128x4096

/-- … and transposed to [4, 4096, 128]. -/
def colsT (y : FVec Ideal S4x2048x256 .f32) : FVec Ideal S4x4096x128 .f32 :=
  transpose S4x4096x128 [0, 2, 1] (cols y) transposes_S4x128x4096_S4x4096x128_0_2_1

/-- [4, 4096, 128] transposed to [4, 128, 4096] and viewed as [4, 2048, 256]. -/
def rowsBack (z : FVec Ideal S4x4096x128 .f32) : FVec Ideal S4x2048x256 .f32 :=
  shapeCast S4x2048x256 (transpose S4x128x4096 [0, 2, 1] z transposes_S4x4096x128_S4x128x4096_0_2_1)
    shapeCasts_S4x128x4096_S4x2048x256

/-- The result toward aim, of detect a0, aim a1 and the weights and biases of g, theta, phi and W. -/
def kernelAim (a0 a1 : FVec Ideal S4x2048x256 .f32) (a2 : FVec Ideal S256x256 .f32) (a3 : FVec Ideal S256 .f32)
    (a6 : FVec Ideal S256x256 .f32) (a7 : FVec Ideal S256 .f32) (a8 : FVec Ideal S256x256 .f32) (a9 : FVec Ideal S256 .f32)
    (a10 : FVec Ideal S256x256 .f32) (a11 : FVec Ideal S256 .f32) : FVec Ideal S4x2048x256 .f32 :=
  linRes (rowsBack (crossAim (colsT (lin a0 a2 a3)) (colsT (lin a1 a6 a7)) (cols (lin a0 a8 a9)))) a10 a11 a1

/-- The result toward detect, of detect a0, aim a1 and the weights and biases of g2, theta, phi and Q. -/
def kernelDet (a0 a1 : FVec Ideal S4x2048x256 .f32) (a4 : FVec Ideal S256x256 .f32) (a5 : FVec Ideal S256 .f32)
    (a6 : FVec Ideal S256x256 .f32) (a7 : FVec Ideal S256 .f32) (a8 : FVec Ideal S256x256 .f32) (a9 : FVec Ideal S256 .f32)
    (a12 : FVec Ideal S256x256 .f32) (a13 : FVec Ideal S256 .f32) : FVec Ideal S4x2048x256 .f32 :=
  linRes (rowsBack (crossDet (colsT (lin a1 a4 a5)) (colsT (lin a1 a6 a7)) (cols (lin a0 a8 a9)))) a12 a13 a0

end Cert.Proof.KernelTerm

end
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.PayLin.lean ====
/-
  The linear kernel's body, read at one entry. The body narrows a block X [1024, 256] and the transposed weight
  WT [256, 256] (the identity on extended reals), multiplies them on the matrix unit from a zero accumulator and adds the
  bias row broadcast down the rows: entry (p, q) is (Σ_k X(p, k) · WT(k, q)) + B(0, q). The residual variant adds R(p, q).
-/
import proofs.«170012_j14542759264790_1_alg».proof.Proof.Gen.KernelIdeal.Skeleton
import proofs.«170012_j14542759264790_1_alg».proof.Proof.Spec
import proofs.«170012_j14542759264790_1_alg».proof.Proof.LibBlocks

noncomputable section

open scoped BigOperators

namespace Cert.Proof.PayLin

open Cert.KernelIdeal Cert.KernelIdeal.Gen Idealize.ShloMosaic Idealize.ShloMosaic.ValueIdx Cert.Proof.Spec

/-- The body's dimension numbers are the plain rows-by-columns product's. -/
theorem dims_plain : dot_S1024x256_S256x256_S1024x256_1_0_0_1_n_n = DotDims.plain 1024 256 256 := rfl

/-- The body's stored value is the linear layer on the block. -/
theorem lin_pay (x0 : Vec Ideal S1024x256 .f32) (x1 : Vec Ideal S256x256 .f32) (x2 : Vec Ideal S1x256 .f32) :
    k0_pay1 (F := Ideal) x0 x1 x2 = linRows x0 x1 x2 := by
  funext i
  obtain ⟨p, q, rfl⟩ : ∃ (p : Fin 1024) (q : Fin 256), i = ix2 p q := ⟨i 0, i 1, eq_ix2 i⟩
  unfold k0_pay1 linRows
  rw [addf_apply, shapeCast_self, shapeCast_self, shapeCast_self]
  refine congrArg₂ (· + ·) ?_ ?_
  · exact Cert.LibBlocks.matmul_plain_apply _ dims_plain none _ _ p q
  · exact broadcastTo_apply x2 broadcasts_S1x256_S1024x256 (ix2 p q) (ix2 (0 : Fin 1) q) (fun a => by
      match a with
      | ⟨0, _⟩ => rfl
      | ⟨1, _⟩ => rfl)

/-- The three sibling launches run the same body. -/
theorem lin_pay1 (x0 : Vec Ideal S1024x256 .f32) (x1 : Vec Ideal S256x256 .f32) (x2 : Vec Ideal S1x256 .f32) :
    k1_pay1 (F := Ideal) x0 x1 x2 = linRows x0 x1 x2 := lin_pay x0 x1 x2
theorem lin_pay2 (x0 : Vec Ideal S1024x256 .f32) (x1 : Vec Ideal S256x256 .f32) (x2 : Vec Ideal S1x256 .f32) :
    k2_pay1 (F := Ideal) x0 x1 x2 = linRows x0 x1 x2 := lin_pay x0 x1 x2
theorem lin_pay3 (x0 : Vec Ideal S1024x256 .f32) (x1 : Vec Ideal S256x256 .f32) (x2 : Vec Ideal S1x256 .f32) :
    k3_pay1 (F := Ideal) x0 x1 x2 = linRows x0 x1 x2 := lin_pay x0 x1 x2

/-- With a residual block added entry by entry. -/
theorem linres_pay5 (x0 : Vec Ideal S1024x256 .f32) (x1 : Vec Ideal S256x256 .f32) (x2 : Vec Ideal S1x256 .f32)
    (x3 : Vec Ideal S1024x256 .f32) : k5_pay1 (F := Ideal) x0 x1 x2 x3 = linResRows x0 x1 x2 x3 := by
  funext i
  show k0_pay1 (F := Ideal) x0 x1 x2 i + shapeCast S1024x256 x3 shapeCasts_S1024x256_S1024x256 i = linRows x0 x1 x2 i + x3 i
  rw [lin_pay, shapeCast_self]
theorem linres_pay6 (x0 : Vec Ideal S1024x256 .f32) (x1 : Vec Ideal S256x256 .f32) (x2 : Vec Ideal S1x256 .f32)
    (x3 : Vec Ideal S1024x256 .f32) : k6_pay1 (F := Ideal) x0 x1 x2 x3 = linResRows x0 x1 x2 x3 := linres_pay5 x0 x1 x2 x3

end Cert.Proof.PayLin

end
-- ==== Proof.Arr0.lean ====
/-
  The first linear launch, from blocks to the whole array. The grid has 8 points; point t stages rows
  1024 t … 1024 t + 1023 of the flattened input [8192, 256], the whole transposed weight and the bias row, and writes
  back the same rows of the output. A linear layer acts on each row by itself, so block t of the output is block t of the
  layer applied to the whole input, and the eight blocks tile the output.
-/
import proofs.«170012_j14542759264790_1_alg».proof.Proof.Gen.KernelIdeal.Frame
import proofs.«170012_j14542759264790_1_alg».proof.Proof.PayLin
import proofs.«170012_j14542759264790_1_alg».proof.Proof.Spec
import Idealize.ShloMosaic.Lib.Pipeline.Value

noncomputable section

open scoped BigOperators

namespace Cert.Proof.Arr0

open Cert.KernelIdeal Cert.KernelIdeal.Gen Idealize.ShloMosaic Idealize.ShloMosaic.TcCoe Idealize.SL.Sem Idealize.ShloMosaic.ValueIdx Cert.Proof.Spec Cert.Proof.PayLin
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Over the 8 grid points: the input's row block moves with the output's, and every other block index is 0. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Every one of the 8 row blocks is some point's. -/
theorem index_onto : ∀ q0 : Fin 8, ∃ t : Fin cfg0.N, win0_3.index t = ![q0.val, 0] :=
  (by decide +kernel : ∀ q0 : Fin 8, ∃ t : Fin grid0.N, win0_3.index t = ![q0.val, 0])

/-- What point t writes back is block t of the layer applied to the whole arrays. -/
theorem flushed_eq (c : Dev nD) (t : Fin cfg0.N) :
    (dat0 V c).flushed 3 t
      = ((cfg0.win 3).blk t).view.read (Elt Ideal) (linRows (V c main_v0) (V c main_v1) (V c main_v2)) := by
  show (cfg0.win 3).cut (grid0.coords t) ((dat0 V c).after 3 t) = _
  rw [after0_3]
  unfold out0_3
  rw [View.canon_unit_zero zero_offsets]
  simp only [View.ld_unit_zero (S := S1024x256) zero_offsets, View.ld_unit_zero (S := S256x256) zero_offsets,
    View.ld_unit_zero (S := S1x256) zero_offsets]
  rw [lin_pay]
  obtain ⟨e0, e1, e2, e3, e4, e5, e6, e7⟩ := index_facts t
  funext j
  show linRows (iblk0 V c 0 t) (iblk0 V c 1 t) (iblk0 V c 2 t) j
    = linRows (V c main_v0) (V c main_v1) (V c main_v2) (((cfg0.win 3).blk t).view.emb j)
  have hX : ∀ k : Fin 256, iblk0 V c 0 t (ix2 (j 0) k)
      = V c main_v0 (ix2 ((((cfg0.win 3).blk t).view.emb j) 0) k) := fun k => by
    show V c main_v0 (((cfg0.win 0).blk t).view.emb (ix2 (j 0) k)) = _
    refine congrArg (V c main_v0) (funext fun a => Fin.ext ?_)
    match a with
    | ⟨0, _⟩ =>
      show win0_0.index t (0 : Fin 2) * 1024 + 1 * (j 0).val = win0_3.index t (0 : Fin 2) * 1024 + 1 * (j 0).val
      omega
    | ⟨1, _⟩ =>
      show win0_0.index t (1 : Fin 2) * 256 + 1 * k.val = k.val
      omega
  have hW : ∀ k : Fin 256, iblk0 V c 1 t (ix2 k (j 1))
      = V c main_v1 (ix2 k ((((cfg0.win 3).blk t).view.emb j) 1)) := fun k => by
    show V c main_v1 (((cfg0.win 1).blk t).view.emb (ix2 k (j 1))) = _
    refine congrArg (V c main_v1) (funext fun a => Fin.ext ?_)
    match a with
    | ⟨0, _⟩ =>
      show win0_1.index t (0 : Fin 2) * 256 + 1 * k.val = k.val
      omega
    | ⟨1, _⟩ =>
      show win0_1.index t (1 : Fin 2) * 256 + 1 * (j 1).val = win0_3.index t (1 : Fin 2) * 256 + 1 * (j 1).val
      omega
  have hB : iblk0 V c 2 t (ix2 (0 : Fin 1) (j 1))
      = V c main_v2 (ix2 (0 : Fin 1) ((((cfg0.win 3).blk t).view.emb j) 1)) := by
    show V c main_v2 (((cfg0.win 2).blk t).view.emb (ix2 (0 : Fin 1) (j 1))) = _
    refine congrArg (V c main_v2) (funext fun a => Fin.ext ?_)
    match a with
    | ⟨0, _⟩ =>
      show win0_2.index t (0 : Fin 2) * 1 + 1 * 0 = 0
      omega
    | ⟨1, _⟩ =>
      show win0_2.index t (1 : Fin 2) * 256 + 1 * (j 1).val = win0_3.index t (1 : Fin 2) * 256 + 1 * (j 1).val
      omega
  unfold linRows
  rw [hB]
  exact congrArg (· + _) (Finset.sum_congr rfl fun k _ => by rw [hX k, hW k])

/-- An index of the output lies in point t's block iff each coordinate lies in the block's range on its axis. -/
theorem mem_blk (t : Fin cfg0.N) (i : S8192x256.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v3).slice (win0_3.rect t)).set ↔ _
  rw [View.set_slice_whole, Rect.mem_set_unit]
  exact Iff.rfl

/-- Row r of the output lies in the block of the point whose row block is r / 1024. -/
theorem cover (i : S8192x256.Idx) :
    ∃ t : Fin cfg0.N, (cfg0.win 3).flush t = true ∧ i ∈ ((cfg0.win 3).blk t).view.set := by
  have hi0 : (i 0).val < 8192 := (i 0).isLt
  have hi1 : (i 1).val < 256 := (i 1).isLt
  obtain ⟨t, ht⟩ := index_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 256 ≤ (i 1).val ∧ (i 1).val < win0_3.index t (1 : Fin 2) * 256 + 256
    omega

/-- After the launch the output array is the linear layer of the arrays the launch found. -/
theorem arr (c : Dev nD) :
    (dat0 V c).arrAt 3 cfg0.N = linRows (V c main_v0) (V c main_v1) (V c main_v2) :=
  (dat0 V c).arrAt_eq_of_cover 3 _ (fun t _ => flushed_eq V c t) cover

end Cert.Proof.Arr0

end
-- ==== Proof.Arr1.lean ====
/-
  The second linear launch, from blocks to the whole array. The grid has 8 points; point t stages rows
  1024 t … 1024 t + 1023 of the flattened input [8192, 256], the whole transposed weight and the bias row, and writes
  back the same rows of the output. A linear layer acts on each row by itself, so block t of the output is block t of the
  layer applied to the whole input, and the eight blocks tile the output.
-/
import proofs.«170012_j14542759264790_1_alg».proof.Proof.Gen.KernelIdeal.Frame
import proofs.«170012_j14542759264790_1_alg».proof.Proof.PayLin
import proofs.«170012_j14542759264790_1_alg».proof.Proof.Spec
import Idealize.ShloMosaic.Lib.Pipeline.Value

noncomputable section

open scoped BigOperators

namespace Cert.Proof.Arr1

open Cert.KernelIdeal Cert.KernelIdeal.Gen Idealize.ShloMosaic Idealize.ShloMosaic.TcCoe Idealize.SL.Sem Idealize.ShloMosaic.ValueIdx Cert.Proof.Spec Cert.Proof.PayLin
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Over the 8 grid points: the input's row block moves with the output's, and every other block index is 0. -/
theorem index_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 7 :=
  (by decide +kernel : ∀ t : Fin grid1.N, _)

/-- Every one of the 8 row blocks is some point's. -/
theorem index_onto : ∀ q0 : Fin 8, ∃ t : Fin cfg1.N, win1_3.index t = ![q0.val, 0] :=
  (by decide +kernel : ∀ q0 : Fin 8, ∃ t : Fin grid1.N, win1_3.index t = ![q0.val, 0])

/-- What point t writes back is block t of the layer applied to the whole arrays. -/
theorem flushed_eq (c : Dev nD) (t : Fin cfg1.N) :
    (dat1 V c).flushed 3 t
      = ((cfg1.win 3).blk t).view.read (Elt Ideal) (linRows (V c main_v5) (V c main_v6) (V c main_v7)) := by
  show (cfg1.win 3).cut (grid1.coords t) ((dat1 V c).after 3 t) = _
  rw [after1_3]
  unfold out1_3
  rw [View.canon_unit_zero zero_offsets]
  simp only [View.ld_unit_zero (S := S1024x256) zero_offsets, View.ld_unit_zero (S := S256x256) zero_offsets,
    View.ld_unit_zero (S := S1x256) zero_offsets]
  rw [lin_pay1]
  obtain ⟨e0, e1, e2, e3, e4, e5, e6, e7⟩ := index_facts t
  funext j
  show linRows (iblk1 V c 0 t) (iblk1 V c 1 t) (iblk1 V c 2 t) j
    = linRows (V c main_v5) (V c main_v6) (V c main_v7) (((cfg1.win 3).blk t).view.emb j)
  have hX : ∀ k : Fin 256, iblk1 V c 0 t (ix2 (j 0) k)
      = V c main_v5 (ix2 ((((cfg1.win 3).blk t).view.emb j) 0) k) := fun k => by
    show V c main_v5 (((cfg1.win 0).blk t).view.emb (ix2 (j 0) k)) = _
    refine congrArg (V c main_v5) (funext fun a => Fin.ext ?_)
    match a with
    | ⟨0, _⟩ =>
      show win1_0.index t (0 : Fin 2) * 1024 + 1 * (j 0).val = win1_3.index t (0 : Fin 2) * 1024 + 1 * (j 0).val
      omega
    | ⟨1, _⟩ =>
      show win1_0.index t (1 : Fin 2) * 256 + 1 * k.val = k.val
      omega
  have hW : ∀ k : Fin 256, iblk1 V c 1 t (ix2 k (j 1))
      = V c main_v6 (ix2 k ((((cfg1.win 3).blk t).view.emb j) 1)) := fun k => by
    show V c main_v6 (((cfg1.win 1).blk t).view.emb (ix2 k (j 1))) = _
    refine congrArg (V c main_v6) (funext fun a => Fin.ext ?_)
    match a with
    | ⟨0, _⟩ =>
      show win1_1.index t (0 : Fin 2) * 256 + 1 * k.val = k.val
      omega
    | ⟨1, _⟩ =>
      show win1_1.index t (1 : Fin 2) * 256 + 1 * (j 1).val = win1_3.index t (1 : Fin 2) * 256 + 1 * (j 1).val
      omega
  have hB : iblk1 V c 2 t (ix2 (0 : Fin 1) (j 1))
      = V c main_v7 (ix2 (0 : Fin 1) ((((cfg1.win 3).blk t).view.emb j) 1)) := by
    show V c main_v7 (((cfg1.win 2).blk t).view.emb (ix2 (0 : Fin 1) (j 1))) = _
    refine congrArg (V c main_v7) (funext fun a => Fin.ext ?_)
    match a with
    | ⟨0, _⟩ =>
      show win1_2.index t (0 : Fin 2) * 1 + 1 * 0 = 0
      omega
    | ⟨1, _⟩ =>
      show win1_2.index t (1 : Fin 2) * 256 + 1 * (j 1).val = win1_3.index t (1 : Fin 2) * 256 + 1 * (j 1).val
      omega
  unfold linRows
  rw [hB]
  exact congrArg (· + _) (Finset.sum_congr rfl fun k _ => by rw [hX k, hW k])

/-- An index of the output lies in point t's block iff each coordinate lies in the block's range on its axis. -/
theorem mem_blk (t : Fin cfg1.N) (i : S8192x256.Idx) :
    i ∈ ((cfg1.win 3).blk t).view.set ↔ ∀ a : Fin 2, win1_3.index t a * S1024x256.size a ≤ (i a).val
      ∧ (i a).val < win1_3.index t a * S1024x256.size a + S1024x256.size a := by
  show i ∈ ((View.whole main_v8).slice (win1_3.rect t)).set ↔ _
  rw [View.set_slice_whole, Rect.mem_set_unit]
  exact Iff.rfl

/-- Row r of the output lies in the block of the point whose row block is r / 1024. -/
theorem cover (i : S8192x256.Idx) :
    ∃ t : Fin cfg1.N, (cfg1.win 3).flush t = true ∧ i ∈ ((cfg1.win 3).blk t).view.set := by
  have hi0 : (i 0).val < 8192 := (i 0).isLt
  have hi1 : (i 1).val < 256 := (i 1).isLt
  obtain ⟨t, ht⟩ := index_onto ⟨(i 0).val / 1024, by omega⟩
  have q0 : win1_3.index t (0 : Fin 2) = (i 0).val / 1024 := congrFun ht 0
  have q1 : win1_3.index t (1 : Fin 2) = 0 := congrFun ht 1
  refine ⟨t, flush1_3 t, ?_⟩
  rw [mem_blk]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 256 ≤ (i 1).val ∧ (i 1).val < win1_3.index t (1 : Fin 2) * 256 + 256
    omega

/-- After the launch the output array is the linear layer of the arrays the launch found. -/
theorem arr (c : Dev nD) :
    (dat1 V c).arrAt 3 cfg1.N = linRows (V c main_v5) (V c main_v6) (V c main_v7) :=
  (dat1 V c).arrAt_eq_of_cover 3 _ (fun t _ => flushed_eq V c t) cover

end Cert.Proof.Arr1

end
-- ==== Proof.Arr2.lean ====
/-
  The third linear launch, from blocks to the whole array. The grid has 8 points; point t stages rows
  1024 t … 1024 t + 1023 of the flattened input [8192, 256], the whole transposed weight and the bias row, and writes
  back the same rows of the output. A linear layer acts on each row by itself, so block t of the output is block t of the
  layer applied to the whole input, and the eight blocks tile the output.
-/
import proofs.«170012_j14542759264790_1_alg».proof.Proof.Gen.KernelIdeal.Frame
import proofs.«170012_j14542759264790_1_alg».proof.Proof.PayLin
import proofs.«170012_j14542759264790_1_alg».proof.Proof.Spec
import Idealize.ShloMosaic.Lib.Pipeline.Value

noncomputable section

open scoped BigOperators

namespace Cert.Proof.Arr2

open Cert.KernelIdeal Cert.KernelIdeal.Gen Idealize.ShloMosaic Idealize.ShloMosaic.TcCoe Idealize.SL.Sem Idealize.ShloMosaic.ValueIdx Cert.Proof.Spec Cert.Proof.PayLin
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Over the 8 grid points: the input's row block moves with the output's, and every other block index is 0. -/
theorem index_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 7 :=
  (by decide +kernel : ∀ t : Fin grid2.N, _)

/-- Every one of the 8 row blocks is some point's. -/
theorem index_onto : ∀ q0 : Fin 8, ∃ t : Fin cfg2.N, win2_3.index t = ![q0.val, 0] :=
  (by decide +kernel : ∀ q0 : Fin 8, ∃ t : Fin grid2.N, win2_3.index t = ![q0.val, 0])

/-- What point t writes back is block t of the layer applied to the whole arrays. -/
theorem flushed_eq (c : Dev nD) (t : Fin cfg2.N) :
    (dat2 V c).flushed 3 t
      = ((cfg2.win 3).blk t).view.read (Elt Ideal) (linRows (V c main_v10) (V c main_v11) (V c main_v12)) := by
  show (cfg2.win 3).cut (grid2.coords t) ((dat2 V c).after 3 t) = _
  rw [after2_3]
  unfold out2_3
  rw [View.canon_unit_zero zero_offsets]
  simp only [View.ld_unit_zero (S := S1024x256) zero_offsets, View.ld_unit_zero (S := S256x256) zero_offsets,
    View.ld_unit_zero (S := S1x256) zero_offsets]
  rw [lin_pay2]
  obtain ⟨e0, e1, e2, e3, e4, e5, e6, e7⟩ := index_facts t
  funext j
  show linRows (iblk2 V c 0 t) (iblk2 V c 1 t) (iblk2 V c 2 t) j
    = linRows (V c main_v10) (V c main_v11) (V c main_v12) (((cfg2.win 3).blk t).view.emb j)
  have hX : ∀ k : Fin 256, iblk2 V c 0 t (ix2 (j 0) k)
      = V c main_v10 (ix2 ((((cfg2.win 3).blk t).view.emb j) 0) k) := fun k => by
    show V c main_v10 (((cfg2.win 0).blk t).view.emb (ix2 (j 0) k)) = _
    refine congrArg (V c main_v10) (funext fun a => Fin.ext ?_)
    match a with
    | ⟨0, _⟩ =>
      show win2_0.index t (0 : Fin 2) * 1024 + 1 * (j 0).val = win2_3.index t (0 : Fin 2) * 1024 + 1 * (j 0).val
      omega
    | ⟨1, _⟩ =>
      show win2_0.index t (1 : Fin 2) * 256 + 1 * k.val = k.val
      omega
  have hW : ∀ k : Fin 256, iblk2 V c 1 t (ix2 k (j 1))
      = V c main_v11 (ix2 k ((((cfg2.win 3).blk t).view.emb j) 1)) := fun k => by
    show V c main_v11 (((cfg2.win 1).blk t).view.emb (ix2 k (j 1))) = _
    refine congrArg (V c main_v11) (funext fun a => Fin.ext ?_)
    match a with
    | ⟨0, _⟩ =>
      show win2_1.index t (0 : Fin 2) * 256 + 1 * k.val = k.val
      omega
    | ⟨1, _⟩ =>
      show win2_1.index t (1 : Fin 2) * 256 + 1 * (j 1).val = win2_3.index t (1 : Fin 2) * 256 + 1 * (j 1).val
      omega
  have hB : iblk2 V c 2 t (ix2 (0 : Fin 1) (j 1))
      = V c main_v12 (ix2 (0 : Fin 1) ((((cfg2.win 3).blk t).view.emb j) 1)) := by
    show V c main_v12 (((cfg2.win 2).blk t).view.emb (ix2 (0 : Fin 1) (j 1))) = _
    refine congrArg (V c main_v12) (funext fun a => Fin.ext ?_)
    match a with
    | ⟨0, _⟩ =>
      show win2_2.index t (0 : Fin 2) * 1 + 1 * 0 = 0
      omega
    | ⟨1, _⟩ =>
      show win2_2.index t (1 : Fin 2) * 256 + 1 * (j 1).val = win2_3.index t (1 : Fin 2) * 256 + 1 * (j 1).val
      omega
  unfold linRows
  rw [hB]
  exact congrArg (· + _) (Finset.sum_congr rfl fun k _ => by rw [hX k, hW k])

/-- An index of the output lies in point t's block iff each coordinate lies in the block's range on its axis. -/
theorem mem_blk (t : Fin cfg2.N) (i : S8192x256.Idx) :
    i ∈ ((cfg2.win 3).blk t).view.set ↔ ∀ a : Fin 2, win2_3.index t a * S1024x256.size a ≤ (i a).val
      ∧ (i a).val < win2_3.index t a * S1024x256.size a + S1024x256.size a := by
  show i ∈ ((View.whole main_v13).slice (win2_3.rect t)).set ↔ _
  rw [View.set_slice_whole, Rect.mem_set_unit]
  exact Iff.rfl

/-- Row r of the output lies in the block of the point whose row block is r / 1024. -/
theorem cover (i : S8192x256.Idx) :
    ∃ t : Fin cfg2.N, (cfg2.win 3).flush t = true ∧ i ∈ ((cfg2.win 3).blk t).view.set := by
  have hi0 : (i 0).val < 8192 := (i 0).isLt
  have hi1 : (i 1).val < 256 := (i 1).isLt
  obtain ⟨t, ht⟩ := index_onto ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [mem_blk]
  intro a
  match a with
  | ⟨0, _⟩ =>
    show win2_3.index t (0 : Fin 2) * 1024 ≤ (i 0).val ∧ (i 0).val < win2_3.index t (0 : Fin 2) * 1024 + 1024
    omega
  | ⟨1, _⟩ =>
    show win2_3.index t (1 : Fin 2) * 256 ≤ (i 1).val ∧ (i 1).val < win2_3.index t (1 : Fin 2) * 256 + 256
    omega

/-- After the launch the output array is the linear layer of the arrays the launch found. -/
theorem arr (c : Dev nD) :
    (dat2 V c).arrAt 3 cfg2.N = linRows (V c main_v10) (V c main_v11) (V c main_v12) :=
  (dat2 V c).arrAt_eq_of_cover 3 _ (fun t _ => flushed_eq V c t) cover

end Cert.Proof.Arr2

end
-- ==== Proof.Arr3.lean ====
/-
  The fourth linear launch, from blocks to the whole array. The grid has 8 points; point t stages rows
  1024 t … 1024 t + 1023 of the flattened input [8192, 256], the whole transposed weight and the bias row, and writes
  back the same rows of the output. A linear layer acts on each row by itself, so block t of the output is block t of the
  layer applied to the whole input, and the eight blocks tile the output.
-/
import proofs.«170012_j14542759264790_1_alg».proof.Proof.Gen.KernelIdeal.Frame
import proofs.«170012_j14542759264790_1_alg».proof.Proof.PayLin
import proofs.«170012_j14542759264790_1_alg».proof.Proof.Spec
import Idealize.ShloMosaic.Lib.Pipeline.Value

noncomputable section

open scoped BigOperators

namespace Cert.Proof.Arr3

open Cert.KernelIdeal Cert.KernelIdeal.Gen Idealize.ShloMosaic Idealize.ShloMosaic.TcCoe Idealize.SL.Sem Idealize.ShloMosaic.ValueIdx Cert.Proof.Spec Cert.Proof.PayLin
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Over the 8 grid points: the input's row block moves with the output's, and every other block index is 0. -/
theorem index_facts : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 7 :=
  (by decide +kernel : ∀ t : Fin grid3.N, _)

/-- Every one of the 8 row blocks is some point's. -/
theorem index_onto : ∀ q0 : Fin 8, ∃ t : Fin cfg3.N, win3_3.index t = ![q0.val, 0] :=
  (by decide +kernel : ∀ q0 : Fin 8, ∃ t : Fin grid3.N, win3_3.index t = ![q0.val, 0])

/-- What point t writes back is block t of the layer applied to the whole arrays. -/
theorem flushed_eq (c : Dev nD) (t : Fin cfg3.N) :
    (dat3 V c).flushed 3 t
      = ((cfg3.win 3).blk t).view.read (Elt Ideal) (linRows (V c main_v15) (V c main_v16) (V c main_v17)) := by
  show (cfg3.win 3).cut (grid3.coords t) ((dat3 V c).after 3 t) = _
  rw [after3_3]
  unfold out3_3
  rw [View.canon_unit_zero zero_offsets]
  simp only [View.ld_unit_zero (S := S1024x256) zero_offsets, View.ld_unit_zero (S := S256x256) zero_offsets,
    View.ld_unit_zero (S := S1x256) zero_offsets]
  rw [lin_pay3]
  obtain ⟨e0, e1, e2, e3, e4, e5, e6, e7⟩ := index_facts t
  funext j
  show linRows (iblk3 V c 0 t) (iblk3 V c 1 t) (iblk3 V c 2 t) j
    = linRows (V c main_v15) (V c main_v16) (V c main_v17) (((cfg3.win 3).blk t).view.emb j)
  have hX : ∀ k : Fin 256, iblk3 V c 0 t (ix2 (j 0) k)
      = V c main_v15 (ix2 ((((cfg3.win 3).blk t).view.emb j) 0) k) := fun k => by
    show V c main_v15 (((cfg3.win 0).blk t).view.emb (ix2 (j 0) k)) = _
    refine congrArg (V c main_v15) (funext fun a => Fin.ext ?_)
    match a with
    | ⟨0, _⟩ =>
      show win3_0.index t (0 : Fin 2) * 1024 + 1 * (j 0).val = win3_3.index t (0 : Fin 2) * 1024 + 1 * (j 0).val
      omega
    | ⟨1, _⟩ =>
      show win3_0.index t (1 : Fin 2) * 256 + 1 * k.val = k.val
      omega
  have hW : ∀ k : Fin 256, iblk3 V c 1 t (ix2 k (j 1))
      = V c main_v16 (ix2 k ((((cfg3.win 3).blk t).view.emb j) 1)) := fun k => by
    show V c main_v16 (((cfg3.win 1).blk t).view.emb (ix2 k (j 1))) = _
    refine congrArg (V c main_v16) (funext fun a => Fin.ext ?_)
    match a with
    | ⟨0, _⟩ =>
      show win3_1.index t (0 : Fin 2) * 256 + 1 * k.val = k.val
      omega
    | ⟨1, _⟩ =>
      show win3_1.index t (1 : Fin 2) * 256 + 1 * (j 1).val = win3_3.index t (1 : Fin 2) * 256 + 1 * (j 1).val
      omega
  have hB : iblk3 V c 2 t (ix2 (0 : Fin 1) (j 1))
      = V c main_v17 (ix2 (0 : Fin 1) ((((cfg3.win 3).blk t).view.emb j) 1)) := by
    show V c main_v17 (((cfg3.win 2).blk t).view.emb (ix2 (0 : Fin 1) (j 1))) = _
    refine congrArg (V c main_v17) (funext fun a => Fin.ext ?_)
    match a with
    | ⟨0, _⟩ =>
      show win3_2.index t (0 : Fin 2) * 1 + 1 * 0 = 0
      omega
    | ⟨1, _⟩ =>
      show win3_2.index t (1 : Fin 2) * 256 + 1 * (j 1).val = win3_3.index t (1 : Fin 2) * 256 + 1 * (j 1).val
      omega
  unfold linRows
  rw [hB]
  exact congrArg (· + _) (Finset.sum_congr rfl fun k _ => by rw [hX k, hW k])

/-- An index of the output lies in point t's block iff each coordinate lies in the block's range on its axis. -/
theorem mem_blk (t : Fin cfg3.N) (i : S8192x256.Idx) :
    i ∈ ((cfg3.win 3).blk t).view.set ↔ ∀ a : Fin 2, win3_3.index t a * S1024x256.size a ≤ (i a).val
      ∧ (i a).val < win3_3.index t a * S1024x256.size a + S1024x256.size a := by
  show i ∈ ((View.whole main_v18).slice (win3_3.rect t)).set ↔ _
  rw [View.set_slice_whole, Rect.mem_set_unit]
  exact Iff.rfl

/-- Row r of the output lies in the block of the point whose row block is r / 1024. -/
theorem cover (i : S8192x256.Idx) :
    ∃ t : Fin cfg3.N, (cfg3.win 3).flush t = true ∧ i ∈ ((cfg3.win 3).blk t).view.set := by
  have hi0 : (i 0).val < 8192 := (i 0).isLt
  have hi1 : (i 1).val < 256 := (i 1).isLt
  obtain ⟨t, ht⟩ := index_onto ⟨(i 0).val / 1024, by omega⟩
  have q0 : win3_3.index t (0 : Fin 2) = (i 0).val / 1024 := congrFun ht 0
  have q1 : win3_3.index t (1 : Fin 2) = 0 := congrFun ht 1
  refine ⟨t, flush3_3 t, ?_⟩
  rw [mem_blk]
  intro a
  match a with
  | ⟨0, _⟩ =>
    show win3_3.index t (0 : Fin 2) * 1024 ≤ (i 0).val ∧ (i 0).val < win3_3.index t (0 : Fin 2) * 1024 + 1024
    omega
  | ⟨1, _⟩ =>
    show win3_3.index t (1 : Fin 2) * 256 ≤ (i 1).val ∧ (i 1).val < win3_3.index t (1 : Fin 2) * 256 + 256
    omega

/-- After the launch the output array is the linear layer of the arrays the launch found. -/
theorem arr (c : Dev nD) :
    (dat3 V c).arrAt 3 cfg3.N = linRows (V c main_v15) (V c main_v16) (V c main_v17) :=
  (dat3 V c).arrAt_eq_of_cover 3 _ (fun t _ => flushed_eq V c t) cover

end Cert.Proof.Arr3

end
-- ==== Proof.PayCross.lean ====
/-
  The cross kernel's body, read at one entry. Per batch the body holds dx, ax, tx [4096, 128] and px [128, 4096]
  (each staged with a leading unit axis), forms the 128 x 128 matrix px · dx, then tx · (px · dx), and scales by 2⁻¹²;
  and likewise txᵀ · ax, then pxᵀ · (txᵀ · ax). Narrowing to half precision on the way into the matrix unit is the
  identity on extended reals, and each product from a zero accumulator is the plain sum.
-/
import proofs.«170012_j14542759264790_1_alg».proof.Proof.Gen.KernelIdeal.Skeleton
import proofs.«170012_j14542759264790_1_alg».proof.Proof.Spec
import proofs.«170012_j14542759264790_1_alg».proof.Proof.LibBlocks

noncomputable section

open scoped BigOperators

namespace Cert.Proof.PayCross

open Cert.KernelIdeal Cert.KernelIdeal.Gen Idealize.ShloMosaic Idealize.ShloMosaic.ValueIdx Cert.Proof.Spec

/-! ## Blocks with a leading unit axis -/

/-- A block [1, A, B] viewed as [A, B]: entry (a, b) is entry (0, a, b). -/
theorem drop_apply {A B : Nat} (h : (⟨3, ![1, A, B]⟩ : Shape).ShapeCasts ⟨2, ![A, B]⟩)
    (v : (⟨3, ![1, A, B]⟩ : Shape).Idx → EReal) (a : Fin A) (b : Fin B) :
    shapeCast ⟨2, ![A, B]⟩ v h (ix2 a b) = v (ix3 (0 : Fin 1) a b) := by
  refine shapeCast_apply v h (ix2 a b) (ix3 (0 : Fin 1) a b) ?_
  rw [Shape.rowMajor_val_three, Shape.rowMajor_val_two]
  show ((0 : Nat) * A + a.val) * B + b.val = a.val * B + b.val
  rw [Nat.zero_mul, Nat.zero_add]

/-- An array [A, B] stored as a block [1, A, B]: entry (0, a, b) is entry (a, b). -/
theorem add_apply {A B : Nat} (h : (⟨2, ![A, B]⟩ : Shape).ShapeCasts ⟨3, ![1, A, B]⟩)
    (v : (⟨2, ![A, B]⟩ : Shape).Idx → EReal) (a : Fin A) (b : Fin B) :
    shapeCast ⟨3, ![1, A, B]⟩ v h (ix3 (0 : Fin 1) a b) = v (ix2 a b) := by
  refine shapeCast_apply v h (ix3 (0 : Fin 1) a b) (ix2 a b) ?_
  rw [Shape.rowMajor_val_three, Shape.rowMajor_val_two]
  show a.val * B + b.val = ((0 : Nat) * A + a.val) * B + b.val
  rw [Nat.zero_mul, Nat.zero_add]

/-! ## A product contracting the first axis of both operands -/

section FirstFirst

variable {K M N : Nat}

/-- The dimension numbers of a [K, M] by [K, N] product contracting both first axes: result (a, b) sums over k the
    left operand at (k, a) times the right at (k, b). -/
def firstFirst (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The left operand is read at the contraction position and the result's row … -/
theorem firstFirst_lhsIdx (a : Fin M) (b : Fin N) (k : Fin K) :
    (firstFirst K M N).lhsIdx (ix2 a b) ((contrEquiv1 (firstFirst K M N) K rfl rfl).symm k) = ix2 k a := by
  have hk := contrEquiv1_symm_val (firstFirst K M N) K rfl rfl k
  funext c
  refine Fin.ext ?_
  match c with
  | ⟨0, _⟩ =>
    exact ((firstFirst K M N).lhsIdx_val_of_single (cl := 0) rfl (ix2 a b) _).trans hk
  | ⟨1, _⟩ =>
    show ((firstFirst K M N).lhsIdx (ix2 a b) _ 1).val = a.val
    unfold DotDims.lhsIdx
    rw [dif_neg (show ¬(1 : Fin (⟨2, ![K, M]⟩ : Shape).rank) ∈ (firstFirst K M N).lhsBatch from List.not_mem_nil),
      dif_pos (show (1 : Fin (⟨2, ![K, M]⟩ : Shape).rank) ∈ (firstFirst K M N).lhsNonContracting from List.mem_singleton.mpr rfl)]
    rfl

/-- … and the right operand at the contraction position and the result's column. -/
theorem firstFirst_rhsIdx (a : Fin M) (b : Fin N) (k : Fin K) :
    (firstFirst K M N).rhsIdx (ix2 a b) ((contrEquiv1 (firstFirst K M N) K rfl rfl).symm k) = ix2 k b := by
  have hk := contrEquiv1_symm_val (firstFirst K M N) K rfl rfl k
  funext c
  refine Fin.ext ?_
  match c with
  | ⟨0, _⟩ =>
    exact ((firstFirst K M N).rhsIdx_val_of_single (cr := 0) rfl (ix2 a b) _).trans hk
  | ⟨1, _⟩ =>
    show ((firstFirst K M N).rhsIdx (ix2 a b) _ 1).val = b.val
    unfold DotDims.rhsIdx
    rw [dif_neg (show ¬(1 : Fin (⟨2, ![K, N]⟩ : Shape).rank) ∈ (firstFirst K M N).rhsBatch from List.not_mem_nil),
      dif_pos (show (1 : Fin (⟨2, ![K, N]⟩ : Shape).rank) ∈ (firstFirst K M N).rhsNonContracting from List.mem_singleton.mpr rfl)]
    rfl

/-- The matrix unit's product into a zero accumulator, at element (a, b): the sum over k of left (k, a) right (k, b). -/
theorem matmul_firstFirst_apply {φ₁ φ₂ : FTy} (d : DotDims ⟨2, ![K, M]⟩ ⟨2, ![K, N]⟩ ⟨2, ![M, N]⟩) (hd : d = firstFirst K M N)
    (prec : Option ContractPrecision) (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) := by
  subst hd
  rw [Ideal.matmul_constant_zero_apply, ← Equiv.sum_comp (contrEquiv1 (firstFirst K M N) K rfl rfl).symm]
  refine Finset.sum_congr rfl fun k _ => ?_
  rw [firstFirst_lhsIdx, firstFirst_rhsIdx]

end FirstFirst

/-! ## The body's dimension numbers -/

theorem dims_inner_aim : dot_S128x4096_S4096x128_S128x128_1_0_0_1_n_n = DotDims.plain 128 4096 128 := rfl
theorem dims_outer_aim : dot_S4096x128_S128x128_S4096x128_1_0_0_1_n_n = DotDims.plain 4096 128 128 := rfl
theorem dims_inner_det : dot_S4096x128_S4096x128_S128x128_0_0_1_1_n_n = firstFirst 4096 128 128 := rfl
theorem dims_outer_det : dot_S128x4096_S128x128_S4096x128_0_0_1_1_n_n = firstFirst 128 4096 128 := rfl

/-- The value stored toward aim, at row p and column j of the block. -/
theorem aim_pay (v0 v6 : Vec Ideal S1x4096x128 .f32) (v9 : Vec Ideal S1x128x4096 .f32) (p : Fin 4096) (j : Fin 128) :
    k4_pay3 (F := Ideal) v0 v6 v9 (ix3 (0 : Fin 1) p j)
      = (∑ l : Fin 128, v6 (ix3 (0 : Fin 1) p l) * ∑ q : Fin 4096, v9 (ix3 (0 : Fin 1) l q) * v0 (ix3 (0 : Fin 1) q j)) * scale := by
  unfold k4_pay3 k4_pay2 k4_pay1
  refine (add_apply shapeCasts_S4096x128_S1x4096x128 _ p j).trans ?_
  rw [mulf_apply]
  refine congrArg₂ (· * ·) ?_ rfl
  refine (Cert.LibBlocks.matmul_plain_apply _ dims_outer_aim none _ _ p j).trans ?_
  refine Finset.sum_congr rfl fun l _ => ?_
  refine congrArg₂ (· * ·) ?_ ?_
  · exact drop_apply shapeCasts_S1x4096x128_S4096x128 v6 p l
  · refine (Cert.LibBlocks.matmul_plain_apply _ dims_inner_aim none _ _ l j).trans ?_
    refine Finset.sum_congr rfl fun q _ => ?_
    refine congrArg₂ (· * ·) ?_ ?_
    · exact drop_apply shapeCasts_S1x128x4096_S128x4096 v9 l q
    · exact drop_apply shapeCasts_S1x4096x128_S4096x128 v0 q j

/-- The value stored toward detect, at row q and column j of the block. -/
theorem det_pay (v3 v6 : Vec Ideal S1x4096x128 .f32) (v9 : Vec Ideal S1x128x4096 .f32) (q : Fin 4096) (j : Fin 128) :
    k4_pay4 (F := Ideal) v3 v6 v9 (ix3 (0 : Fin 1) q j)
      = (∑ l : Fin 128, v9 (ix3 (0 : Fin 1) l q) * ∑ p : Fin 4096, v6 (ix3 (0 : Fin 1) p l) * v3 (ix3 (0 : Fin 1) p j)) * scale := by
  unfold k4_pay4 k4_pay2 k4_pay1
  refine (add_apply shapeCasts_S4096x128_S1x4096x128 _ q j).trans ?_
  rw [mulf_apply]
  refine congrArg₂ (· * ·) ?_ rfl
  refine (matmul_firstFirst_apply _ dims_outer_det none _ _ q j).trans ?_
  refine Finset.sum_congr rfl fun l _ => ?_
  refine congrArg₂ (· * ·) ?_ ?_
  · exact drop_apply shapeCasts_S1x128x4096_S128x4096 v9 l q
  · refine (matmul_firstFirst_apply _ dims_inner_det none _ _ l j).trans ?_
    refine Finset.sum_congr rfl fun p _ => ?_
    refine congrArg₂ (· * ·) ?_ ?_
    · exact drop_apply shapeCasts_S1x4096x128_S4096x128 v6 p l
    · exact drop_apply shapeCasts_S1x4096x128_S4096x128 v3 p j

end Cert.Proof.PayCross

end
-- ==== Proof.Arr4.lean ====
/-
  The cross launch, from blocks to the whole arrays. The grid has 4 points, one per batch; point b stages batch b of
  dx, ax, tx [4, 4096, 128] and px [4, 128, 4096] whole and writes back batch b of the two outputs. Each output entry
  depends on its own batch only, so block b of an output is block b of the cross term of the whole arrays, and the four
  blocks tile each output.
-/
import proofs.«170012_j14542759264790_1_alg».proof.Proof.Gen.KernelIdeal.Frame
import proofs.«170012_j14542759264790_1_alg».proof.Proof.PayCross
import proofs.«170012_j14542759264790_1_alg».proof.Proof.Spec
import Idealize.ShloMosaic.Lib.Pipeline.Value

noncomputable section

open scoped BigOperators

namespace Cert.Proof.Arr4

open Cert.KernelIdeal Cert.KernelIdeal.Gen Idealize.ShloMosaic Idealize.ShloMosaic.TcCoe Idealize.SL.Sem Idealize.ShloMosaic.ValueIdx Cert.Proof.Spec
open Idealize.ShloMosaic.Pipeline (Dat)

variable (V : (c : Dev nD) → (b : Ref sig .tc) → Buf (Elt Ideal) ((c : Thread nD τ).loc b))

/-- The offset vector of a block taken whole is zero on every axis. -/
theorem zero_offsets3 : (![0, 0, 0] : Fin 3 → Nat) = fun _ => 0 := funext fun a => by fin_cases a <;> rfl

/-- Over the 4 grid points: every window's batch block index is the first output's, the second output's among
    them; every other block index is 0; the batch block index is at most 3. -/
theorem index_facts : ∀ t : Fin cfg4.N,
    win4_0.index t (0 : Fin 3) = win4_4.index t (0 : Fin 3) ∧ win4_0.index t (1 : Fin 3) = 0 ∧ win4_0.index t (2 : Fin 3) = 0
    ∧ win4_1.index t (0 : Fin 3) = win4_4.index t (0 : Fin 3) ∧ win4_1.index t (1 : Fin 3) = 0 ∧ win4_1.index t (2 : Fin 3) = 0
    ∧ win4_2.index t (0 : Fin 3) = win4_4.index t (0 : Fin 3) ∧ win4_2.index t (1 : Fin 3) = 0 ∧ win4_2.index t (2 : Fin 3) = 0
    ∧ win4_3.index t (0 : Fin 3) = win4_4.index t (0 : Fin 3) ∧ win4_3.index t (1 : Fin 3) = 0 ∧ win4_3.index t (2 : Fin 3) = 0
    ∧ win4_5.index t (0 : Fin 3) = win4_4.index t (0 : Fin 3) ∧ win4_5.index t (1 : Fin 3) = 0 ∧ win4_5.index t (2 : Fin 3) = 0
    ∧ win4_4.index t (1 : Fin 3) = 0 ∧ win4_4.index t (2 : Fin 3) = 0 ∧ win4_4.index t (0 : Fin 3) ≤ 3 :=
  (by decide +kernel : ∀ t : Fin grid4.N, _)

/-- Every one of the 4 batches is some point's, for the first output. -/
theorem index_onto4 : ∀ q0 : Fin 4, ∃ t : Fin cfg4.N, win4_4.index t = ![q0.val, 0, 0] :=
  (by decide +kernel : ∀ q0 : Fin 4, ∃ t : Fin grid4.N, win4_4.index t = ![q0.val, 0, 0])

/-- Every one of the 4 batches is some point's, for the second output. -/
theorem index_onto5 : ∀ q0 : Fin 4, ∃ t : Fin cfg4.N, win4_5.index t = ![q0.val, 0, 0] :=
  (by decide +kernel : ∀ q0 : Fin 4, ∃ t : Fin grid4.N, win4_5.index t = ![q0.val, 0, 0])

/-- What point t writes back to the first output is block t of the cross term toward aim of the whole arrays:
    entry (0, p, j) of the block reads tx, px, dx in the block's own batch only, at the same inner coordinates. -/
theorem flushed_aim (c : Dev nD) (t : Fin cfg4.N) :
    (dat4 V c).flushed 4 t
      = ((cfg4.win 4).blk t).view.read (Elt Ideal) (crossAim (V c main_v21) (V c main_v25) (V c main_v26)) := by
  show (cfg4.win 4).cut (grid4.coords t) ((dat4 V c).after 4 t) = _
  rw [after4_4]
  unfold out4_4
  rw [View.canon_unit_zero zero_offsets3]
  simp only [View.ld_unit_zero (S := S1x4096x128) zero_offsets3, View.ld_unit_zero (S := S1x128x4096) zero_offsets3]
  obtain ⟨e00, e01, e02, e10, e11, e12, e20, e21, e22, e30, e31, e32, e50, e51, e52, e41, e42, e4le⟩ := index_facts t
  funext y
  obtain ⟨a, p, j, rfl⟩ : ∃ (a : Fin 1) (p : Fin 4096) (j : Fin 128), y = ix3 a p j := ⟨y 0, y 1, y 2, eq_ix3 y⟩
  obtain rfl : a = 0 := Subsingleton.elim _ _
  show k4_pay3 (F := Ideal) (iblk4 V c 0 t) (iblk4 V c 2 t) (iblk4 V c 3 t) (ix3 (0 : Fin 1) p j)
    = crossAim (V c main_v21) (V c main_v25) (V c main_v26) (((cfg4.win 4).blk t).view.emb (ix3 (0 : Fin 1) p j))
  rw [Cert.Proof.PayCross.aim_pay]
  have hT : ∀ l : Fin 128, iblk4 V c 2 t (ix3 (0 : Fin 1) p l)
      = V c main_v25 (ix3 ((((cfg4.win 4).blk t).view.emb (ix3 (0 : Fin 1) p j)) 0) ((((cfg4.win 4).blk t).view.emb (ix3 (0 : Fin 1) p j)) 1) l) := fun l => by
    show V c main_v25 (((cfg4.win 2).blk t).view.emb (ix3 (0 : Fin 1) p l)) = _
    refine congrArg (V c main_v25) (funext fun a => Fin.ext ?_)
    match a with
    | ⟨0, _⟩ =>
      show win4_2.index t (0 : Fin 3) * 1 + 1 * 0 = win4_4.index t (0 : Fin 3) * 1 + 1 * 0
      omega
    | ⟨1, _⟩ =>
      show win4_2.index t (1 : Fin 3) * 4096 + 1 * p.val = win4_4.index t (1 : Fin 3) * 4096 + 1 * p.val
      omega
    | ⟨2, _⟩ =>
      show win4_2.index t (2 : Fin 3) * 128 + 1 * l.val = l.val
      omega
  have hP : ∀ (l : Fin 128) (q : Fin 4096), iblk4 V c 3 t (ix3 (0 : Fin 1) l q)
      = V c main_v26 (ix3 ((((cfg4.win 4).blk t).view.emb (ix3 (0 : Fin 1) p j)) 0) l q) := fun l q => by
    show V c main_v26 (((cfg4.win 3).blk t).view.emb (ix3 (0 : Fin 1) l q)) = _
    refine congrArg (V c main_v26) (funext fun a => Fin.ext ?_)
    match a with
    | ⟨0, _⟩ =>
      show win4_3.index t (0 : Fin 3) * 1 + 1 * 0 = win4_4.index t (0 : Fin 3) * 1 + 1 * 0
      omega
    | ⟨1, _⟩ =>
      show win4_3.index t (1 : Fin 3) * 128 + 1 * l.val = l.val
      omega
    | ⟨2, _⟩ =>
      show win4_3.index t (2 : Fin 3) * 4096 + 1 * q.val = q.val
      omega
  have hD : ∀ q : Fin 4096, iblk4 V c 0 t (ix3 (0 : Fin 1) q j)
      = V c main_v21 (ix3 ((((cfg4.win 4).blk t).view.emb (ix3 (0 : Fin 1) p j)) 0) q ((((cfg4.win 4).blk t).view.emb (ix3 (0 : Fin 1) p j)) 2)) := fun q => by
    show V c main_v21 (((cfg4.win 0).blk t).view.emb (ix3 (0 : Fin 1) q j)) = _
    refine congrArg (V c main_v21) (funext fun a => Fin.ext ?_)
    match a with
    | ⟨0, _⟩ =>
      show win4_0.index t (0 : Fin 3) * 1 + 1 * 0 = win4_4.index t (0 : Fin 3) * 1 + 1 * 0
      omega
    | ⟨1, _⟩ =>
      show win4_0.index t (1 : Fin 3) * 4096 + 1 * q.val = q.val
      omega
    | ⟨2, _⟩ =>
      show win4_0.index t (2 : Fin 3) * 128 + 1 * j.val = win4_4.index t (2 : Fin 3) * 128 + 1 * j.val
      omega
  unfold crossAim
  simp only [hT, hP, hD]

/-- What point t writes back to the second output is block t of the cross term toward detect of the whole arrays:
    entry (0, q, j) of the block reads px, tx, ax in the block's own batch only, at the same inner coordinates. -/
theorem flushed_det (c : Dev nD) (t : Fin cfg4.N) :
    (dat4 V c).flushed 5 t
      = ((cfg4.win 5).blk t).view.read (Elt Ideal) (crossDet (V c main_v23) (V c main_v25) (V c main_v26)) := by
  show (cfg4.win 5).cut (grid4.coords t) ((dat4 V c).after 5 t) = _
  rw [after4_5]
  unfold out4_5
  rw [View.canon_unit_zero zero_offsets3]
  simp only [View.ld_unit_zero (S := S1x4096x128) zero_offsets3, View.ld_unit_zero (S := S1x128x4096) zero_offsets3]
  obtain ⟨e00, e01, e02, e10, e11, e12, e20, e21, e22, e30, e31, e32, e50, e51, e52, e41, e42, e4le⟩ := index_facts t
  funext y
  obtain ⟨a, q, j, rfl⟩ : ∃ (a : Fin 1) (q : Fin 4096) (j : Fin 128), y = ix3 a q j := ⟨y 0, y 1, y 2, eq_ix3 y⟩
  obtain rfl : a = 0 := Subsingleton.elim _ _
  show k4_pay4 (F := Ideal) (iblk4 V c 1 t) (iblk4 V c 2 t) (iblk4 V c 3 t) (ix3 (0 : Fin 1) q j)
    = crossDet (V c main_v23) (V c main_v25) (V c main_v26) (((cfg4.win 5).blk t).view.emb (ix3 (0 : Fin 1) q j))
  rw [Cert.Proof.PayCross.det_pay]
  have hP : ∀ l : Fin 128, iblk4 V c 3 t (ix3 (0 : Fin 1) l q)
      = V c main_v26 (ix3 ((((cfg4.win 5).blk t).view.emb (ix3 (0 : Fin 1) q j)) 0) l ((((cfg4.win 5).blk t).view.emb (ix3 (0 : Fin 1) q j)) 1)) := fun l => by
    show V c main_v26 (((cfg4.win 3).blk t).view.emb (ix3 (0 : Fin 1) l q)) = _
    refine congrArg (V c main_v26) (funext fun a => Fin.ext ?_)
    match a with
    | ⟨0, _⟩ =>
      show win4_3.index t (0 : Fin 3) * 1 + 1 * 0 = win4_5.index t (0 : Fin 3) * 1 + 1 * 0
      omega
    | ⟨1, _⟩ =>
      show win4_3.index t (1 : Fin 3) * 128 + 1 * l.val = l.val
      omega
    | ⟨2, _⟩ =>
      show win4_3.index t (2 : Fin 3) * 4096 + 1 * q.val = win4_5.index t (1 : Fin 3) * 4096 + 1 * q.val
      omega
  have hT : ∀ (l : Fin 128) (p : Fin 4096), iblk4 V c 2 t (ix3 (0 : Fin 1) p l)
      = V c main_v25 (ix3 ((((cfg4.win 5).blk t).view.emb (ix3 (0 : Fin 1) q j)) 0) p l) := fun l p => by
    show V c main_v25 (((cfg4.win 2).blk t).view.emb (ix3 (0 : Fin 1) p l)) = _
    refine congrArg (V c main_v25) (funext fun a => Fin.ext ?_)
    match a with
    | ⟨0, _⟩ =>
      show win4_2.index t (0 : Fin 3) * 1 + 1 * 0 = win4_5.index t (0 : Fin 3) * 1 + 1 * 0
      omega
    | ⟨1, _⟩ =>
      show win4_2.index t (1 : Fin 3) * 4096 + 1 * p.val = p.val
      omega
    | ⟨2, _⟩ =>
      show win4_2.index t (2 : Fin 3) * 128 + 1 * l.val = l.val
      omega
  have hA : ∀ p : Fin 4096, iblk4 V c 1 t (ix3 (0 : Fin 1) p j)
      = V c main_v23 (ix3 ((((cfg4.win 5).blk t).view.emb (ix3 (0 : Fin 1) q j)) 0) p ((((cfg4.win 5).blk t).view.emb (ix3 (0 : Fin 1) q j)) 2)) := fun p => by
    show V c main_v23 (((cfg4.win 1).blk t).view.emb (ix3 (0 : Fin 1) p j)) = _
    refine congrArg (V c main_v23) (funext fun a => Fin.ext ?_)
    match a with
    | ⟨0, _⟩ =>
      show win4_1.index t (0 : Fin 3) * 1 + 1 * 0 = win4_5.index t (0 : Fin 3) * 1 + 1 * 0
      omega
    | ⟨1, _⟩ =>
      show win4_1.index t (1 : Fin 3) * 4096 + 1 * p.val = p.val
      omega
    | ⟨2, _⟩ =>
      show win4_1.index t (2 : Fin 3) * 128 + 1 * j.val = win4_5.index t (2 : Fin 3) * 128 + 1 * j.val
      omega
  unfold crossDet
  simp only [hP, hT, hA]

/-- An index of the first output lies in point t's block iff each coordinate lies in the block's range on its axis. -/
theorem mem_blk4 (t : Fin cfg4.N) (i : S4x4096x128.Idx) :
    i ∈ ((cfg4.win 4).blk t).view.set ↔ ∀ a : Fin 3, win4_4.index t a * S1x4096x128.size a ≤ (i a).val
      ∧ (i a).val < win4_4.index t a * S1x4096x128.size a + S1x4096x128.size a := by
  show i ∈ ((View.whole main_v27_0).slice (win4_4.rect t)).set ↔ _
  rw [View.set_slice_whole, Rect.mem_set_unit]
  exact Iff.rfl

/-- An index of the second output lies in point t's block iff each coordinate lies in the block's range on its axis. -/
theorem mem_blk5 (t : Fin cfg4.N) (i : S4x4096x128.Idx) :
    i ∈ ((cfg4.win 5).blk t).view.set ↔ ∀ a : Fin 3, win4_5.index t a * S1x4096x128.size a ≤ (i a).val
      ∧ (i a).val < win4_5.index t a * S1x4096x128.size a + S1x4096x128.size a := by
  show i ∈ ((View.whole main_v27_1).slice (win4_5.rect t)).set ↔ _
  rw [View.set_slice_whole, Rect.mem_set_unit]
  exact Iff.rfl

/-- Entry (b, p, j) of the first output lies in the block of the point whose batch is b. -/
theorem cover4 (i : S4x4096x128.Idx) :
    ∃ t : Fin cfg4.N, (cfg4.win 4).flush t = true ∧ i ∈ ((cfg4.win 4).blk t).view.set := by
  have hi0 : (i 0).val < 4 := (i 0).isLt
  have hi1 : (i 1).val < 4096 := (i 1).isLt
  have hi2 : (i 2).val < 128 := (i 2).isLt
  obtain ⟨t, ht⟩ := index_onto4 ⟨(i 0).val, hi0⟩
  have q0 : win4_4.index t (0 : Fin 3) = (i 0).val := congrFun ht 0
  have q1 : win4_4.index t (1 : Fin 3) = 0 := congrFun ht 1
  have q2 : win4_4.index t (2 : Fin 3) = 0 := congrFun ht 2
  refine ⟨t, flush4_4 t, ?_⟩
  rw [mem_blk4]
  intro a
  match a with
  | ⟨0, _⟩ =>
    show win4_4.index t (0 : Fin 3) * 1 ≤ (i 0).val ∧ (i 0).val < win4_4.index t (0 : Fin 3) * 1 + 1
    omega
  | ⟨1, _⟩ =>
    show win4_4.index t (1 : Fin 3) * 4096 ≤ (i 1).val ∧ (i 1).val < win4_4.index t (1 : Fin 3) * 4096 + 4096
    omega
  | ⟨2, _⟩ =>
    show win4_4.index t (2 : Fin 3) * 128 ≤ (i 2).val ∧ (i 2).val < win4_4.index t (2 : Fin 3) * 128 + 128
    omega

/-- Entry (b, q, j) of the second output lies in the block of the point whose batch is b. -/
theorem cover5 (i : S4x4096x128.Idx) :
    ∃ t : Fin cfg4.N, (cfg4.win 5).flush t = true ∧ i ∈ ((cfg4.win 5).blk t).view.set := by
  have hi0 : (i 0).val < 4 := (i 0).isLt
  have hi1 : (i 1).val < 4096 := (i 1).isLt
  have hi2 : (i 2).val < 128 := (i 2).isLt
  obtain ⟨t, ht⟩ := index_onto5 ⟨(i 0).val, hi0⟩
  have q0 : win4_5.index t (0 : Fin 3) = (i 0).val := congrFun ht 0
  have q1 : win4_5.index t (1 : Fin 3) = 0 := congrFun ht 1
  have q2 : win4_5.index t (2 : Fin 3) = 0 := congrFun ht 2
  refine ⟨t, flush4_5 t, ?_⟩
  rw [mem_blk5]
  intro a
  match a with
  | ⟨0, _⟩ =>
    show win4_5.index t (0 : Fin 3) * 1 ≤ (i 0).val ∧ (i 0).val < win4_5.index t (0 : Fin 3) * 1 + 1
    omega
  | ⟨1, _⟩ =>
    show win4_5.index t (1 : Fin 3) * 4096 ≤ (i 1).val ∧ (i 1).val < win4_5.index t (1 : Fin 3) * 4096 + 4096
    omega
  | ⟨2, _⟩ =>
    show win4_5.index t (2 : Fin 3) * 128 ≤ (i 2).val ∧ (i 2).val < win4_5.index t (2 : Fin 3) * 128 + 128
    omega

/-- After the launch the first output is the cross term toward aim of the arrays the launch found. -/
theorem arr_aim (c : Dev nD) :
    (dat4 V c).arrAt 4 cfg4.N = crossAim (V c main_v21) (V c main_v25) (V c main_v26) := by
  exact (dat4 V c).arrAt_eq_of_cover 4 _ (fun t _ => flushed_aim V c t) cover4

/-- After the launch the second output is the cross term toward detect of the arrays the launch found. -/
theorem arr_det (c : Dev nD) :
    (dat4 V c).arrAt 5 cfg4.N = crossDet (V c main_v23) (V c main_v25) (V c main_v26) := by
  exact (dat4 V c).arrAt_eq_of_cover 5 _ (fun t _ => flushed_det V c t) cover5

end Cert.Proof.Arr4

end
-- ==== Proof.Arr5.lean ====
/-
  The linear launch with a residual toward aim, from blocks to the whole array. The grid has 8 points; point t stages
  rows 1024 t … 1024 t + 1023 of the flattened input and of the residual [8192, 256], the whole transposed weight and the
  bias row, and writes back the same rows of the output. The layer and the residual act on each row by itself, so block t
  of the output is block t of the layer applied to the whole arrays, and the eight blocks tile the output.
-/
import proofs.«170012_j14542759264790_1_alg».proof.Proof.Gen.KernelIdeal.Frame
import proofs.«170012_j14542759264790_1_alg».proof.Proof.PayLin
import proofs.«170012_j14542759264790_1_alg».proof.Proof.Spec
import Idealize.ShloMosaic.Lib.Pipeline.Value

noncomputable section

open scoped BigOperators

namespace Cert.Proof.Arr5

open Cert.KernelIdeal Cert.KernelIdeal.Gen Idealize.ShloMosaic Idealize.ShloMosaic.TcCoe Idealize.SL.Sem Idealize.ShloMosaic.ValueIdx Cert.Proof.Spec
open Idealize.ShloMosaic.Pipeline (Dat)

open Cert.Proof.PayLin

variable (V : (c : Dev nD) → (b : Ref sig .tc) → Buf (Elt Ideal) ((c : Thread nD τ).loc b))

theorem zero_offsets : (![0, 0] : Fin 2 → Nat) = fun _ => 0 := funext fun a => by fin_cases a <;> rfl

/-- Over the 8 grid points: the input's and the residual's row block move with the output's, and every other block
    index is 0. -/
theorem index_facts : ∀ t : Fin cfg5.N, win5_0.index t (0 : Fin 2) = win5_4.index t (0 : Fin 2)
    ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = win5_4.index t (0 : Fin 2) ∧ win5_3.index t (1 : Fin 2) = 0
    ∧ win5_4.index t (1 : Fin 2) = 0 ∧ win5_4.index t (0 : Fin 2) ≤ 7 :=
  (by decide +kernel : ∀ t : Fin grid5.N, _)

/-- Every one of the 8 row blocks is some point's. -/
theorem index_onto : ∀ q0 : Fin 8, ∃ t : Fin cfg5.N, win5_4.index t = ![q0.val, 0] :=
  (by decide +kernel : ∀ q0 : Fin 8, ∃ t : Fin grid5.N, win5_4.index t = ![q0.val, 0])

/-- What point t writes back is block t of the layer with residual applied to the whole arrays. -/
theorem flushed_eq (c : Dev nD) (t : Fin cfg5.N) :
    (dat5 V c).flushed 4 t
      = ((cfg5.win 4).blk t).view.read (Elt Ideal) (linResRows (V c main_v32) (V c main_v33) (V c main_v34) (V c main_v35)) := by
  show (cfg5.win 4).cut (grid5.coords t) ((dat5 V c).after 4 t) = _
  rw [after5_4]
  unfold out5_4
  rw [View.canon_unit_zero zero_offsets]
  simp only [View.ld_unit_zero (S := S1024x256) zero_offsets, View.ld_unit_zero (S := S256x256) zero_offsets,
    View.ld_unit_zero (S := S1x256) zero_offsets]
  rw [linres_pay5]
  obtain ⟨e0, e1, e2, e3, e4, e5, e6, e7, e8, e9⟩ := index_facts t
  funext j
  show linResRows (iblk5 V c 0 t) (iblk5 V c 1 t) (iblk5 V c 2 t) (iblk5 V c 3 t) j
    = linResRows (V c main_v32) (V c main_v33) (V c main_v34) (V c main_v35) (((cfg5.win 4).blk t).view.emb j)
  have hX : ∀ k : Fin 256, iblk5 V c 0 t (ix2 (j 0) k)
      = V c main_v32 (ix2 ((((cfg5.win 4).blk t).view.emb j) 0) k) := fun k => by
    show V c main_v32 (((cfg5.win 0).blk t).view.emb (ix2 (j 0) k)) = _
    refine congrArg (V c main_v32) (funext fun a => Fin.ext ?_)
    match a with
    | ⟨0, _⟩ =>
      show win5_0.index t (0 : Fin 2) * 1024 + 1 * (j 0).val = win5_4.index t (0 : Fin 2) * 1024 + 1 * (j 0).val
      omega
    | ⟨1, _⟩ =>
      show win5_0.index t (1 : Fin 2) * 256 + 1 * k.val = k.val
      omega
  have hW : ∀ k : Fin 256, iblk5 V c 1 t (ix2 k (j 1))
      = V c main_v33 (ix2 k ((((cfg5.win 4).blk t).view.emb j) 1)) := fun k => by
    show V c main_v33 (((cfg5.win 1).blk t).view.emb (ix2 k (j 1))) = _
    refine congrArg (V c main_v33) (funext fun a => Fin.ext ?_)
    match a with
    | ⟨0, _⟩ =>
      show win5_1.index t (0 : Fin 2) * 256 + 1 * k.val = k.val
      omega
    | ⟨1, _⟩ =>
      show win5_1.index t (1 : Fin 2) * 256 + 1 * (j 1).val = win5_4.index t (1 : Fin 2) * 256 + 1 * (j 1).val
      omega
  have hB : iblk5 V c 2 t (ix2 (0 : Fin 1) (j 1))
      = V c main_v34 (ix2 (0 : Fin 1) ((((cfg5.win 4).blk t).view.emb j) 1)) := by
    show V c main_v34 (((cfg5.win 2).blk t).view.emb (ix2 (0 : Fin 1) (j 1))) = _
    refine congrArg (V c main_v34) (funext fun a => Fin.ext ?_)
    match a with
    | ⟨0, _⟩ =>
      show win5_2.index t (0 : Fin 2) * 1 + 1 * 0 = 0
      omega
    | ⟨1, _⟩ =>
      show win5_2.index t (1 : Fin 2) * 256 + 1 * (j 1).val = win5_4.index t (1 : Fin 2) * 256 + 1 * (j 1).val
      omega
  have hR : iblk5 V c 3 t j = V c main_v35 (((cfg5.win 4).blk t).view.emb j) := by
    show V c main_v35 (((cfg5.win 3).blk t).view.emb j) = _
    refine congrArg (V c main_v35) (funext fun a => Fin.ext ?_)
    match a with
    | ⟨0, _⟩ =>
      show win5_3.index t (0 : Fin 2) * 1024 + 1 * (j 0).val = win5_4.index t (0 : Fin 2) * 1024 + 1 * (j 0).val
      omega
    | ⟨1, _⟩ =>
      show win5_3.index t (1 : Fin 2) * 256 + 1 * (j 1).val = win5_4.index t (1 : Fin 2) * 256 + 1 * (j 1).val
      omega
  unfold linResRows linRows
  rw [hB, hR]
  exact congrArg (· + _ + _) (Finset.sum_congr rfl fun k _ => by rw [hX k, hW k])

/-- An index of the output lies in point t's block iff each coordinate lies in the block's range on its axis. -/
theorem mem_blk (t : Fin cfg5.N) (i : S8192x256.Idx) :
    i ∈ ((cfg5.win 4).blk t).view.set ↔ ∀ a : Fin 2, win5_4.index t a * S1024x256.size a ≤ (i a).val
      ∧ (i a).val < win5_4.index t a * S1024x256.size a + S1024x256.size a := by
  show i ∈ ((View.whole main_v36).slice (win5_4.rect t)).set ↔ _
  rw [View.set_slice_whole, Rect.mem_set_unit]
  exact Iff.rfl

/-- Row r of the output lies in the block of the point whose row block is r / 1024. -/
theorem cover (i : S8192x256.Idx) :
    ∃ t : Fin cfg5.N, (cfg5.win 4).flush t = true ∧ i ∈ ((cfg5.win 4).blk t).view.set := by
  have hi0 : (i 0).val < 8192 := (i 0).isLt
  have hi1 : (i 1).val < 256 := (i 1).isLt
  obtain ⟨t, ht⟩ := index_onto ⟨(i 0).val / 1024, by omega⟩
  have q0 : win5_4.index t (0 : Fin 2) = (i 0).val / 1024 := congrFun ht 0
  have q1 : win5_4.index t (1 : Fin 2) = 0 := congrFun ht 1
  refine ⟨t, flush5_4 t, ?_⟩
  rw [mem_blk]
  intro a
  match a with
  | ⟨0, _⟩ =>
    show win5_4.index t (0 : Fin 2) * 1024 ≤ (i 0).val ∧ (i 0).val < win5_4.index t (0 : Fin 2) * 1024 + 1024
    omega
  | ⟨1, _⟩ =>
    show win5_4.index t (1 : Fin 2) * 256 ≤ (i 1).val ∧ (i 1).val < win5_4.index t (1 : Fin 2) * 256 + 256
    omega

/-- After the launch the output array is the linear layer with residual of the arrays the launch found. -/
theorem arr (c : Dev nD) :
    (dat5 V c).arrAt 4 cfg5.N = linResRows (V c main_v32) (V c main_v33) (V c main_v34) (V c main_v35) := by
  exact (dat5 V c).arrAt_eq_of_cover 4 _ (fun t _ => flushed_eq V c t) cover

end Cert.Proof.Arr5

end
-- ==== Proof.Arr6.lean ====
/-
  The linear launch with a residual toward detect, from blocks to the whole array. The grid has 8 points; point t stages
  rows 1024 t … 1024 t + 1023 of the flattened input and of the residual [8192, 256], the whole transposed weight and the
  bias row, and writes back the same rows of the output. The layer and the residual act on each row by itself, so block t
  of the output is block t of the layer applied to the whole arrays, and the eight blocks tile the output.
-/
import proofs.«170012_j14542759264790_1_alg».proof.Proof.Gen.KernelIdeal.Frame
import proofs.«170012_j14542759264790_1_alg».proof.Proof.PayLin
import proofs.«170012_j14542759264790_1_alg».proof.Proof.Spec
import Idealize.ShloMosaic.Lib.Pipeline.Value

noncomputable section

open scoped BigOperators

namespace Cert.Proof.Arr6

open Cert.KernelIdeal Cert.KernelIdeal.Gen Idealize.ShloMosaic Idealize.ShloMosaic.TcCoe Idealize.SL.Sem Idealize.ShloMosaic.ValueIdx Cert.Proof.Spec
open Idealize.ShloMosaic.Pipeline (Dat)

open Cert.Proof.PayLin

variable (V : (c : Dev nD) → (b : Ref sig .tc) → Buf (Elt Ideal) ((c : Thread nD τ).loc b))

theorem zero_offsets : (![0, 0] : Fin 2 → Nat) = fun _ => 0 := funext fun a => by fin_cases a <;> rfl

/-- Over the 8 grid points: the input's and the residual's row block move with the output's, and every other block
    index is 0. -/
theorem index_facts : ∀ t : Fin cfg6.N, win6_0.index t (0 : Fin 2) = win6_4.index t (0 : Fin 2)
    ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = win6_4.index t (0 : Fin 2) ∧ win6_3.index t (1 : Fin 2) = 0
    ∧ win6_4.index t (1 : Fin 2) = 0 ∧ win6_4.index t (0 : Fin 2) ≤ 7 :=
  (by decide +kernel : ∀ t : Fin grid6.N, _)

/-- Every one of the 8 row blocks is some point's. -/
theorem index_onto : ∀ q0 : Fin 8, ∃ t : Fin cfg6.N, win6_4.index t = ![q0.val, 0] :=
  (by decide +kernel : ∀ q0 : Fin 8, ∃ t : Fin grid6.N, win6_4.index t = ![q0.val, 0])

/-- What point t writes back is block t of the layer with residual applied to the whole arrays. -/
theorem flushed_eq (c : Dev nD) (t : Fin cfg6.N) :
    (dat6 V c).flushed 4 t
      = ((cfg6.win 4).blk t).view.read (Elt Ideal) (linResRows (V c main_v38) (V c main_v39) (V c main_v40) (V c main_v41)) := by
  show (cfg6.win 4).cut (grid6.coords t) ((dat6 V c).after 4 t) = _
  rw [after6_4]
  unfold out6_4
  rw [View.canon_unit_zero zero_offsets]
  simp only [View.ld_unit_zero (S := S1024x256) zero_offsets, View.ld_unit_zero (S := S256x256) zero_offsets,
    View.ld_unit_zero (S := S1x256) zero_offsets]
  rw [linres_pay6]
  obtain ⟨e0, e1, e2, e3, e4, e5, e6, e7, e8, e9⟩ := index_facts t
  funext j
  show linResRows (iblk6 V c 0 t) (iblk6 V c 1 t) (iblk6 V c 2 t) (iblk6 V c 3 t) j
    = linResRows (V c main_v38) (V c main_v39) (V c main_v40) (V c main_v41) (((cfg6.win 4).blk t).view.emb j)
  have hX : ∀ k : Fin 256, iblk6 V c 0 t (ix2 (j 0) k)
      = V c main_v38 (ix2 ((((cfg6.win 4).blk t).view.emb j) 0) k) := fun k => by
    show V c main_v38 (((cfg6.win 0).blk t).view.emb (ix2 (j 0) k)) = _
    refine congrArg (V c main_v38) (funext fun a => Fin.ext ?_)
    match a with
    | ⟨0, _⟩ =>
      show win6_0.index t (0 : Fin 2) * 1024 + 1 * (j 0).val = win6_4.index t (0 : Fin 2) * 1024 + 1 * (j 0).val
      omega
    | ⟨1, _⟩ =>
      show win6_0.index t (1 : Fin 2) * 256 + 1 * k.val = k.val
      omega
  have hW : ∀ k : Fin 256, iblk6 V c 1 t (ix2 k (j 1))
      = V c main_v39 (ix2 k ((((cfg6.win 4).blk t).view.emb j) 1)) := fun k => by
    show V c main_v39 (((cfg6.win 1).blk t).view.emb (ix2 k (j 1))) = _
    refine congrArg (V c main_v39) (funext fun a => Fin.ext ?_)
    match a with
    | ⟨0, _⟩ =>
      show win6_1.index t (0 : Fin 2) * 256 + 1 * k.val = k.val
      omega
    | ⟨1, _⟩ =>
      show win6_1.index t (1 : Fin 2) * 256 + 1 * (j 1).val = win6_4.index t (1 : Fin 2) * 256 + 1 * (j 1).val
      omega
  have hB : iblk6 V c 2 t (ix2 (0 : Fin 1) (j 1))
      = V c main_v40 (ix2 (0 : Fin 1) ((((cfg6.win 4).blk t).view.emb j) 1)) := by
    show V c main_v40 (((cfg6.win 2).blk t).view.emb (ix2 (0 : Fin 1) (j 1))) = _
    refine congrArg (V c main_v40) (funext fun a => Fin.ext ?_)
    match a with
    | ⟨0, _⟩ =>
      show win6_2.index t (0 : Fin 2) * 1 + 1 * 0 = 0
      omega
    | ⟨1, _⟩ =>
      show win6_2.index t (1 : Fin 2) * 256 + 1 * (j 1).val = win6_4.index t (1 : Fin 2) * 256 + 1 * (j 1).val
      omega
  have hR : iblk6 V c 3 t j = V c main_v41 (((cfg6.win 4).blk t).view.emb j) := by
    show V c main_v41 (((cfg6.win 3).blk t).view.emb j) = _
    refine congrArg (V c main_v41) (funext fun a => Fin.ext ?_)
    match a with
    | ⟨0, _⟩ =>
      show win6_3.index t (0 : Fin 2) * 1024 + 1 * (j 0).val = win6_4.index t (0 : Fin 2) * 1024 + 1 * (j 0).val
      omega
    | ⟨1, _⟩ =>
      show win6_3.index t (1 : Fin 2) * 256 + 1 * (j 1).val = win6_4.index t (1 : Fin 2) * 256 + 1 * (j 1).val
      omega
  unfold linResRows linRows
  rw [hB, hR]
  exact congrArg (· + _ + _) (Finset.sum_congr rfl fun k _ => by rw [hX k, hW k])

/-- An index of the output lies in point t's block iff each coordinate lies in the block's range on its axis. -/
theorem mem_blk (t : Fin cfg6.N) (i : S8192x256.Idx) :
    i ∈ ((cfg6.win 4).blk t).view.set ↔ ∀ a : Fin 2, win6_4.index t a * S1024x256.size a ≤ (i a).val
      ∧ (i a).val < win6_4.index t a * S1024x256.size a + S1024x256.size a := by
  show i ∈ ((View.whole main_v42).slice (win6_4.rect t)).set ↔ _
  rw [View.set_slice_whole, Rect.mem_set_unit]
  exact Iff.rfl

/-- Row r of the output lies in the block of the point whose row block is r / 1024. -/
theorem cover (i : S8192x256.Idx) :
    ∃ t : Fin cfg6.N, (cfg6.win 4).flush t = true ∧ i ∈ ((cfg6.win 4).blk t).view.set := by
  have hi0 : (i 0).val < 8192 := (i 0).isLt
  have hi1 : (i 1).val < 256 := (i 1).isLt
  obtain ⟨t, ht⟩ := index_onto ⟨(i 0).val / 1024, by omega⟩
  have q0 : win6_4.index t (0 : Fin 2) = (i 0).val / 1024 := congrFun ht 0
  have q1 : win6_4.index t (1 : Fin 2) = 0 := congrFun ht 1
  refine ⟨t, flush6_4 t, ?_⟩
  rw [mem_blk]
  intro a
  match a with
  | ⟨0, _⟩ =>
    show win6_4.index t (0 : Fin 2) * 1024 ≤ (i 0).val ∧ (i 0).val < win6_4.index t (0 : Fin 2) * 1024 + 1024
    omega
  | ⟨1, _⟩ =>
    show win6_4.index t (1 : Fin 2) * 256 ≤ (i 1).val ∧ (i 1).val < win6_4.index t (1 : Fin 2) * 256 + 256
    omega

/-- After the launch the output array is the linear layer with residual of the arrays the launch found. -/
theorem arr (c : Dev nD) :
    (dat6 V c).arrAt 4 cfg6.N = linResRows (V c main_v38) (V c main_v39) (V c main_v40) (V c main_v41) := by
  exact (dat6 V c).arrAt_eq_of_cover 4 _ (fun t _ => flushed_eq V c t) cover

end Cert.Proof.Arr6

end
-- ==== Proof.KernelWalk.lean ====
/-
  The tiled program's results, read back through its run. The run's last boundary holds, at each result buffer, what
  the seven launches and the reshapes and transposes between them compute from the launch contents of the arguments:
  each launch's output array is its layer (or cross term) of the arrays it found, each host operation's result its
  function of its operand, and every buffer keeps its contents across the stretches and launches that do not write it.
-/
import proofs.«170012_j14542759264790_1_alg».proof.Proof.Gen.KernelIdeal.Frame
import proofs.«170012_j14542759264790_1_alg».proof.Proof.KernelTerm
import proofs.«170012_j14542759264790_1_alg».proof.Proof.Arr0
import proofs.«170012_j14542759264790_1_alg».proof.Proof.Arr1
import proofs.«170012_j14542759264790_1_alg».proof.Proof.Arr2
import proofs.«170012_j14542759264790_1_alg».proof.Proof.Arr3
import proofs.«170012_j14542759264790_1_alg».proof.Proof.Arr4
import proofs.«170012_j14542759264790_1_alg».proof.Proof.Arr5
import proofs.«170012_j14542759264790_1_alg».proof.Proof.Arr6
import Idealize.ShloMosaic.Lib.StableHlo.Run

noncomputable section

open scoped BigOperators

namespace Cert.Proof.KernelWalk

open Cert.KernelIdeal Cert.KernelIdeal.Gen Idealize.ShloMosaic Idealize.ShloMosaic.TcCoe Idealize.SL.Sem Cert.Proof.Spec Cert.Proof.KernelTerm

variable (m : (ℓ : Loc nD τ sig) → Buf (Elt Ideal) ℓ) (ρ : Dev nD → PrngReg)

/-- An argument's launch contents on core c. -/
abbrev arg (c : Dev nD) (b : Ref sig .tc) : Buf (Elt Ideal) ((c.tc : Thread nD τ).loc b) := m ((c.tc : Thread nD τ).loc b)
/-- [4, 2048, 256] flattened to [8192, 256]. -/
abbrev flat (x : FVec Ideal S4x2048x256 .f32) : FVec Ideal S8192x256 .f32 := shapeCast S8192x256 x shapeCasts_S4x2048x256_S8192x256
/-- A weight matrix transposed. -/
abbrev wT (w : FVec Ideal S256x256 .f32) : FVec Ideal S256x256 .f32 := transpose S256x256 [1, 0] w transposes_S256x256_S256x256_1_0
/-- A bias vector as a 1 x 256 row. -/
abbrev row (b : FVec Ideal S256 .f32) : FVec Ideal S1x256 .f32 := shapeCast S1x256 b shapeCasts_S256_S1x256

/-! ## Buffers keep their contents across what does not write them -/

/-- A buffer the stretch before boundary 1 does not write keeps its contents. -/
theorem keep1 (c : Dev nD) (b : Ref sig .tc) (hb : b ∉ [main_v0, main_v1, main_v2]) :
    W1 (F := Ideal) m ρ c (Proc.devRef .tc b) = W0 m ρ c (Proc.devRef .tc b) :=
  StableHlo.after_of_writes_sub (W := [main_v0, main_v1, main_v2]) hostOps0 _ (by
    simp only [hostOps0, List.Forall, StableHlo.reshape_writes, StableHlo.unary_writes, List.map_cons, List.map_nil,
      List.toFinset_cons, List.toFinset_nil, Finset.singleton_subset_iff, Finset.mem_insert, Finset.mem_singleton,
      true_or, or_true, and_self]) hb
/-- A buffer the stretch before boundary 3 does not write keeps its contents. -/
theorem keep3 (c : Dev nD) (b : Ref sig .tc) (hb : b ∉ [main_v4, main_v5, main_v6, main_v7]) :
    W3 (F := Ideal) m ρ c (Proc.devRef .tc b) = W2 m ρ c (Proc.devRef .tc b) :=
  StableHlo.after_of_writes_sub (W := [main_v4, main_v5, main_v6, main_v7]) hostOps1 _ (by
    simp only [hostOps1, List.Forall, StableHlo.reshape_writes, StableHlo.unary_writes, List.map_cons, List.map_nil,
      List.toFinset_cons, List.toFinset_nil, Finset.singleton_subset_iff, Finset.mem_insert, Finset.mem_singleton,
      true_or, or_true, and_self]) hb
/-- A buffer the stretch before boundary 5 does not write keeps its contents. -/
theorem keep5 (c : Dev nD) (b : Ref sig .tc) (hb : b ∉ [main_v9, main_v10, main_v11, main_v12]) :
    W5 (F := Ideal) m ρ c (Proc.devRef .tc b) = W4 m ρ c (Proc.devRef .tc b) :=
  StableHlo.after_of_writes_sub (W := [main_v9, main_v10, main_v11, main_v12]) hostOps2 _ (by
    simp only [hostOps2, List.Forall, StableHlo.reshape_writes, StableHlo.unary_writes, List.map_cons, List.map_nil,
      List.toFinset_cons, List.toFinset_nil, Finset.singleton_subset_iff, Finset.mem_insert, Finset.mem_singleton,
      true_or, or_true, and_self]) hb
/-- A buffer the stretch before boundary 7 does not write keeps its contents. -/
theorem keep7 (c : Dev nD) (b : Ref sig .tc) (hb : b ∉ [main_v14, main_v15, main_v16, main_v17]) :
    W7 (F := Ideal) m ρ c (Proc.devRef .tc b) = W6 m ρ c (Proc.devRef .tc b) :=
  StableHlo.after_of_writes_sub (W := [main_v14, main_v15, main_v16, main_v17]) hostOps3 _ (by
    simp only [hostOps3, List.Forall, StableHlo.reshape_writes, StableHlo.unary_writes, List.map_cons, List.map_nil,
      List.toFinset_cons, List.toFinset_nil, Finset.singleton_subset_iff, Finset.mem_insert, Finset.mem_singleton,
      true_or, or_true, and_self]) hb
/-- A buffer the stretch before boundary 9 does not write keeps its contents. -/
theorem keep9 (c : Dev nD) (b : Ref sig .tc) (hb : b ∉ [main_v19, main_v20, main_v21, main_v22, main_v23, main_v24, main_v25, main_v26]) :
    W9 (F := Ideal) m ρ c (Proc.devRef .tc b) = W8 m ρ c (Proc.devRef .tc b) :=
  StableHlo.after_of_writes_sub (W := [main_v19, main_v20, main_v21, main_v22, main_v23, main_v24, main_v25, main_v26]) hostOps4 _ (by
    simp only [hostOps4, List.Forall, StableHlo.reshape_writes, StableHlo.unary_writes, List.map_cons, List.map_nil,
      List.toFinset_cons, List.toFinset_nil, Finset.singleton_subset_iff, Finset.mem_insert, Finset.mem_singleton,
      true_or, or_true, and_self]) hb
/-- A buffer the stretch before boundary 11 does not write keeps its contents. -/
theorem keep11 (c : Dev nD) (b : Ref sig .tc) (hb : b ∉ [main_v28, main_v29, main_v30, main_v31, main_v32, main_v33, main_v34, main_v35]) :
    W11 (F := Ideal) m ρ c (Proc.devRef .tc b) = W10 m ρ c (Proc.devRef .tc b) :=
  StableHlo.after_of_writes_sub (W := [main_v28, main_v29, main_v30, main_v31, main_v32, main_v33, main_v34, main_v35]) hostOps5 _ (by
    simp only [hostOps5, List.Forall, StableHlo.reshape_writes, StableHlo.unary_writes, List.map_cons, List.map_nil,
      List.toFinset_cons, List.toFinset_nil, Finset.singleton_subset_iff, Finset.mem_insert, Finset.mem_singleton,
      true_or, or_true, and_self]) hb
/-- A buffer the stretch before boundary 13 does not write keeps its contents. -/
theorem keep13 (c : Dev nD) (b : Ref sig .tc) (hb : b ∉ [main_v37, main_v38, main_v39, main_v40, main_v41]) :
    W13 (F := Ideal) m ρ c (Proc.devRef .tc b) = W12 m ρ c (Proc.devRef .tc b) :=
  StableHlo.after_of_writes_sub (W := [main_v37, main_v38, main_v39, main_v40, main_v41]) hostOps6 _ (by
    simp only [hostOps6, List.Forall, StableHlo.reshape_writes, StableHlo.unary_writes, List.map_cons, List.map_nil,
      List.toFinset_cons, List.toFinset_nil, Finset.singleton_subset_iff, Finset.mem_insert, Finset.mem_singleton,
      true_or, or_true, and_self]) hb
/-- A buffer the stretch before boundary 15 does not write keeps its contents. -/
theorem keep15 (c : Dev nD) (b : Ref sig .tc) (hb : b ∉ [main_v43]) :
    W15 (F := Ideal) m ρ c (Proc.devRef .tc b) = W14 m ρ c (Proc.devRef .tc b) :=
  StableHlo.after_of_writes_sub (W := [main_v43]) hostOps7 _ (by
    simp only [hostOps7, List.Forall, StableHlo.reshape_writes, StableHlo.unary_writes, List.map_cons, List.map_nil,
      List.toFinset_cons, List.toFinset_nil, Finset.singleton_subset_iff, Finset.mem_insert, Finset.mem_singleton,
      true_or, or_true, and_self]) hb

/-- At the launch every buffer holds the launch memory. -/
theorem at0 (c : Dev nD) (b : Ref sig .tc) : W0 (F := Ideal) m ρ c (Proc.devRef .tc b) = m ((c.tc : Thread nD τ).loc b) := rfl
/-- A buffer untouched up to boundary 2 still holds the launch memory there. -/
theorem back2 (c : Dev nD) (b : Ref sig .tc) (h0 : b ∉ [main_v0, main_v1, main_v2]) (r0 : ∀ w, Pipeline.arrRef spec0 w ≠ b) :
    W2 (F := Ideal) m ρ c (Proc.devRef .tc b) = m ((c.tc : Thread nD τ).loc b) :=
  (W2_of_ne m ρ c b r0).trans ((keep1 m ρ c b h0).trans (at0 m ρ c b))
/-- A buffer untouched up to boundary 4 still holds the launch memory there. -/
theorem back4 (c : Dev nD) (b : Ref sig .tc) (h0 : b ∉ [main_v0, main_v1, main_v2]) (r0 : ∀ w, Pipeline.arrRef spec0 w ≠ b) (h1 : b ∉ [main_v4, main_v5, main_v6, main_v7]) (r1 : ∀ w, Pipeline.arrRef spec1 w ≠ b) :
    W4 (F := Ideal) m ρ c (Proc.devRef .tc b) = m ((c.tc : Thread nD τ).loc b) :=
  (W4_of_ne m ρ c b r1).trans ((keep3 m ρ c b h1).trans (back2 m ρ c b h0 r0))
/-- A buffer untouched up to boundary 6 still holds the launch memory there. -/
theorem back6 (c : Dev nD) (b : Ref sig .tc) (h0 : b ∉ [main_v0, main_v1, main_v2]) (r0 : ∀ w, Pipeline.arrRef spec0 w ≠ b) (h1 : b ∉ [main_v4, main_v5, main_v6, main_v7]) (r1 : ∀ w, Pipeline.arrRef spec1 w ≠ b) (h2 : b ∉ [main_v9, main_v10, main_v11, main_v12]) (r2 : ∀ w, Pipeline.arrRef spec2 w ≠ b) :
    W6 (F := Ideal) m ρ c (Proc.devRef .tc b) = m ((c.tc : Thread nD τ).loc b) :=
  (W6_of_ne m ρ c b r2).trans ((keep5 m ρ c b h2).trans (back4 m ρ c b h0 r0 h1 r1))
/-- A buffer untouched up to boundary 8 still holds the launch memory there. -/
theorem back8 (c : Dev nD) (b : Ref sig .tc) (h0 : b ∉ [main_v0, main_v1, main_v2]) (r0 : ∀ w, Pipeline.arrRef spec0 w ≠ b) (h1 : b ∉ [main_v4, main_v5, main_v6, main_v7]) (r1 : ∀ w, Pipeline.arrRef spec1 w ≠ b) (h2 : b ∉ [main_v9, main_v10, main_v11, main_v12]) (r2 : ∀ w, Pipeline.arrRef spec2 w ≠ b) (h3 : b ∉ [main_v14, main_v15, main_v16, main_v17]) (r3 : ∀ w, Pipeline.arrRef spec3 w ≠ b) :
    W8 (F := Ideal) m ρ c (Proc.devRef .tc b) = m ((c.tc : Thread nD τ).loc b) :=
  (W8_of_ne m ρ c b r3).trans ((keep7 m ρ c b h3).trans (back6 m ρ c b h0 r0 h1 r1 h2 r2))
/-- A buffer untouched up to boundary 10 still holds the launch memory there. -/
theorem back10 (c : Dev nD) (b : Ref sig .tc) (h0 : b ∉ [main_v0, main_v1, main_v2]) (r0 : ∀ w, Pipeline.arrRef spec0 w ≠ b) (h1 : b ∉ [main_v4, main_v5, main_v6, main_v7]) (r1 : ∀ w, Pipeline.arrRef spec1 w ≠ b) (h2 : b ∉ [main_v9, main_v10, main_v11, main_v12]) (r2 : ∀ w, Pipeline.arrRef spec2 w ≠ b) (h3 : b ∉ [main_v14, main_v15, main_v16, main_v17]) (r3 : ∀ w, Pipeline.arrRef spec3 w ≠ b) (h4 : b ∉ [main_v19, main_v20, main_v21, main_v22, main_v23, main_v24, main_v25, main_v26]) (r4 : ∀ w, Pipeline.arrRef spec4 w ≠ b) :
    W10 (F := Ideal) m ρ c (Proc.devRef .tc b) = m ((c.tc : Thread nD τ).loc b) :=
  (W10_of_ne m ρ c b r4).trans ((keep9 m ρ c b h4).trans (back8 m ρ c b h0 r0 h1 r1 h2 r2 h3 r3))
/-- A buffer untouched up to boundary 12 still holds the launch memory there. -/
theorem back12 (c : Dev nD) (b : Ref sig .tc) (h0 : b ∉ [main_v0, main_v1, main_v2]) (r0 : ∀ w, Pipeline.arrRef spec0 w ≠ b) (h1 : b ∉ [main_v4, main_v5, main_v6, main_v7]) (r1 : ∀ w, Pipeline.arrRef spec1 w ≠ b) (h2 : b ∉ [main_v9, main_v10, main_v11, main_v12]) (r2 : ∀ w, Pipeline.arrRef spec2 w ≠ b) (h3 : b ∉ [main_v14, main_v15, main_v16, main_v17]) (r3 : ∀ w, Pipeline.arrRef spec3 w ≠ b) (h4 : b ∉ [main_v19, main_v20, main_v21, main_v22, main_v23, main_v24, main_v25, main_v26]) (r4 : ∀ w, Pipeline.arrRef spec4 w ≠ b) (h5 : b ∉ [main_v28, main_v29, main_v30, main_v31, main_v32, main_v33, main_v34, main_v35]) (r5 : ∀ w, Pipeline.arrRef spec5 w ≠ b) :
    W12 (F := Ideal) m ρ c (Proc.devRef .tc b) = m ((c.tc : Thread nD τ).loc b) :=
  (W12_of_ne m ρ c b r5).trans ((keep11 m ρ c b h5).trans (back10 m ρ c b h0 r0 h1 r1 h2 r2 h3 r3 h4 r4))

/-! ## The boundaries, in order -/

/-- Before the first launch: detect flattened. -/
theorem v0_1 (c : Dev nD) : W1 (F := Ideal) m ρ c (Proc.devRef .tc main_v0) = flat (arg m c main_arg0) := by
  show StableHlo.after hostOps0 (W0 m ρ c) (Proc.devRef .tc main_v0) = _
  after_results
  try rfl
/-- … the weight of g transposed. -/
theorem v1_1 (c : Dev nD) : W1 (F := Ideal) m ρ c (Proc.devRef .tc main_v1) = wT (arg m c main_arg2) := by
  show StableHlo.after hostOps0 (W0 m ρ c) (Proc.devRef .tc main_v1) = _
  after_results
  try rfl
/-- … the bias of g as a row. -/
theorem v2_1 (c : Dev nD) : W1 (F := Ideal) m ρ c (Proc.devRef .tc main_v2) = row (arg m c main_arg3) := by
  show StableHlo.after hostOps0 (W0 m ρ c) (Proc.devRef .tc main_v2) = _
  after_results
  try rfl
/-- The first launch's output: the layer g on detect's rows. -/
theorem v3_2 (c : Dev nD) : W2 (F := Ideal) m ρ c (Proc.devRef .tc main_v3) = linRows (flat (arg m c main_arg0)) (wT (arg m c main_arg2)) (row (arg m c main_arg3)) := by
  rw [show W2 (F := Ideal) m ρ c (Proc.devRef .tc main_v3) = (dat0 (V1 m ρ) c).arrAt 3 cfg0.N from W2_arr m ρ c 3,
    Cert.Proof.Arr0.arr (V1 m ρ) c]
  show linRows (W1 m ρ c (Proc.devRef .tc main_v0)) (W1 m ρ c (Proc.devRef .tc main_v1)) (W1 m ρ c (Proc.devRef .tc main_v2)) = _
  rw [v0_1, v1_1, v2_1]
/-- g of detect, unflattened. -/
theorem v4_3 (c : Dev nD) : W3 (F := Ideal) m ρ c (Proc.devRef .tc main_v4) = lin (arg m c main_arg0) (arg m c main_arg2) (arg m c main_arg3) := by
  show StableHlo.after hostOps1 (W2 m ρ c) (Proc.devRef .tc main_v4) = _
  after_results
  rw [v3_2]
  try rfl
/-- Aim flattened. -/
theorem v5_3 (c : Dev nD) : W3 (F := Ideal) m ρ c (Proc.devRef .tc main_v5) = flat (arg m c main_arg1) := by
  show StableHlo.after hostOps1 (W2 m ρ c) (Proc.devRef .tc main_v5) = _
  after_results
  rw [back2 m ρ c main_arg1 (by decide) (by decide)]
  try rfl
/-- The weight of g2 transposed. -/
theorem v6_3 (c : Dev nD) : W3 (F := Ideal) m ρ c (Proc.devRef .tc main_v6) = wT (arg m c main_arg4) := by
  show StableHlo.after hostOps1 (W2 m ρ c) (Proc.devRef .tc main_v6) = _
  after_results
  rw [back2 m ρ c main_arg4 (by decide) (by decide)]
  try rfl
/-- The bias of g2 as a row. -/
theorem v7_3 (c : Dev nD) : W3 (F := Ideal) m ρ c (Proc.devRef .tc main_v7) = row (arg m c main_arg5) := by
  show StableHlo.after hostOps1 (W2 m ρ c) (Proc.devRef .tc main_v7) = _
  after_results
  rw [back2 m ρ c main_arg5 (by decide) (by decide)]
  try rfl
/-- The second launch's output: the layer g2 on aim's rows. -/
theorem v8_4 (c : Dev nD) : W4 (F := Ideal) m ρ c (Proc.devRef .tc main_v8) = linRows (flat (arg m c main_arg1)) (wT (arg m c main_arg4)) (row (arg m c main_arg5)) := by
  rw [show W4 (F := Ideal) m ρ c (Proc.devRef .tc main_v8) = (dat1 (V3 m ρ) c).arrAt 3 cfg1.N from W4_arr m ρ c 3,
    Cert.Proof.Arr1.arr (V3 m ρ) c]
  show linRows (W3 m ρ c (Proc.devRef .tc main_v5)) (W3 m ρ c (Proc.devRef .tc main_v6)) (W3 m ρ c (Proc.devRef .tc main_v7)) = _
  rw [v5_3, v6_3, v7_3]
/-- g2 of aim, unflattened. -/
theorem v9_5 (c : Dev nD) : W5 (F := Ideal) m ρ c (Proc.devRef .tc main_v9) = lin (arg m c main_arg1) (arg m c main_arg4) (arg m c main_arg5) := by
  show StableHlo.after hostOps2 (W4 m ρ c) (Proc.devRef .tc main_v9) = _
  after_results
  rw [v8_4]
  try rfl
/-- Aim flattened again. -/
theorem v10_5 (c : Dev nD) : W5 (F := Ideal) m ρ c (Proc.devRef .tc main_v10) = flat (arg m c main_arg1) := by
  show StableHlo.after hostOps2 (W4 m ρ c) (Proc.devRef .tc main_v10) = _
  after_results
  rw [back4 m ρ c main_arg1 (by decide) (by decide) (by decide) (by decide)]
  try rfl
/-- The weight of theta transposed. -/
theorem v11_5 (c : Dev nD) : W5 (F := Ideal) m ρ c (Proc.devRef .tc main_v11) = wT (arg m c main_arg6) := by
  show StableHlo.after hostOps2 (W4 m ρ c) (Proc.devRef .tc main_v11) = _
  after_results
  rw [back4 m ρ c main_arg6 (by decide) (by decide) (by decide) (by decide)]
  try rfl
/-- The bias of theta as a row. -/
theorem v12_5 (c : Dev nD) : W5 (F := Ideal) m ρ c (Proc.devRef .tc main_v12) = row (arg m c main_arg7) := by
  show StableHlo.after hostOps2 (W4 m ρ c) (Proc.devRef .tc main_v12) = _
  after_results
  rw [back4 m ρ c main_arg7 (by decide) (by decide) (by decide) (by decide)]
  try rfl
/-- The third launch's output: the layer theta on aim's rows. -/
theorem v13_6 (c : Dev nD) : W6 (F := Ideal) m ρ c (Proc.devRef .tc main_v13) = linRows (flat (arg m c main_arg1)) (wT (arg m c main_arg6)) (row (arg m c main_arg7)) := by
  rw [show W6 (F := Ideal) m ρ c (Proc.devRef .tc main_v13) = (dat2 (V5 m ρ) c).arrAt 3 cfg2.N from W6_arr m ρ c 3,
    Cert.Proof.Arr2.arr (V5 m ρ) c]
  show linRows (W5 m ρ c (Proc.devRef .tc main_v10)) (W5 m ρ c (Proc.devRef .tc main_v11)) (W5 m ρ c (Proc.devRef .tc main_v12)) = _
  rw [v10_5, v11_5, v12_5]
/-- theta of aim, unflattened. -/
theorem v14_7 (c : Dev nD) : W7 (F := Ideal) m ρ c (Proc.devRef .tc main_v14) = lin (arg m c main_arg1) (arg m c main_arg6) (arg m c main_arg7) := by
  show StableHlo.after hostOps3 (W6 m ρ c) (Proc.devRef .tc main_v14) = _
  after_results
  rw [v13_6]
  try rfl
/-- Detect flattened again. -/
theorem v15_7 (c : Dev nD) : W7 (F := Ideal) m ρ c (Proc.devRef .tc main_v15) = flat (arg m c main_arg0) := by
  show StableHlo.after hostOps3 (W6 m ρ c) (Proc.devRef .tc main_v15) = _
  after_results
  rw [back6 m ρ c main_arg0 (by decide) (by decide) (by decide) (by decide) (by decide) (by decide)]
  try rfl
/-- The weight of phi transposed. -/
theorem v16_7 (c : Dev nD) : W7 (F := Ideal) m ρ c (Proc.devRef .tc main_v16) = wT (arg m c main_arg8) := by
  show StableHlo.after hostOps3 (W6 m ρ c) (Proc.devRef .tc main_v16) = _
  after_results
  rw [back6 m ρ c main_arg8 (by decide) (by decide) (by decide) (by decide) (by decide) (by decide)]
  try rfl
/-- The bias of phi as a row. -/
theorem v17_7 (c : Dev nD) : W7 (F := Ideal) m ρ c (Proc.devRef .tc main_v17) = row (arg m c main_arg9) := by
  show StableHlo.after hostOps3 (W6 m ρ c) (Proc.devRef .tc main_v17) = _
  after_results
  rw [back6 m ρ c main_arg9 (by decide) (by decide) (by decide) (by decide) (by decide) (by decide)]
  try rfl
/-- The fourth launch's output: the layer phi on detect's rows. -/
theorem v18_8 (c : Dev nD) : W8 (F := Ideal) m ρ c (Proc.devRef .tc main_v18) = linRows (flat (arg m c main_arg0)) (wT (arg m c main_arg8)) (row (arg m c main_arg9)) := by
  rw [show W8 (F := Ideal) m ρ c (Proc.devRef .tc main_v18) = (dat3 (V7 m ρ) c).arrAt 3 cfg3.N from W8_arr m ρ c 3,
    Cert.Proof.Arr3.arr (V7 m ρ) c]
  show linRows (W7 m ρ c (Proc.devRef .tc main_v15)) (W7 m ρ c (Proc.devRef .tc main_v16)) (W7 m ρ c (Proc.devRef .tc main_v17)) = _
  rw [v15_7, v16_7, v17_7]
/-- g of detect is still there after the fourth launch: nothing in between writes it. -/
theorem v4_8 (c : Dev nD) : W8 (F := Ideal) m ρ c (Proc.devRef .tc main_v4) = lin (arg m c main_arg0) (arg m c main_arg2) (arg m c main_arg3) :=
  (W8_of_ne m ρ c main_v4 (by decide)).trans ((keep7 m ρ c main_v4 (by decide)).trans ((W6_of_ne m ρ c main_v4 (by decide)).trans
    ((keep5 m ρ c main_v4 (by decide)).trans ((W4_of_ne m ρ c main_v4 (by decide)).trans (v4_3 m ρ c)))))
/-- g2 of aim likewise. -/
theorem v9_8 (c : Dev nD) : W8 (F := Ideal) m ρ c (Proc.devRef .tc main_v9) = lin (arg m c main_arg1) (arg m c main_arg4) (arg m c main_arg5) :=
  (W8_of_ne m ρ c main_v9 (by decide)).trans ((keep7 m ρ c main_v9 (by decide)).trans ((W6_of_ne m ρ c main_v9 (by decide)).trans (v9_5 m ρ c)))
/-- theta of aim likewise. -/
theorem v14_8 (c : Dev nD) : W8 (F := Ideal) m ρ c (Proc.devRef .tc main_v14) = lin (arg m c main_arg1) (arg m c main_arg6) (arg m c main_arg7) :=
  (W8_of_ne m ρ c main_v14 (by decide)).trans (v14_7 m ρ c)
/-- dx: g of detect viewed [4, 128, 4096] and transposed. -/
theorem v21_9 (c : Dev nD) : W9 (F := Ideal) m ρ c (Proc.devRef .tc main_v21) = colsT (lin (arg m c main_arg0) (arg m c main_arg2) (arg m c main_arg3)) := by
  show StableHlo.after hostOps4 (W8 m ρ c) (Proc.devRef .tc main_v21) = _
  after_results
  rw [v4_8]
  try rfl
/-- ax: g2 of aim likewise. -/
theorem v23_9 (c : Dev nD) : W9 (F := Ideal) m ρ c (Proc.devRef .tc main_v23) = colsT (lin (arg m c main_arg1) (arg m c main_arg4) (arg m c main_arg5)) := by
  show StableHlo.after hostOps4 (W8 m ρ c) (Proc.devRef .tc main_v23) = _
  after_results
  rw [v9_8]
  try rfl
/-- tx: theta of aim likewise. -/
theorem v25_9 (c : Dev nD) : W9 (F := Ideal) m ρ c (Proc.devRef .tc main_v25) = colsT (lin (arg m c main_arg1) (arg m c main_arg6) (arg m c main_arg7)) := by
  show StableHlo.after hostOps4 (W8 m ρ c) (Proc.devRef .tc main_v25) = _
  after_results
  rw [v14_8]
  try rfl
/-- px: phi of detect viewed [4, 128, 4096]. -/
theorem v26_9 (c : Dev nD) : W9 (F := Ideal) m ρ c (Proc.devRef .tc main_v26) = cols (lin (arg m c main_arg0) (arg m c main_arg8) (arg m c main_arg9)) := by
  show StableHlo.after hostOps4 (W8 m ρ c) (Proc.devRef .tc main_v26) = _
  after_results
  rw [v18_8]
  try rfl
/-- The cross launch's first output. -/
theorem v27a_10 (c : Dev nD) : W10 (F := Ideal) m ρ c (Proc.devRef .tc main_v27_0) = crossAim (colsT (lin (arg m c main_arg0) (arg m c main_arg2) (arg m c main_arg3))) (colsT (lin (arg m c main_arg1) (arg m c main_arg6) (arg m c main_arg7))) (cols (lin (arg m c main_arg0) (arg m c main_arg8) (arg m c main_arg9))) := by
  rw [show W10 (F := Ideal) m ρ c (Proc.devRef .tc main_v27_0) = (dat4 (V9 m ρ) c).arrAt 4 cfg4.N from W10_arr m ρ c 4,
    Cert.Proof.Arr4.arr_aim (V9 m ρ) c]
  show crossAim (W9 m ρ c (Proc.devRef .tc main_v21)) (W9 m ρ c (Proc.devRef .tc main_v25)) (W9 m ρ c (Proc.devRef .tc main_v26)) = _
  rw [v21_9, v25_9, v26_9]
/-- The cross launch's second output. -/
theorem v27d_10 (c : Dev nD) : W10 (F := Ideal) m ρ c (Proc.devRef .tc main_v27_1) = crossDet (colsT (lin (arg m c main_arg1) (arg m c main_arg4) (arg m c main_arg5))) (colsT (lin (arg m c main_arg1) (arg m c main_arg6) (arg m c main_arg7))) (cols (lin (arg m c main_arg0) (arg m c main_arg8) (arg m c main_arg9))) := by
  rw [show W10 (F := Ideal) m ρ c (Proc.devRef .tc main_v27_1) = (dat4 (V9 m ρ) c).arrAt 5 cfg4.N from W10_arr m ρ c 5,
    Cert.Proof.Arr4.arr_det (V9 m ρ) c]
  show crossDet (W9 m ρ c (Proc.devRef .tc main_v23)) (W9 m ρ c (Proc.devRef .tc main_v25)) (W9 m ρ c (Proc.devRef .tc main_v26)) = _
  rw [v23_9, v25_9, v26_9]
/-- The cross term toward aim, back in rows and flattened. -/
theorem v32_11 (c : Dev nD) : W11 (F := Ideal) m ρ c (Proc.devRef .tc main_v32) = flat (rowsBack (crossAim (colsT (lin (arg m c main_arg0) (arg m c main_arg2) (arg m c main_arg3))) (colsT (lin (arg m c main_arg1) (arg m c main_arg6) (arg m c main_arg7))) (cols (lin (arg m c main_arg0) (arg m c main_arg8) (arg m c main_arg9))))) := by
  show StableHlo.after hostOps5 (W10 m ρ c) (Proc.devRef .tc main_v32) = _
  after_results
  rw [v27a_10]
  try rfl
/-- The cross term toward detect, back in rows. -/
theorem v31_11 (c : Dev nD) : W11 (F := Ideal) m ρ c (Proc.devRef .tc main_v31) = rowsBack (crossDet (colsT (lin (arg m c main_arg1) (arg m c main_arg4) (arg m c main_arg5))) (colsT (lin (arg m c main_arg1) (arg m c main_arg6) (arg m c main_arg7))) (cols (lin (arg m c main_arg0) (arg m c main_arg8) (arg m c main_arg9)))) := by
  show StableHlo.after hostOps5 (W10 m ρ c) (Proc.devRef .tc main_v31) = _
  after_results
  rw [v27d_10]
  try rfl
/-- The weight of W transposed. -/
theorem v33_11 (c : Dev nD) : W11 (F := Ideal) m ρ c (Proc.devRef .tc main_v33) = wT (arg m c main_arg10) := by
  show StableHlo.after hostOps5 (W10 m ρ c) (Proc.devRef .tc main_v33) = _
  after_results
  rw [back10 m ρ c main_arg10 (by decide) (by decide) (by decide) (by decide) (by decide) (by decide) (by decide) (by decide) (by decide) (by decide)]
  try rfl
/-- The bias of W as a row. -/
theorem v34_11 (c : Dev nD) : W11 (F := Ideal) m ρ c (Proc.devRef .tc main_v34) = row (arg m c main_arg11) := by
  show StableHlo.after hostOps5 (W10 m ρ c) (Proc.devRef .tc main_v34) = _
  after_results
  rw [back10 m ρ c main_arg11 (by decide) (by decide) (by decide) (by decide) (by decide) (by decide) (by decide) (by decide) (by decide) (by decide)]
  try rfl
/-- The residual aim flattened. -/
theorem v35_11 (c : Dev nD) : W11 (F := Ideal) m ρ c (Proc.devRef .tc main_v35) = flat (arg m c main_arg1) := by
  show StableHlo.after hostOps5 (W10 m ρ c) (Proc.devRef .tc main_v35) = _
  after_results
  rw [back10 m ρ c main_arg1 (by decide) (by decide) (by decide) (by decide) (by decide) (by decide) (by decide) (by decide) (by decide) (by decide)]
  try rfl
/-- The sixth launch's output: the layer W with residual aim. -/
theorem v36_12 (c : Dev nD) : W12 (F := Ideal) m ρ c (Proc.devRef .tc main_v36) = linResRows (flat (rowsBack (crossAim (colsT (lin (arg m c main_arg0) (arg m c main_arg2) (arg m c main_arg3))) (colsT (lin (arg m c main_arg1) (arg m c main_arg6) (arg m c main_arg7))) (cols (lin (arg m c main_arg0) (arg m c main_arg8) (arg m c main_arg9)))))) (wT (arg m c main_arg10)) (row (arg m c main_arg11)) (flat (arg m c main_arg1)) := by
  rw [show W12 (F := Ideal) m ρ c (Proc.devRef .tc main_v36) = (dat5 (V11 m ρ) c).arrAt 4 cfg5.N from W12_arr m ρ c 4,
    Cert.Proof.Arr5.arr (V11 m ρ) c]
  show linResRows (W11 m ρ c (Proc.devRef .tc main_v32)) (W11 m ρ c (Proc.devRef .tc main_v33)) (W11 m ρ c (Proc.devRef .tc main_v34)) (W11 m ρ c (Proc.devRef .tc main_v35)) = _
  rw [v32_11, v33_11, v34_11, v35_11]
/-- The cross term toward detect is still there after the sixth launch. -/
theorem v31_12 (c : Dev nD) : W12 (F := Ideal) m ρ c (Proc.devRef .tc main_v31) = rowsBack (crossDet (colsT (lin (arg m c main_arg1) (arg m c main_arg4) (arg m c main_arg5))) (colsT (lin (arg m c main_arg1) (arg m c main_arg6) (arg m c main_arg7))) (cols (lin (arg m c main_arg0) (arg m c main_arg8) (arg m c main_arg9)))) :=
  (W12_of_ne m ρ c main_v31 (by decide)).trans (v31_11 m ρ c)
/-- The result toward aim, unflattened. -/
theorem v37_13 (c : Dev nD) : W13 (F := Ideal) m ρ c (Proc.devRef .tc main_v37) = kernelAim (arg m c main_arg0) (arg m c main_arg1) (arg m c main_arg2) (arg m c main_arg3) (arg m c main_arg6) (arg m c main_arg7) (arg m c main_arg8) (arg m c main_arg9) (arg m c main_arg10) (arg m c main_arg11) := by
  show StableHlo.after hostOps6 (W12 m ρ c) (Proc.devRef .tc main_v37) = _
  after_results
  rw [v36_12]
  try rfl
/-- The cross term toward detect flattened. -/
theorem v38_13 (c : Dev nD) : W13 (F := Ideal) m ρ c (Proc.devRef .tc main_v38) = flat (rowsBack (crossDet (colsT (lin (arg m c main_arg1) (arg m c main_arg4) (arg m c main_arg5))) (colsT (lin (arg m c main_arg1) (arg m c main_arg6) (arg m c main_arg7))) (cols (lin (arg m c main_arg0) (arg m c main_arg8) (arg m c main_arg9))))) := by
  show StableHlo.after hostOps6 (W12 m ρ c) (Proc.devRef .tc main_v38) = _
  after_results
  rw [v31_12]
  try rfl
/-- The weight of Q transposed. -/
theorem v39_13 (c : Dev nD) : W13 (F := Ideal) m ρ c (Proc.devRef .tc main_v39) = wT (arg m c main_arg12) := by
  show StableHlo.after hostOps6 (W12 m ρ c) (Proc.devRef .tc main_v39) = _
  after_results
  rw [back12 m ρ c main_arg12 (by decide) (by decide) (by decide) (by decide) (by decide) (by decide) (by decide) (by decide) (by decide) (by decide) (by decide) (by decide)]
  try rfl
/-- The bias of Q as a row. -/
theorem v40_13 (c : Dev nD) : W13 (F := Ideal) m ρ c (Proc.devRef .tc main_v40) = row (arg m c main_arg13) := by
  show StableHlo.after hostOps6 (W12 m ρ c) (Proc.devRef .tc main_v40) = _
  after_results
  rw [back12 m ρ c main_arg13 (by decide) (by decide) (by decide) (by decide) (by decide) (by decide) (by decide) (by decide) (by decide) (by decide) (by decide) (by decide)]
  try rfl
/-- The residual detect flattened. -/
theorem v41_13 (c : Dev nD) : W13 (F := Ideal) m ρ c (Proc.devRef .tc main_v41) = flat (arg m c main_arg0) := by
  show StableHlo.after hostOps6 (W12 m ρ c) (Proc.devRef .tc main_v41) = _
  after_results
  rw [back12 m ρ c main_arg0 (by decide) (by decide) (by decide) (by decide) (by decide) (by decide) (by decide) (by decide) (by decide) (by decide) (by decide) (by decide)]
  try rfl
/-- The seventh launch's output: the layer Q with residual detect. -/
theorem v42_14 (c : Dev nD) : W14 (F := Ideal) m ρ c (Proc.devRef .tc main_v42) = linResRows (flat (rowsBack (crossDet (colsT (lin (arg m c main_arg1) (arg m c main_arg4) (arg m c main_arg5))) (colsT (lin (arg m c main_arg1) (arg m c main_arg6) (arg m c main_arg7))) (cols (lin (arg m c main_arg0) (arg m c main_arg8) (arg m c main_arg9)))))) (wT (arg m c main_arg12)) (row (arg m c main_arg13)) (flat (arg m c main_arg0)) := by
  rw [show W14 (F := Ideal) m ρ c (Proc.devRef .tc main_v42) = (dat6 (V13 m ρ) c).arrAt 4 cfg6.N from W14_arr m ρ c 4,
    Cert.Proof.Arr6.arr (V13 m ρ) c]
  show linResRows (W13 m ρ c (Proc.devRef .tc main_v38)) (W13 m ρ c (Proc.devRef .tc main_v39)) (W13 m ρ c (Proc.devRef .tc main_v40)) (W13 m ρ c (Proc.devRef .tc main_v41)) = _
  rw [v38_13, v39_13, v40_13, v41_13]

/-! ## The two results -/

/-- The result toward detect at the run's last boundary. -/
theorem det_value (c : Dev nD) :
    W15 (F := Ideal) m ρ c (Proc.devRef .tc main_v43)
      = kernelDet (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13)) := by
  show StableHlo.after hostOps7 (W14 m ρ c) (Proc.devRef .tc main_v43) = _
  after_results
  rw [v42_14]
  try rfl

/-- The result toward aim at the run's last boundary: written before the last launch and untouched since. -/
theorem aim_value (c : Dev nD) :
    W15 (F := Ideal) m ρ c (Proc.devRef .tc main_v37)
      = kernelAim (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (keep15 m ρ c main_v37 (by decide)).trans ((W14_of_ne m ρ c main_v37 (by decide)).trans (v37_13 m ρ c))

end Cert.Proof.KernelWalk

end
-- ==== Proof.LinBridge.lean ====
/-
  A linear layer on the rows of the flattened array [8192, 256], reshaped back to [4, 2048, 256], is the host's
  contraction of [4, 2048, 256] with the weight over the feature axis plus the bias broadcast over batch and row.
-/
import proofs.«170012_j14542759264790_1_alg».proof.Proof.Gen.ReferenceIdeal.Read
import proofs.«170012_j14542759264790_1_alg».proof.Proof.Spec
import proofs.«170012_j14542759264790_1_alg».proof.Proof.LibBlocks

noncomputable section

open scoped BigOperators

namespace Cert.Proof.LinBridge

open Cert.ReferenceIdeal Cert.ReferenceIdeal.Facts₀ Idealize.ShloMosaic Idealize.ShloMosaic.ValueIdx Cert.Proof.Spec

/-- Row b · 2048 + n of the flattened array [8192, 256] is row (b, n) of the array [4, 2048, 256]. -/
theorem flat_apply (hc1 : S4x2048x256.ShapeCasts ⟨2, ![8192, 256]⟩) (Y : FVec Ideal S4x2048x256 .f32)
    (b : Fin 4) (n : Fin 2048) (k : Fin 256) (r : Fin 8192) (hr : r.val = b.val * 2048 + n.val) :
    shapeCast ⟨2, ![8192, 256]⟩ Y hc1 (ix2 r k) = Y (ix3 b n k) := by
  refine shapeCast_apply Y hc1 (ix2 r k) (ix3 b n k) ?_
  rw [Shape.rowMajor_val_three, Shape.rowMajor_val_two]
  show (b.val * 2048 + n.val) * 256 + k.val = r.val * 256 + k.val
  rw [hr]

/-- Entry (b, n, q) of an array [8192, 256] reshaped to [4, 2048, 256] is its entry (b · 2048 + n, q). -/
theorem unflat_apply (hc3 : (⟨2, ![8192, 256]⟩ : Shape).ShapeCasts S4x2048x256)
    (Z : (⟨2, ![8192, 256]⟩ : Shape).Idx → EReal)
    (b : Fin 4) (n : Fin 2048) (q : Fin 256) (r : Fin 8192) (hr : r.val = b.val * 2048 + n.val) :
    shapeCast S4x2048x256 Z hc3 (ix3 b n q) = Z (ix2 r q) := by
  refine shapeCast_apply Z hc3 (ix3 b n q) (ix2 r q) ?_
  rw [Shape.rowMajor_val_three, Shape.rowMajor_val_two]
  show r.val * 256 + q.val = (b.val * 2048 + n.val) * 256 + q.val
  rw [hr]

/-- Rows (b, n) of X against rows of the weight: entry (b, n, q) on both sides is Σ_k X(b, n, k) · W(q, k) + B(q). -/
theorem lin_eq (hc1 : S4x2048x256.ShapeCasts ⟨2, ![8192, 256]⟩) (ht : S256x256.Transposes [1, 0] S256x256)
    (hc2 : S256.ShapeCasts ⟨2, ![1, 256]⟩) (hc3 : (⟨2, ![8192, 256]⟩ : Shape).ShapeCasts S4x2048x256)
    (X : FVec Ideal S4x2048x256 .f32) (W : FVec Ideal S256x256 .f32) (B : FVec Ideal S256 .f32) :
    shapeCast S4x2048x256 (linRows (shapeCast ⟨2, ![8192, 256]⟩ X hc1) (transpose S256x256 [1, 0] W ht) (shapeCast ⟨2, ![1, 256]⟩ B hc2)) hc3
      = addf (Host.dotGeneral dot_S4x2048x256_S256x256_S4x2048x256_2_1_01_0_n_n none X W)
          (broadcastInDim S4x2048x256 ![0, 1, 2] bcast_S1x1x256_S4x2048x256_0_1_2 (broadcastInDim S1x1x256 ![2] bcast_S256_S1x1x256_2 B)) := by
  funext i
  obtain ⟨b, n, q, rfl⟩ : ∃ (b : Fin 4) (n : Fin 2048) (q : Fin 256), i = ix3 b n q := ⟨i 0, i 1, i 2, eq_ix3 i⟩
  have hb : b.val < 4 := b.isLt
  have hn : n.val < 2048 := n.isLt
  have hr : b.val * 2048 + n.val < 8192 := by omega
  rw [unflat_apply hc3 _ b n q ⟨b.val * 2048 + n.val, hr⟩ rfl]
  show (∑ k : Fin 256, shapeCast ⟨2, ![8192, 256]⟩ X hc1 (ix2 ⟨b.val * 2048 + n.val, hr⟩ k) * transpose S256x256 [1, 0] W ht (ix2 k q))
      + shapeCast ⟨2, ![1, 256]⟩ B hc2 (ix2 (0 : Fin 1) q)
    = Read.val_main_v0 (F := Ideal) X W (ix3 b n q) + Read.val_main_v2 (F := Ideal) B (ix3 b n q)
  rw [Read.val_main_v0_apply, Read.val_main_v2_apply, Read.val_main_v1_apply]
  have hB : shapeCast ⟨2, ![1, 256]⟩ B hc2 (ix2 (0 : Fin 1) q) = B (Read.idx_main_v1 (Read.idx_main_v2 (ix3 b n q))) := by
    refine shapeCast_apply B hc2 (ix2 (0 : Fin 1) q) _ ?_
    rw [Shape.rowMajor_val_one, Shape.rowMajor_val_two]
    show q.val = 0 * 256 + q.val
    omega
  rw [hB]
  refine congrArg (· + _) (Finset.sum_congr rfl fun k _ => ?_)
  have hX : shapeCast ⟨2, ![8192, 256]⟩ X hc1 (ix2 ⟨b.val * 2048 + n.val, hr⟩ k) = X (Read.lidx_main_v0 (ix3 b n q) k) := by
    rw [flat_apply hc1 X b n k ⟨b.val * 2048 + n.val, hr⟩ rfl]
    refine congrArg X (funext fun a => Fin.ext ?_)
    match a with
    | ⟨0, _⟩ => rfl
    | ⟨1, _⟩ => rfl
    | ⟨2, _⟩ => rfl
  have hW : transpose S256x256 [1, 0] W ht (ix2 k q) = W (Read.ridx_main_v0 (ix3 b n q) k) :=
    transpose_apply [1, 0] W ht (ix2 k q) (Read.ridx_main_v0 (ix3 b n q) k) (fun c => match c with
      | ⟨0, _⟩ => rfl
      | ⟨1, _⟩ => rfl)
  rw [hX, hW]

/-- The same with a residual array added. -/
theorem linres_eq (hc1 : S4x2048x256.ShapeCasts ⟨2, ![8192, 256]⟩) (ht : S256x256.Transposes [1, 0] S256x256)
    (hc2 : S256.ShapeCasts ⟨2, ![1, 256]⟩) (hc3 : (⟨2, ![8192, 256]⟩ : Shape).ShapeCasts S4x2048x256)
    (X : FVec Ideal S4x2048x256 .f32) (W : FVec Ideal S256x256 .f32) (B : FVec Ideal S256 .f32) (R : FVec Ideal S4x2048x256 .f32) :
    shapeCast S4x2048x256 (linResRows (shapeCast ⟨2, ![8192, 256]⟩ X hc1) (transpose S256x256 [1, 0] W ht) (shapeCast ⟨2, ![1, 256]⟩ B hc2)
        (shapeCast ⟨2, ![8192, 256]⟩ R hc1)) hc3
      = addf (addf (Host.dotGeneral dot_S4x2048x256_S256x256_S4x2048x256_2_1_01_0_n_n none X W)
          (broadcastInDim S4x2048x256 ![0, 1, 2] bcast_S1x1x256_S4x2048x256_0_1_2 (broadcastInDim S1x1x256 ![2] bcast_S256_S1x1x256_2 B))) R := by
  rw [← lin_eq hc1 ht hc2 hc3 X W B]
  funext i
  obtain ⟨b, n, q, rfl⟩ : ∃ (b : Fin 4) (n : Fin 2048) (q : Fin 256), i = ix3 b n q := ⟨i 0, i 1, i 2, eq_ix3 i⟩
  have hb : b.val < 4 := b.isLt
  have hn : n.val < 2048 := n.isLt
  have hr : b.val * 2048 + n.val < 8192 := by omega
  rw [addf_apply, unflat_apply hc3 _ b n q ⟨b.val * 2048 + n.val, hr⟩ rfl,
    unflat_apply hc3 _ b n q ⟨b.val * 2048 + n.val, hr⟩ rfl]
  show linRows (shapeCast ⟨2, ![8192, 256]⟩ X hc1) (transpose S256x256 [1, 0] W ht) (shapeCast ⟨2, ![1, 256]⟩ B hc2)
        (ix2 ⟨b.val * 2048 + n.val, hr⟩ q) + shapeCast ⟨2, ![8192, 256]⟩ R hc1 (ix2 ⟨b.val * 2048 + n.val, hr⟩ q)
      = linRows (shapeCast ⟨2, ![8192, 256]⟩ X hc1) (transpose S256x256 [1, 0] W ht) (shapeCast ⟨2, ![1, 256]⟩ B hc2)
        (ix2 ⟨b.val * 2048 + n.val, hr⟩ q) + R (ix3 b n q)
  rw [flat_apply hc1 R b n q ⟨b.val * 2048 + n.val, hr⟩ rfl]

end Cert.Proof.LinBridge

end
-- ==== Proof.LibReal.lean ====
/-
  Which array operations keep every entry a real number.

  At the ideal instance a float is an extended real: a real number, or one of the two infinities.  The
  arithmetic of the extended reals is the reals' arithmetic only away from the infinities, so a statement about
  a network's value has to know that no infinity arises on the way.  This file says of each array operation
  that it maps arrays of real entries to arrays of real entries: the pointwise sum, difference, product and
  maximum; the choice between two arrays; every re-indexing (repeating along new axes, recasting the shape,
  cutting a block out, taking rows by an index array); a constant whose bit pattern denotes a real; the
  quotient by nonzero reals; the reciprocal square root of positive reals; a sum along an axis; a matrix
  product; and the accumulation of rows into a table.  Each statement is generic in the shapes.
-/
import Idealize.ShloMosaic.PureOps.Ideal
import Idealize.ShloMosaic.PureOps.Ideal.Laws

noncomputable section

namespace Cert.LibReal

open Idealize.ShloMosaic

/-- Every entry of the array is a real number: neither infinity. -/
def AllReal {S : Shape} (a : S.Idx → EReal) : Prop := ∀ i, ∃ r : ℝ, a i = (r : EReal)

/-- Every entry of the array is a nonzero real number. -/
def AllNonzero {S : Shape} (a : S.Idx → EReal) : Prop := ∀ i, ∃ r : ℝ, r ≠ 0 ∧ a i = (r : EReal)

/-- Every entry of the array is a positive real number. -/
def AllPos {S : Shape} (a : S.Idx → EReal) : Prop := ∀ i, ∃ r : ℝ, 0 < r ∧ a i = (r : EReal)

/-- Positive reals are nonzero reals. -/
theorem AllPos.allNonzero {S : Shape} {a : S.Idx → EReal} (h : AllPos a) : AllNonzero a := fun i => by
  obtain ⟨r, hr, e⟩ := h i
  exact ⟨r, hr.ne', e⟩

/-- Nonzero reals are reals. -/
theorem AllNonzero.allReal {S : Shape} {a : S.Idx → EReal} (h : AllNonzero a) : AllReal a := fun i => by
  obtain ⟨r, _, e⟩ := h i
  exact ⟨r, e⟩

/-- Positive reals are reals. -/
theorem AllPos.allReal {S : Shape} {a : S.Idx → EReal} (h : AllPos a) : AllReal a := h.allNonzero.allReal

/-- A finite sum of reals, taken in the extended reals, is the real sum. -/
theorem coe_finset_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of extended reals each of which is a real number is a real number. -/
theorem exists_real_sum {ι : Type} (s : Finset ι) (f : ι → EReal) (h : ∀ k ∈ s, ∃ r : ℝ, f k = (r : EReal)) :
    ∃ r : ℝ, ∑ k ∈ s, f k = (r : EReal) := by
  classical
  choose! g hg using h
  exact ⟨∑ k ∈ s, g k, by rw [coe_finset_sum]; exact Finset.sum_congr rfl hg⟩

/-! ## Pointwise operations -/

section Pointwise
variable {S : Shape} {φ : FTy}

/-- The entrywise sum of two arrays of reals is an array of reals. -/
theorem addf_allReal {a b : FVec Ideal S φ} (ha : AllReal a) (hb : AllReal b) : AllReal (addf a b) := fun i => by
  obtain ⟨r, hr⟩ := ha i
  obtain ⟨t, ht⟩ := hb i
  exact ⟨r + t, by show a i + b i = _; rw [hr, ht, EReal.coe_add]⟩

/-- The entrywise difference of two arrays of reals is an array of reals. -/
theorem subf_allReal {a b : FVec Ideal S φ} (ha : AllReal a) (hb : AllReal b) : AllReal (subf a b) := fun i => by
  obtain ⟨r, hr⟩ := ha i
  obtain ⟨t, ht⟩ := hb i
  exact ⟨r - t, by show a i - b i = _; rw [hr, ht, EReal.coe_sub]⟩

/-- The entrywise product of two arrays of reals is an array of reals. -/
theorem mulf_allReal {a b : FVec Ideal S φ} (ha : AllReal a) (hb : AllReal b) : AllReal (mulf a b) := fun i => by
  obtain ⟨r, hr⟩ := ha i
  obtain ⟨t, ht⟩ := hb i
  exact ⟨r * t, by show a i * b i = _; rw [hr, ht, EReal.coe_mul]⟩

/-- The entrywise maximum of two arrays of reals is an array of reals: at each entry it is one of the two. -/
theorem maximumf_allReal {a b : FVec Ideal S φ} (ha : AllReal a) (hb : AllReal b) : AllReal (maximumf a b) := fun i => by
  show ∃ r : ℝ, max (a i) (b i) = (r : EReal)
  rcases le_total (a i) (b i) with h | h
  · rw [max_eq_right h]; exact hb i
  · rw [max_eq_left h]; exact ha i

/-- The entrywise maximum with an array of positive reals is positive when the other array is real. -/
theorem maximumf_allPos_right {a b : FVec Ideal S φ} (ha : AllReal a) (hb : AllPos b) : AllPos (maximumf a b) := fun i => by
  show ∃ r : ℝ, 0 < r ∧ max (a i) (b i) = (r : EReal)
  obtain ⟨r, hr⟩ := ha i
  obtain ⟨t, ht0, ht⟩ := hb i
  refine ⟨max r t, lt_max_of_lt_right ht0, ?_⟩
  rw [hr, ht]
  rcases le_total r t with h | h
  · rw [max_eq_right h, max_eq_right (EReal.coe_le_coe_iff.mpr h)]
  · rw [max_eq_left h, max_eq_left (EReal.coe_le_coe_iff.mpr h)]

/-- Choosing entry by entry between two arrays of reals gives an array of reals. -/
theorem select_allReal (p : IVec S 1) {a b : S.Idx → EReal} (ha : AllReal a) (hb : AllReal b) :
    AllReal (select p a b) := fun i => by
  show ∃ r : ℝ, (if p i = 1 then a i else b i) = (r : EReal)
  split
  · exact ha i
  · exact hb i

/-- The entrywise quotient of an array of reals by an array of nonzero reals is an array of reals. -/
theorem divf_allReal {a b : FVec Ideal S φ} (ha : AllReal a) (hb : AllNonzero b) :
    AllReal (Host.divf (F := Ideal) a b) := fun i => by
  obtain ⟨r, hr⟩ := ha i
  obtain ⟨t, ht0, ht⟩ := hb i
  refine ⟨r * (1 / t), ?_⟩
  show Ideal.div (a i) (b i) = _
  rw [hr, ht, Ideal.div_coe ht0, EReal.coe_mul]

/-- The entrywise reciprocal square root of an array of positive reals is an array of positive reals. -/
theorem rsqrt_allPos {a : FVec Ideal S φ} (ha : AllPos a) : AllPos (Host.rsqrt (F := Ideal) a) := fun i => by
  obtain ⟨r, hr0, hr⟩ := ha i
  refine ⟨(Real.sqrt r)⁻¹, inv_pos.mpr (Real.sqrt_pos.mpr hr0), ?_⟩
  show Ideal.rsqrt (a i) = _
  rw [hr, Ideal.rsqrt_coe, if_neg (not_lt.mpr hr0.le), if_neg hr0.ne']

/-- The entrywise reciprocal square root of an array of positive reals is an array of reals. -/
theorem rsqrt_allReal {a : FVec Ideal S φ} (ha : AllPos a) : AllReal (Host.rsqrt (F := Ideal) a) :=
  (rsqrt_allPos ha).allReal

/-- An array of reals that are at least zero plus an array of positive reals is an array of positive reals. -/
theorem addf_allPos_of_nonneg {a b : FVec Ideal S φ} (ha : ∀ i, ∃ r : ℝ, 0 ≤ r ∧ a i = (r : EReal)) (hb : AllPos b) :
    AllPos (addf a b) := fun i => by
  obtain ⟨r, hr0, hr⟩ := ha i
  obtain ⟨t, ht0, ht⟩ := hb i
  exact ⟨r + t, by linarith, by show a i + b i = _; rw [hr, ht, EReal.coe_add]⟩

end Pointwise

/-! ## Re-indexings: every entry of the result is an entry of the operand -/

section Layout
variable {S T : Shape}

/-- Reading an array of reals through any map of indices gives an array of reals. -/
theorem comp_allReal {a : S.Idx → EReal} (ha : AllReal a) (f : T.Idx → S.Idx) : AllReal (fun j => a (f j)) :=
  fun j => ha (f j)

/-- Repeating an array of reals along new axes gives an array of reals. -/
theorem broadcastInDim_allReal (dims : Fin S.rank → Fin T.rank) (h : S.BroadcastsInDim T dims) {a : S.Idx → EReal}
    (ha : AllReal a) : AllReal (broadcastInDim T dims h a) := fun _ => ha _

/-- Repeating an array of positive reals along new axes gives an array of positive reals. -/
theorem broadcastInDim_allPos (dims : Fin S.rank → Fin T.rank) (h : S.BroadcastsInDim T dims) {a : S.Idx → EReal}
    (ha : AllPos a) : AllPos (broadcastInDim T dims h a) := fun _ => ha _

/-- Repeating an array of nonzero reals along new axes gives an array of nonzero reals. -/
theorem broadcastInDim_allNonzero (dims : Fin S.rank → Fin T.rank) (h : S.BroadcastsInDim T dims) {a : S.Idx → EReal}
    (ha : AllNonzero a) : AllNonzero (broadcastInDim T dims h a) := fun _ => ha _

/-- The same entries of an array of reals under another shape are an array of reals. -/
theorem shapeCast_allReal (h : S.ShapeCasts T) {a : S.Idx → EReal} (ha : AllReal a) : AllReal (shapeCast T a h) :=
  fun _ => ha _

/-- A block cut out of an array of reals is an array of reals. -/
theorem extractStridedSlice_allReal (off : Fin S.rank → Nat) (h : S.Slices off T) {a : S.Idx → EReal} (ha : AllReal a) :
    AllReal (extractStridedSlice T off a h) := fun _ => ha _

/-- Rows, or any slices, taken out of an array of reals by an index array are an array of reals, whatever the
    indices: each entry taken is an entry of the operand. -/
theorem gather_allReal {SI : Shape} {w : Nat} (d : GatherDims S SI T) (idx : IVec SI w) {a : S.Idx → EReal}
    (ha : AllReal a) : AllReal (Host.gather d a idx) := fun _ => ha _

end Layout

/-! ## Constants -/

/-- A constant array whose bit pattern denotes a real number is an array of reals. -/
theorem constant_allReal (S : Shape) (φ : FTy) (w : BitVec φ.bits) {r : ℝ} (h : Ideal.ofBits φ w = (r : EReal)) :
    AllReal (constant (F := Ideal) S φ w) := fun _ => ⟨r, h⟩

/-- A constant array whose bit pattern denotes a positive real number is an array of positive reals. -/
theorem constant_allPos (S : Shape) (φ : FTy) (w : BitVec φ.bits) {r : ℝ} (hr : 0 < r) (h : Ideal.ofBits φ w = (r : EReal)) :
    AllPos (constant (F := Ideal) S φ w) := fun _ => ⟨r, hr, h⟩

/-- The single-precision pattern of `+0.0` denotes `0`. -/
theorem ofBits_zero : Ideal.ofBits .f32 0x00000000#32 = ((0 : ℝ) : EReal) := by
  simp [Ideal.ofBits, Ideal.ieee]

/-- The single-precision pattern of `1.0` (biased exponent 127, significand 1) denotes `1`. -/
theorem ofBits_one : Ideal.ofBits .f32 0x3F800000#32 = ((1 : ℝ) : EReal) := by
  simp [Ideal.ofBits, Ideal.ieee, -EReal.coe_mul]; norm_num

/-- The single-precision pattern `0x47435000` (biased exponent 142, significand `12800000 / 2^23`) denotes
    `12800000 / 2^8 = 50000`. -/
theorem ofBits_50000 : Ideal.ofBits .f32 0x47435000#32 = ((50000 : ℝ) : EReal) := by
  simp [Ideal.ofBits, Ideal.ieee, -EReal.coe_mul]; norm_num

/-- The single-precision pattern `0x3727C5AC` (biased exponent 110, significand `10995116 / 2^23`), the float
    nearest `10^-5`, denotes the rational `10995116 / 2^40`. -/
theorem ofBits_eps : Ideal.ofBits .f32 0x3727C5AC#32 = ((10995116 / 2 ^ 40 : ℝ) : EReal) := by
  simp [Ideal.ofBits, Ideal.ieee, -EReal.coe_mul]; norm_num

/-- That rational is positive. -/
theorem eps_pos : (0 : ℝ) < 10995116 / 2 ^ 40 := by norm_num

/-! ## Finite sums: a sum along axes, a matrix product, an accumulation of updates -/

/-- A real number plus a finite sum of real numbers, taken in the extended reals, is a real number. -/
theorem exists_real_add_sum {ι : Type} (s : Finset ι) (c : EReal) (f : ι → EReal) (hc : ∃ r : ℝ, c = (r : EReal))
    (h : ∀ k ∈ s, ∃ r : ℝ, f k = (r : EReal)) : ∃ r : ℝ, c + ∑ k ∈ s, f k = (r : EReal) := by
  obtain ⟨r0, hr0⟩ := hc
  obtain ⟨r, hr⟩ := exists_real_sum s f h
  exact ⟨r0 + r, by rw [hr0, hr, EReal.coe_add]⟩

/-- The sum of an array of reals along any set of axes, started from a real initial value, is an array of reals:
    each entry is the initial value plus a finite sum of entries of the operand. -/
theorem reduceAdd_allReal {S T V : Shape} {φ : FTy} {axes : List (Fin S.rank)} {x : FVec Ideal S φ} {init : V.Idx → Ideal φ}
    (hx : AllReal x) (hinit : AllReal init) (h : S.ReducesTo axes T) (hv : 0 < V.numel) :
    AllReal (Host.reduceAdd (F := Ideal) x init h hv) := fun j => by
  show ∃ t : ℝ, Ideal.hostReduceAdd h x (init (Shape.Idx.first hv)) j = (t : EReal)
  unfold Ideal.hostReduceAdd
  exact exists_real_add_sum _ _ _ (hinit _) fun k _ => hx k

/-- The same for the sum a tiled program takes along axes of a block: each entry is a finite sum of entries of the
    operand. -/
theorem multiReduction_add_allReal {S T : Shape} {φ : FTy} {axes : List (Fin S.rank)} {x : FVec Ideal S φ} (hx : AllReal x)
    (acc : BitVec φ.bits) (h : S.Reduces axes T) (hφ : FKind.Formats φ) (hacc : acc = FKind.add.neutral φ hφ) :
    AllReal (multiReduction .add axes T x acc h hφ hacc) := fun j => by
  show ∃ t : ℝ, Ideal.reduceAdd h x j = (t : EReal)
  unfold Ideal.reduceAdd
  exact exists_real_sum _ _ fun k _ => hx k

/-- A product of two arrays of reals contracted over any axes is an array of reals: each entry is a finite sum of
    products of an entry of the one with an entry of the other. -/
theorem dotGeneral_allReal {SL SR SO : Shape} {φ₁ φ₂ : FTy} (d : DotDims SL SR SO) (prec : Option ContractPrecision)
    {l : FVec Ideal SL φ₁} {r : FVec Ideal SR φ₂} (hl : AllReal l) (hr : AllReal r) :
    AllReal (Host.dotGeneral (F := Ideal) d prec l r) := fun j => by
  show ∃ t : ℝ, FloatOps.dotGeneral d prec .single l r j = (t : EReal)
  rw [Ideal.dotGeneral_apply]
  refine exists_real_sum _ _ fun k _ => ?_
  obtain ⟨a, ha⟩ := hl (d.lhsIdx j k)
  obtain ⟨b, hb⟩ := hr (d.rhsIdx j k)
  exact ⟨a * b, by rw [ha, hb, EReal.coe_mul]⟩

/-- The same product added to an array of reals, as a tiled program accumulates it, is an array of reals. -/
theorem matmul_allReal {SL SR SO : Shape} {φ₁ φ₂ : FTy} (d : DotDims SL SR SO) (prec : Option ContractPrecision)
    {l : FVec Ideal SL φ₁} {r : FVec Ideal SR φ₂} {acc : FVec Ideal SO .f32} (hl : AllReal l) (hr : AllReal r)
    (hacc : AllReal acc) : AllReal (matmul (F := Ideal) d prec l r acc) := fun j => by
  show ∃ t : ℝ, FloatOps.matmul d prec l r acc j = (t : EReal)
  rw [Ideal.matmul_apply]
  refine exists_real_add_sum _ _ _ (hacc j) fun k _ => ?_
  obtain ⟨a, ha⟩ := hl (d.lhsIdx j k)
  obtain ⟨b, hb⟩ := hr (d.rhsIdx j k)
  exact ⟨a * b, by rw [ha, hb, EReal.coe_mul]⟩

/-- Accumulating an array of real updates into an array of reals at the places an index array names gives an array
    of reals, whatever the indices: each entry is the operand's entry plus the finite sum of the updates that
    land on it. -/
theorem scatterAdd_allReal {S SI SU : Shape} {φ : FTy} {w : Nat} (d : ScatterDims S SI SU) (idx : IVec SI w)
    {x : FVec Ideal S φ} {u : FVec Ideal SU φ} (hx : AllReal x) (hu : AllReal u) :
    AllReal (Host.scatterAdd (F := Ideal) d x idx u) := fun i => by
  show ∃ t : ℝ, Ideal.hostScatterAdd d x idx u i = (t : EReal)
  unfold Ideal.hostScatterAdd
  exact exists_real_add_sum _ _ _ (hx i) fun k _ => hu k

/-! ## Integers read as floats, and a choice whose condition is known -/

/-- A signed integer array read as floats is an array of reals: each entry is the integer itself. -/
theorem sitofp_allReal {S : Shape} {w : Nat} (φ : FTy) (x : IVec S w) : AllReal (sitofp (F := Ideal) φ x) :=
  fun i => ⟨((x i).toInt : ℝ), rfl⟩

/-- An unsigned integer array read as floats is an array of reals: each entry is the integer itself. -/
theorem uitofp_allReal {S : Shape} {w : Nat} (φ : FTy) (x : IVec S w) : AllReal (uitofp (F := Ideal) φ x) :=
  fun i => ⟨((x i).toNat : ℝ), rfl⟩

/-- The entrywise negative of an array of reals is an array of reals. -/
theorem negf_allReal {S : Shape} {φ : FTy} {a : FVec Ideal S φ} (ha : AllReal a) : AllReal (negf a) := fun i => by
  obtain ⟨r, hr⟩ := ha i
  exact ⟨-r, by show -(a i) = _; rw [hr, EReal.coe_neg]⟩

/-- Where the condition holds at every entry, the choice is its first array. -/
theorem select_of_true {S : Shape} {α : Type} {p : IVec S 1} (hp : ∀ i, p i = 1) (a b : S.Idx → α) : select p a b = a :=
  funext fun i => show (if p i = 1 then a i else b i) = a i from if_pos (hp i)

/-- Where the condition fails at every entry, the choice is its second array. -/
theorem select_of_false {S : Shape} {α : Type} {p : IVec S 1} (hp : ∀ i, p i ≠ 1) (a b : S.Idx → α) : select p a b = b :=
  funext fun i => show (if p i = 1 then a i else b i) = b i from if_neg (hp i)

/-- So such a choice is an array of reals as soon as its first array is, whatever the second holds. -/
theorem select_allReal_of_true {S : Shape} {p : IVec S 1} (hp : ∀ i, p i = 1) {a : S.Idx → EReal} (b : S.Idx → EReal)
    (ha : AllReal a) : AllReal (select p a b) := by
  rw [select_of_true hp]; exact ha

/-- The comparison `x > y` answers `1` at an entry where `y` is below `x`. -/
theorem cmpf_ogt_eq_one {S : Shape} {φ : FTy} {x y : FVec Ideal S φ} {i : S.Idx} (h : y i < x i) :
    cmpf (F := Ideal) .ogt x y i = 1 := by
  show BitVec.ofBool (decide (y i < x i)) = 1
  simp [h]

/-! ## Signs: arrays of reals that are at least zero -/

/-- Every entry of the array is a real number that is at least zero. -/
def AllNonneg {S : Shape} (a : S.Idx → EReal) : Prop := ∀ i, ∃ r : ℝ, 0 ≤ r ∧ a i = (r : EReal)

/-- Positive reals are at least zero. -/
theorem AllPos.allNonneg {S : Shape} {a : S.Idx → EReal} (h : AllPos a) : AllNonneg a := fun i => by
  obtain ⟨r, hr, e⟩ := h i
  exact ⟨r, hr.le, e⟩

/-- Reals that are at least zero are reals. -/
theorem AllNonneg.allReal {S : Shape} {a : S.Idx → EReal} (h : AllNonneg a) : AllReal a := fun i => by
  obtain ⟨r, _, e⟩ := h i
  exact ⟨r, e⟩

/-- A finite sum of extended reals each of which is a real at least zero is a real at least zero. -/
theorem exists_nonneg_sum {ι : Type} (s : Finset ι) (f : ι → EReal) (h : ∀ k ∈ s, ∃ r : ℝ, 0 ≤ r ∧ f k = (r : EReal)) :
    ∃ r : ℝ, 0 ≤ r ∧ ∑ k ∈ s, f k = (r : EReal) := by
  classical
  choose! g hg0 hg using h
  exact ⟨∑ k ∈ s, g k, Finset.sum_nonneg hg0, by rw [coe_finset_sum]; exact Finset.sum_congr rfl hg⟩

/-- A real at least zero plus such a sum is a real at least zero. -/
theorem exists_nonneg_add_sum {ι : Type} (s : Finset ι) (c : EReal) (f : ι → EReal)
    (hc : ∃ r : ℝ, 0 ≤ r ∧ c = (r : EReal)) (h : ∀ k ∈ s, ∃ r : ℝ, 0 ≤ r ∧ f k = (r : EReal)) :
    ∃ r : ℝ, 0 ≤ r ∧ c + ∑ k ∈ s, f k = (r : EReal) := by
  obtain ⟨r0, h0, hr0⟩ := hc
  obtain ⟨r, h1, hr⟩ := exists_nonneg_sum s f h
  exact ⟨r0 + r, add_nonneg h0 h1, by rw [hr0, hr, EReal.coe_add]⟩

section Signs
variable {S : Shape} {φ : FTy}

/-- A constant array whose bit pattern denotes a real at least zero is an array of such reals. -/
theorem constant_allNonneg (S : Shape) (φ : FTy) (w : BitVec φ.bits) {r : ℝ} (hr : 0 ≤ r)
    (h : Ideal.ofBits φ w = (r : EReal)) : AllNonneg (constant (F := Ideal) S φ w) := fun _ => ⟨r, hr, h⟩

/-- Repeating an array of reals at least zero along new axes gives an array of reals at least zero. -/
theorem broadcastInDim_allNonneg {T : Shape} (dims : Fin S.rank → Fin T.rank) (h : S.BroadcastsInDim T dims)
    {a : S.Idx → EReal} (ha : AllNonneg a) : AllNonneg (broadcastInDim T dims h a) := fun _ => ha _

/-- The sum of two arrays of reals at least zero is an array of reals at least zero. -/
theorem addf_allNonneg {a b : FVec Ideal S φ} (ha : AllNonneg a) (hb : AllNonneg b) : AllNonneg (addf a b) := fun i => by
  obtain ⟨r, hr0, hr⟩ := ha i
  obtain ⟨t, ht0, ht⟩ := hb i
  exact ⟨r + t, add_nonneg hr0 ht0, by show a i + b i = _; rw [hr, ht, EReal.coe_add]⟩

/-- The product of two arrays of reals at least zero is an array of reals at least zero. -/
theorem mulf_allNonneg {a b : FVec Ideal S φ} (ha : AllNonneg a) (hb : AllNonneg b) : AllNonneg (mulf a b) := fun i => by
  obtain ⟨r, hr0, hr⟩ := ha i
  obtain ⟨t, ht0, ht⟩ := hb i
  exact ⟨r * t, mul_nonneg hr0 ht0, by show a i * b i = _; rw [hr, ht, EReal.coe_mul]⟩

/-- The entrywise square of an array of reals is an array of reals at least zero. -/
theorem mulf_self_allNonneg {a : FVec Ideal S φ} (ha : AllReal a) : AllNonneg (mulf a a) := fun i => by
  obtain ⟨r, hr⟩ := ha i
  exact ⟨r * r, mul_self_nonneg r, by show a i * a i = _; rw [hr, EReal.coe_mul]⟩

/-- The entrywise maximum of an array of reals with an array of reals at least zero is at least zero: the rectifier
    `max x 0` among them. -/
theorem maximumf_allNonneg_right {a b : FVec Ideal S φ} (ha : AllReal a) (hb : AllNonneg b) :
    AllNonneg (maximumf a b) := fun i => by
  show ∃ r : ℝ, 0 ≤ r ∧ max (a i) (b i) = (r : EReal)
  obtain ⟨r, hr⟩ := ha i
  obtain ⟨t, ht0, ht⟩ := hb i
  refine ⟨max r t, le_max_of_le_right ht0, ?_⟩
  rw [hr, ht]
  rcases le_total r t with h | h
  · rw [max_eq_right h, max_eq_right (EReal.coe_le_coe_iff.mpr h)]
  · rw [max_eq_left h, max_eq_left (EReal.coe_le_coe_iff.mpr h)]

/-- The quotient of an array of reals at least zero by an array of positive reals is an array of reals at least
    zero. -/
theorem divf_allNonneg {a b : FVec Ideal S φ} (ha : AllNonneg a) (hb : AllPos b) :
    AllNonneg (Host.divf (F := Ideal) a b) := fun i => by
  obtain ⟨r, hr0, hr⟩ := ha i
  obtain ⟨t, ht0, ht⟩ := hb i
  refine ⟨r * (1 / t), mul_nonneg hr0 (one_div_pos.mpr ht0).le, ?_⟩
  show Ideal.div (a i) (b i) = _
  rw [hr, ht, Ideal.div_coe ht0.ne', EReal.coe_mul]

/-- The sum of an array of reals at least zero along any axes, started from a real at least zero, is an array of
    reals at least zero. -/
theorem reduceAdd_allNonneg {T V : Shape} {axes : List (Fin S.rank)} {x : FVec Ideal S φ} {init : V.Idx → Ideal φ}
    (hx : AllNonneg x) (hinit : AllNonneg init) (h : S.ReducesTo axes T) (hv : 0 < V.numel) :
    AllNonneg (Host.reduceAdd (F := Ideal) x init h hv) := fun j => by
  show ∃ t : ℝ, 0 ≤ t ∧ Ideal.hostReduceAdd h x (init (Shape.Idx.first hv)) j = (t : EReal)
  unfold Ideal.hostReduceAdd
  exact exists_nonneg_add_sum _ _ _ (hinit _) fun k _ => hx k

/-- Accumulating updates that are reals at least zero into an array of reals at least zero gives an array of reals
    at least zero, whatever the indices: a count of how many updates land on each entry among them. -/
theorem scatterAdd_allNonneg {SI SU : Shape} {w : Nat} (d : ScatterDims S SI SU) (idx : IVec SI w)
    {x : FVec Ideal S φ} {u : FVec Ideal SU φ} (hx : AllNonneg x) (hu : AllNonneg u) :
    AllNonneg (Host.scatterAdd (F := Ideal) d x idx u) := fun i => by
  show ∃ t : ℝ, 0 ≤ t ∧ Ideal.hostScatterAdd d x idx u i = (t : EReal)
  unfold Ideal.hostScatterAdd
  exact exists_nonneg_add_sum _ _ _ (hx i) fun k _ => hu k

end Signs

end Cert.LibReal

end
-- ==== Proof.CrossBridge.lean ====
/-
  The cross term: regrouping a triple matrix product. For real entries
  Σ_q ((Σ_l tx(p, l) · px(l, q)) / 4096) · dx(q, j) = (Σ_l tx(p, l) · (Σ_q px(l, q) · dx(q, j))) · 2⁻¹².
-/
import proofs.«170012_j14542759264790_1_alg».proof.Proof.Gen.ReferenceIdeal.Read
import proofs.«170012_j14542759264790_1_alg».proof.Proof.Spec
import proofs.«170012_j14542759264790_1_alg».proof.Proof.LibReal
import Mathlib.Algebra.BigOperators.Ring.Finset
import Mathlib.Tactic.Ring

noncomputable section

open scoped BigOperators

namespace Cert.Proof.CrossBridge

open Cert.ReferenceIdeal Cert.ReferenceIdeal.Facts₀ Idealize.ShloMosaic Idealize.ShloMosaic.ValueIdx Cert.Proof.Spec Cert.LibReal

/-! ## The two literal words -/

/-- The single-precision pattern `0x45800000` (biased exponent 139, significand 1) denotes `2¹² = 4096`. -/
theorem ofBits_4096 : Ideal.ofBits .f32 0x45800000#32 = ((4096 : ℝ) : EReal) := by
  simp [Ideal.ofBits, Ideal.ieee, -EReal.coe_mul]; norm_num

/-- The scale, the pattern `0x39800000` (biased exponent 115, significand 1), denotes `2⁻¹² = 1 / 4096`. -/
theorem scale_eq : scale = ((1 / 4096 : ℝ) : EReal) := by
  unfold scale
  simp [Ideal.ofBits, Ideal.ieee, -EReal.coe_mul]; norm_num

/-! ## The regrouping law -/

/-- Over the reals, for finite index sets: Σ_q ((Σ_l t(l) · ph(l, q)) · c) · d(q) = (Σ_l t(l) · Σ_q ph(l, q) · d(q)) · c.
    Both sides distribute to the double sum of t(l) · ph(l, q) · d(q) · c; the two finite sums are exchanged. -/
theorem regroup_real {L Q : Type} [Fintype L] [Fintype Q] (t : L → ℝ) (ph : L → Q → ℝ) (d : Q → ℝ) (c : ℝ) :
    ∑ q, ((∑ l, t l * ph l q) * c) * d q = (∑ l, t l * ∑ q, ph l q * d q) * c := by
  simp only [Finset.sum_mul, Finset.mul_sum]
  rw [Finset.sum_comm]
  refine Finset.sum_congr rfl fun l _ => Finset.sum_congr rfl fun q _ => ?_
  ring

/-- The same law on the extended reals when every entry is a real number: each entry is a coercion, products and
    finite sums of coercions are coercions, the quotient by the real 4096 is the product with 1 / 4096, and the
    law over the reals joins the two sides. -/
theorem regroup_ereal {L Q : Type} [Fintype L] [Fintype Q] (t : L → EReal) (ph : L → Q → EReal) (d : Q → EReal)
    (ht : ∀ l, ∃ r : ℝ, t l = (r : EReal)) (hph : ∀ l q, ∃ r : ℝ, ph l q = (r : EReal))
    (hd : ∀ q, ∃ r : ℝ, d q = (r : EReal)) :
    (∑ l, t l * ∑ q, ph l q * d q) * scale
      = ∑ q, Ideal.div (∑ l, t l * ph l q) (Ideal.ofBits .f32 0x45800000#32) * d q := by
  choose T hT using ht
  choose P hP using hph
  choose D hD using hd
  have h4 : (4096 : ℝ) ≠ 0 := by norm_num
  simp only [hT, hP, hD, scale_eq, ofBits_4096, Ideal.div_coe h4, ← EReal.coe_mul, ← coe_finset_sum]
  rw [regroup_real]

/-! ## The two matrix products read at an index -/

/-- The product [4, 4096, 128] x [4, 128, 4096], batched over the first axis: entry i is the sum over k of
    l(i₀, i₁, k) · r(i₀, k, i₂). -/
theorem dot23_apply (l : FVec Ideal S4x4096x128 .f32) (r : FVec Ideal S4x128x4096 .f32) (i : S4x4096x4096.Idx) :
    Host.dotGeneral dot_S4x4096x128_S4x128x4096_S4x4096x4096_2_1_1_2_0_0 none l r i
      = ∑ k : Fin 128, l (Read.lidx_main_v23 i k) * r (Read.ridx_main_v23 i k) := by
  simp only [Host.dotGeneral]
  rw [Ideal.dotGeneral_apply, ← Equiv.sum_comp (ValueIdx.contrEquiv1 dot_S4x4096x128_S4x128x4096_S4x4096x4096_2_1_1_2_0_0 128 rfl rfl).symm]
  refine Finset.sum_congr rfl fun k _ => ?_
  have hk := ValueIdx.contrEquiv1_symm_val dot_S4x4096x128_S4x128x4096_S4x4096x4096_2_1_1_2_0_0 128 rfl rfl k
  have el : dot_S4x4096x128_S4x128x4096_S4x4096x4096_2_1_1_2_0_0.lhsIdx i ((ValueIdx.contrEquiv1 dot_S4x4096x128_S4x128x4096_S4x4096x4096_2_1_1_2_0_0 128 rfl rfl).symm k) = Read.lidx_main_v23 i k := funext fun a => Fin.ext (by
    match a with
    | ⟨0, _⟩ => exact Read.lhs_main_v23_0 _ _
    | ⟨1, _⟩ => exact Read.lhs_main_v23_1 _ _
    | ⟨2, _⟩ => exact (Read.lhs_main_v23_2 _ _).trans hk)
  have er : dot_S4x4096x128_S4x128x4096_S4x4096x4096_2_1_1_2_0_0.rhsIdx i ((ValueIdx.contrEquiv1 dot_S4x4096x128_S4x128x4096_S4x4096x4096_2_1_1_2_0_0 128 rfl rfl).symm k) = Read.ridx_main_v23 i k := funext fun a => Fin.ext (by
    match a with
    | ⟨0, _⟩ => exact Read.rhs_main_v23_0 _ _
    | ⟨1, _⟩ => exact (Read.rhs_main_v23_1 _ _).trans hk
    | ⟨2, _⟩ => exact Read.rhs_main_v23_2 _ _)
  rw [el, er]

/-- The product [4, 4096, 4096] x [4, 4096, 128], batched over the first axis: entry i is the sum over k of
    l(i₀, i₁, k) · r(i₀, k, i₂). -/
theorem dot29_apply (l : FVec Ideal S4x4096x4096 .f32) (r : FVec Ideal S4x4096x128 .f32) (i : S4x4096x128.Idx) :
    Host.dotGeneral dot_S4x4096x4096_S4x4096x128_S4x4096x128_2_1_1_2_0_0 none l r i
      = ∑ k : Fin 4096, l (Read.lidx_main_v29 i k) * r (Read.ridx_main_v29 i k) := by
  simp only [Host.dotGeneral]
  rw [Ideal.dotGeneral_apply, ← Equiv.sum_comp (ValueIdx.contrEquiv1 dot_S4x4096x4096_S4x4096x128_S4x4096x128_2_1_1_2_0_0 4096 rfl rfl).symm]
  refine Finset.sum_congr rfl fun k _ => ?_
  have hk := ValueIdx.contrEquiv1_symm_val dot_S4x4096x4096_S4x4096x128_S4x4096x128_2_1_1_2_0_0 4096 rfl rfl k
  have el : dot_S4x4096x4096_S4x4096x128_S4x4096x128_2_1_1_2_0_0.lhsIdx i ((ValueIdx.contrEquiv1 dot_S4x4096x4096_S4x4096x128_S4x4096x128_2_1_1_2_0_0 4096 rfl rfl).symm k) = Read.lidx_main_v29 i k := funext fun a => Fin.ext (by
    match a with
    | ⟨0, _⟩ => exact Read.lhs_main_v29_0 _ _
    | ⟨1, _⟩ => exact Read.lhs_main_v29_1 _ _
    | ⟨2, _⟩ => exact (Read.lhs_main_v29_2 _ _).trans hk)
  have er : dot_S4x4096x4096_S4x4096x128_S4x4096x128_2_1_1_2_0_0.rhsIdx i ((ValueIdx.contrEquiv1 dot_S4x4096x4096_S4x4096x128_S4x4096x128_2_1_1_2_0_0 4096 rfl rfl).symm k) = Read.ridx_main_v29 i k := funext fun a => Fin.ext (by
    match a with
    | ⟨0, _⟩ => exact Read.rhs_main_v29_0 _ _
    | ⟨1, _⟩ => exact (Read.rhs_main_v29_1 _ _).trans hk
    | ⟨2, _⟩ => exact Read.rhs_main_v29_2 _ _)
  rw [el, er]

/-- At explicit coordinates the left index of the second product at (b, p, j), k is (b, p, k). -/
theorem lidx29 (b : Fin 4) (p : Fin 4096) (j : Fin 128) (k : Fin 4096) :
    Read.lidx_main_v29 (ix3 b p j) k = ix3 b p k := funext fun a => match a with
  | ⟨0, _⟩ => rfl
  | ⟨1, _⟩ => rfl
  | ⟨2, _⟩ => rfl

/-- At explicit coordinates the right index of the second product at (b, p, j), k is (b, k, j). -/
theorem ridx29 (b : Fin 4) (p : Fin 4096) (j : Fin 128) (k : Fin 4096) :
    Read.ridx_main_v29 (ix3 b p j) k = ix3 b k j := funext fun a => match a with
  | ⟨0, _⟩ => rfl
  | ⟨1, _⟩ => rfl
  | ⟨2, _⟩ => rfl

/-- At explicit coordinates the left index of the first product at (b, p, q), l is (b, p, l). -/
theorem lidx23 (b : Fin 4) (p : Fin 4096) (q : Fin 4096) (l : Fin 128) :
    Read.lidx_main_v23 (ix3 b p q) l = ix3 b p l := funext fun a => match a with
  | ⟨0, _⟩ => rfl
  | ⟨1, _⟩ => rfl
  | ⟨2, _⟩ => rfl

/-- At explicit coordinates the right index of the first product at (b, p, q), l is (b, l, q). -/
theorem ridx23 (b : Fin 4) (p : Fin 4096) (q : Fin 4096) (l : Fin 128) :
    Read.ridx_main_v23 (ix3 b p q) l = ix3 b l q := funext fun a => match a with
  | ⟨0, _⟩ => rfl
  | ⟨1, _⟩ => rfl
  | ⟨2, _⟩ => rfl

/-- The 4096 x 4096 product at (b, p, q) is the sum over l of tx(b, p, l) · px(b, l, q). -/
theorem dot23_ix (tx : FVec Ideal S4x4096x128 .f32) (px : FVec Ideal S4x128x4096 .f32) (b : Fin 4) (p q : Fin 4096) :
    Host.dotGeneral dot_S4x4096x128_S4x128x4096_S4x4096x4096_2_1_1_2_0_0 none tx px (ix3 b p q)
      = ∑ l : Fin 128, tx (ix3 b p l) * px (ix3 b l q) := by
  rw [dot23_apply]
  simp only [lidx23, ridx23]

/-- The second product at (b, p, j) is the sum over q of m(b, p, q) · dx(b, q, j). -/
theorem dot29_ix (m : FVec Ideal S4x4096x4096 .f32) (dx : FVec Ideal S4x4096x128 .f32) (b : Fin 4) (p : Fin 4096) (j : Fin 128) :
    Host.dotGeneral dot_S4x4096x4096_S4x4096x128_S4x4096x128_2_1_1_2_0_0 none m dx (ix3 b p j)
      = ∑ q : Fin 4096, m (ix3 b p q) * dx (ix3 b q j) := by
  rw [dot29_apply]
  simp only [lidx29, ridx29]

/-! ## The two cross terms -/

/-- Toward aim: (tx · px / 4096) · dx, the 4096 x 4096 matrix formed first, is tx · (px · dx) · 2⁻¹² when every entry is real. -/
theorem crossAim_eq (dx tx : FVec Ideal S4x4096x128 .f32) (px : FVec Ideal S4x128x4096 .f32)
    (hdx : AllReal dx) (htx : AllReal tx) (hpx : AllReal px) :
    crossAim dx tx px
      = Host.dotGeneral dot_S4x4096x4096_S4x4096x128_S4x4096x128_2_1_1_2_0_0 none
          (Host.divf (Host.dotGeneral dot_S4x4096x128_S4x128x4096_S4x4096x4096_2_1_1_2_0_0 none tx px)
            (broadcastInDim S4x4096x4096 ![] bcast_S_S4x4096x4096 (constant S_ .f32 0x45800000#32))) dx := by
  funext i
  obtain ⟨b, p, j, rfl⟩ : ∃ (b : Fin 4) (p : Fin 4096) (j : Fin 128), i = ix3 b p j := ⟨i 0, i 1, i 2, eq_ix3 i⟩
  rw [dot29_ix]
  -- the quotient array at (b, p, q): the first product there, divided by the repeated constant 4096
  have hdiv : ∀ q : Fin 4096,
      Host.divf (F := Ideal) (Host.dotGeneral dot_S4x4096x128_S4x128x4096_S4x4096x4096_2_1_1_2_0_0 none tx px)
          (broadcastInDim S4x4096x4096 ![] bcast_S_S4x4096x4096 (constant S_ .f32 0x45800000#32)) (ix3 b p q)
        = Ideal.div (∑ l : Fin 128, tx (ix3 b p l) * px (ix3 b l q)) (Ideal.ofBits .f32 0x45800000#32) := fun q => by
    rw [← dot23_ix]; rfl
  simp only [hdiv]
  exact regroup_ereal (fun l => tx (ix3 b p l)) (fun l q => px (ix3 b l q)) (fun q => dx (ix3 b q j))
    (fun l => htx _) (fun l q => hpx _) (fun q => hdx _)

/-- Toward detect: ((tx · px)ᵀ / 4096) · ax is pxᵀ · (txᵀ · ax) · 2⁻¹² when every entry is real. -/
theorem crossDet_eq (ax tx : FVec Ideal S4x4096x128 .f32) (px : FVec Ideal S4x128x4096 .f32)
    (hax : AllReal ax) (htx : AllReal tx) (hpx : AllReal px) :
    crossDet ax tx px
      = Host.dotGeneral dot_S4x4096x4096_S4x4096x128_S4x4096x128_2_1_1_2_0_0 none
          (Host.divf (transpose S4x4096x4096 [0, 2, 1] (Host.dotGeneral dot_S4x4096x128_S4x128x4096_S4x4096x4096_2_1_1_2_0_0 none tx px)
              transposes_S4x4096x4096_S4x4096x4096_0_2_1)
            (broadcastInDim S4x4096x4096 ![] bcast_S_S4x4096x4096 (constant S_ .f32 0x45800000#32))) ax := by
  funext i
  obtain ⟨b, q, j, rfl⟩ : ∃ (b : Fin 4) (q : Fin 4096) (j : Fin 128), i = ix3 b q j := ⟨i 0, i 1, i 2, eq_ix3 i⟩
  rw [dot29_ix]
  -- the transposed product at (b, q, p) is the product at (b, p, q)
  have htr : ∀ p : Fin 4096,
      transpose S4x4096x4096 [0, 2, 1] (Host.dotGeneral (F := Ideal) dot_S4x4096x128_S4x128x4096_S4x4096x4096_2_1_1_2_0_0 none tx px)
          transposes_S4x4096x4096_S4x4096x4096_0_2_1 (ix3 b q p)
        = Host.dotGeneral (F := Ideal) dot_S4x4096x128_S4x128x4096_S4x4096x4096_2_1_1_2_0_0 none tx px (ix3 b p q) := fun p =>
    transpose_apply [0, 2, 1] _ transposes_S4x4096x4096_S4x4096x4096_0_2_1 (ix3 b q p) (ix3 b p q) (fun a => match a with
      | ⟨0, _⟩ => rfl
      | ⟨1, _⟩ => rfl
      | ⟨2, _⟩ => rfl)
  -- the quotient array at (b, q, p): that entry divided by the repeated constant 4096; the factors of each
  -- product are written px first, by commutativity
  have hdiv : ∀ p : Fin 4096,
      Host.divf (F := Ideal) (transpose S4x4096x4096 [0, 2, 1] (Host.dotGeneral dot_S4x4096x128_S4x128x4096_S4x4096x4096_2_1_1_2_0_0 none tx px)
              transposes_S4x4096x4096_S4x4096x4096_0_2_1)
          (broadcastInDim S4x4096x4096 ![] bcast_S_S4x4096x4096 (constant S_ .f32 0x45800000#32)) (ix3 b q p)
        = Ideal.div (∑ l : Fin 128, px (ix3 b l q) * tx (ix3 b p l)) (Ideal.ofBits .f32 0x45800000#32) := fun p => by
    have e : (∑ l : Fin 128, px (ix3 b l q) * tx (ix3 b p l)) = ∑ l : Fin 128, tx (ix3 b p l) * px (ix3 b l q) :=
      Finset.sum_congr rfl fun l _ => mul_comm _ _
    rw [e, ← dot23_ix, ← htr]; rfl
  simp only [hdiv]
  exact regroup_ereal (fun l => px (ix3 b l q)) (fun l p => tx (ix3 b p l)) (fun p => ax (ix3 b p j))
    (fun l => hpx _) (fun l p => htx _) (fun p => hax _)

end Cert.Proof.CrossBridge

end
-- ==== Proof.RefBridge.lean ====
/-
  The tiled program's results are the reference's. Three facts join them: a linear launch is the host's
  contraction plus bias (four times, and twice more with a residual); the reshapes and transposes between the launches
  are the same operations on both sides; and the cross term regrouped is the reference's, for real entries — which the
  linear layers' outputs are when the inputs are.
-/
import proofs.«170012_j14542759264790_1_alg».proof.Proof.Gen.ReferenceIdeal.Read
import proofs.«170012_j14542759264790_1_alg».proof.Proof.KernelTerm
import proofs.«170012_j14542759264790_1_alg».proof.Proof.LinBridge
import proofs.«170012_j14542759264790_1_alg».proof.Proof.CrossBridge
import proofs.«170012_j14542759264790_1_alg».proof.Proof.LibReal

noncomputable section

open scoped BigOperators

namespace Cert.Proof.RefBridge

open Idealize.ShloMosaic Idealize.ShloMosaic.ValueIdx Cert.Proof.Spec Cert.Proof.KernelTerm Cert.LibReal

open Cert.ReferenceIdeal (S4x2048x256 S256x256 S256)

/-! ## Real entries through the layout operations and the linear layer -/

/-- An array of reals with two axes exchanged is an array of reals. -/
theorem transpose_allReal {S T : Shape} (perm : List (Fin S.rank)) (h : S.Transposes perm T) {a : S.Idx → EReal}
    (ha : AllReal a) : AllReal (transpose T perm a h) := fun _ => ha _

/-! ## A linear launch is the reference's linear layer -/

/-- The launch on x with weight w and bias b is the reference's contraction of x with w plus the bias repeated over
    batch and row: its first linear layer's term … -/
theorem lin_v3 (x : FVec Ideal S4x2048x256 .f32) (w : FVec Ideal S256x256 .f32) (b : FVec Ideal S256 .f32) :
    lin x w b = Cert.ReferenceIdeal.Read.val_main_v3 (F := Ideal) x w b :=
  Cert.Proof.LinBridge.lin_eq _ _ _ _ x w b
/-- … and the second's, the third's and the fourth's, which are the same term at other arguments. -/
theorem lin_v9 (x : FVec Ideal S4x2048x256 .f32) (w : FVec Ideal S256x256 .f32) (b : FVec Ideal S256 .f32) :
    lin x w b = Cert.ReferenceIdeal.Read.val_main_v9 (F := Ideal) x w b :=
  Cert.Proof.LinBridge.lin_eq _ _ _ _ x w b
theorem lin_v15 (x : FVec Ideal S4x2048x256 .f32) (w : FVec Ideal S256x256 .f32) (b : FVec Ideal S256 .f32) :
    lin x w b = Cert.ReferenceIdeal.Read.val_main_v15 (F := Ideal) x w b :=
  Cert.Proof.LinBridge.lin_eq _ _ _ _ x w b
theorem lin_v21 (x : FVec Ideal S4x2048x256 .f32) (w : FVec Ideal S256x256 .f32) (b : FVec Ideal S256 .f32) :
    lin x w b = Cert.ReferenceIdeal.Read.val_main_v21 (F := Ideal) x w b :=
  Cert.Proof.LinBridge.lin_eq _ _ _ _ x w b

/-- The reference's linear layer of real arrays has real entries: a finite sum of products of reals plus a real. -/
theorem v3_allReal {x : FVec Ideal S4x2048x256 .f32} {w : FVec Ideal S256x256 .f32} {b : FVec Ideal S256 .f32}
    (hx : AllReal x) (hw : AllReal w) (hb : AllReal b) : AllReal (Cert.ReferenceIdeal.Read.val_main_v3 (F := Ideal) x w b) :=
  addf_allReal (dotGeneral_allReal _ none hx hw) (broadcastInDim_allReal _ _ (broadcastInDim_allReal _ _ hb))

/-- Toward aim: the tiled program's result is the reference's second result, when the eight arrays feeding the cross
    term have real entries. -/
theorem aim_eq (a0 : FVec Ideal S4x2048x256 .f32) (a1 : FVec Ideal S4x2048x256 .f32) (a2 : FVec Ideal S256x256 .f32) (a3 : FVec Ideal S256 .f32) (a6 : FVec Ideal S256x256 .f32) (a7 : FVec Ideal S256 .f32) (a8 : FVec Ideal S256x256 .f32) (a9 : FVec Ideal S256 .f32) (a10 : FVec Ideal S256x256 .f32) (a11 : FVec Ideal S256 .f32)
    (h0 : AllReal a0) (h1 : AllReal a1) (h2 : AllReal a2) (h3 : AllReal a3) (h6 : AllReal a6) (h7 : AllReal a7) (h8 : AllReal a8) (h9 : AllReal a9) :
    kernelAim a0 a1 a2 a3 a6 a7 a8 a9 a10 a11 = Cert.ReferenceIdeal.Read.val_main_v36 (F := Ideal) a0 a1 a2 a3 a6 a7 a8 a9 a10 a11 := by
  -- the three linear launches feeding the cross term are the reference's, and have real entries
  have e3 : lin a0 a2 a3 = Cert.ReferenceIdeal.Read.val_main_v3 (F := Ideal) a0 a2 a3 := lin_v3 a0 a2 a3
  have e15 : lin a1 a6 a7 = Cert.ReferenceIdeal.Read.val_main_v15 (F := Ideal) a1 a6 a7 := lin_v15 a1 a6 a7
  have e21 : lin a0 a8 a9 = Cert.ReferenceIdeal.Read.val_main_v21 (F := Ideal) a0 a8 a9 := lin_v21 a0 a8 a9
  have r3 : AllReal (Cert.ReferenceIdeal.Read.val_main_v3 (F := Ideal) a0 a2 a3) := v3_allReal h0 h2 h3
  have r15 : AllReal (Cert.ReferenceIdeal.Read.val_main_v15 (F := Ideal) a1 a6 a7) := v3_allReal h1 h6 h7
  have r21 : AllReal (Cert.ReferenceIdeal.Read.val_main_v21 (F := Ideal) a0 a8 a9) := v3_allReal h0 h8 h9
  -- the reshapes and transposes between the launches are the reference's own
  have e5 : colsT (lin a0 a2 a3) = Cert.ReferenceIdeal.Read.val_main_v5 (F := Ideal) a0 a2 a3 := by rw [e3]; rfl
  have e17 : colsT (lin a1 a6 a7) = Cert.ReferenceIdeal.Read.val_main_v17 (F := Ideal) a1 a6 a7 := by rw [e15]; rfl
  have e22 : cols (lin a0 a8 a9) = Cert.ReferenceIdeal.Read.val_main_v22 (F := Ideal) a0 a8 a9 := by rw [e21]; rfl
  have r5 : AllReal (Cert.ReferenceIdeal.Read.val_main_v5 (F := Ideal) a0 a2 a3) :=
    transpose_allReal _ _ (shapeCast_allReal _ r3)
  have r17 : AllReal (Cert.ReferenceIdeal.Read.val_main_v17 (F := Ideal) a1 a6 a7) :=
    transpose_allReal _ _ (shapeCast_allReal _ r15)
  have r22 : AllReal (Cert.ReferenceIdeal.Read.val_main_v22 (F := Ideal) a0 a8 a9) := shapeCast_allReal _ r21
  -- the cross term regrouped is the reference's
  have e29 : crossAim (colsT (lin a0 a2 a3)) (colsT (lin a1 a6 a7)) (cols (lin a0 a8 a9))
      = Cert.ReferenceIdeal.Read.val_main_v29 (F := Ideal) a0 a1 a2 a3 a6 a7 a8 a9 := by
    rw [e5, e17, e22]
    exact Cert.Proof.CrossBridge.crossAim_eq _ _ _ r5 r17 r22
  have e31 : rowsBack (crossAim (colsT (lin a0 a2 a3)) (colsT (lin a1 a6 a7)) (cols (lin a0 a8 a9)))
      = Cert.ReferenceIdeal.Read.val_main_v31 (F := Ideal) a0 a1 a2 a3 a6 a7 a8 a9 := by rw [e29]; rfl
  -- the last launch, with its residual
  unfold kernelAim
  rw [e31]
  exact Cert.Proof.LinBridge.linres_eq _ _ _ _ _ a10 a11 a1

/-- Toward detect: the tiled program's result is the reference's first result, under the same condition. -/
theorem det_eq (a0 : FVec Ideal S4x2048x256 .f32) (a1 : FVec Ideal S4x2048x256 .f32) (a4 : FVec Ideal S256x256 .f32) (a5 : FVec Ideal S256 .f32) (a6 : FVec Ideal S256x256 .f32) (a7 : FVec Ideal S256 .f32) (a8 : FVec Ideal S256x256 .f32) (a9 : FVec Ideal S256 .f32) (a12 : FVec Ideal S256x256 .f32) (a13 : FVec Ideal S256 .f32)
    (h0 : AllReal a0) (h1 : AllReal a1) (h4 : AllReal a4) (h5 : AllReal a5) (h6 : AllReal a6) (h7 : AllReal a7) (h8 : AllReal a8) (h9 : AllReal a9) :
    kernelDet a0 a1 a4 a5 a6 a7 a8 a9 a12 a13 = Cert.ReferenceIdeal.Read.val_main_v44 (F := Ideal) a0 a1 a4 a5 a6 a7 a8 a9 a12 a13 := by
  -- the three linear launches feeding the cross term are the reference's, and have real entries
  have e9 : lin a1 a4 a5 = Cert.ReferenceIdeal.Read.val_main_v9 (F := Ideal) a1 a4 a5 := lin_v9 a1 a4 a5
  have e15 : lin a1 a6 a7 = Cert.ReferenceIdeal.Read.val_main_v15 (F := Ideal) a1 a6 a7 := lin_v15 a1 a6 a7
  have e21 : lin a0 a8 a9 = Cert.ReferenceIdeal.Read.val_main_v21 (F := Ideal) a0 a8 a9 := lin_v21 a0 a8 a9
  have r9 : AllReal (Cert.ReferenceIdeal.Read.val_main_v9 (F := Ideal) a1 a4 a5) := v3_allReal h1 h4 h5
  have r15 : AllReal (Cert.ReferenceIdeal.Read.val_main_v15 (F := Ideal) a1 a6 a7) := v3_allReal h1 h6 h7
  have r21 : AllReal (Cert.ReferenceIdeal.Read.val_main_v21 (F := Ideal) a0 a8 a9) := v3_allReal h0 h8 h9
  -- the reshapes and transposes between the launches are the reference's own
  have e11 : colsT (lin a1 a4 a5) = Cert.ReferenceIdeal.Read.val_main_v11 (F := Ideal) a1 a4 a5 := by rw [e9]; rfl
  have e17 : colsT (lin a1 a6 a7) = Cert.ReferenceIdeal.Read.val_main_v17 (F := Ideal) a1 a6 a7 := by rw [e15]; rfl
  have e22 : cols (lin a0 a8 a9) = Cert.ReferenceIdeal.Read.val_main_v22 (F := Ideal) a0 a8 a9 := by rw [e21]; rfl
  have r11 : AllReal (Cert.ReferenceIdeal.Read.val_main_v11 (F := Ideal) a1 a4 a5) :=
    transpose_allReal _ _ (shapeCast_allReal _ r9)
  have r17 : AllReal (Cert.ReferenceIdeal.Read.val_main_v17 (F := Ideal) a1 a6 a7) :=
    transpose_allReal _ _ (shapeCast_allReal _ r15)
  have r22 : AllReal (Cert.ReferenceIdeal.Read.val_main_v22 (F := Ideal) a0 a8 a9) := shapeCast_allReal _ r21
  -- the cross term regrouped is the reference's
  have e37 : crossDet (colsT (lin a1 a4 a5)) (colsT (lin a1 a6 a7)) (cols (lin a0 a8 a9))
      = Cert.ReferenceIdeal.Read.val_main_v37 (F := Ideal) a0 a1 a4 a5 a6 a7 a8 a9 := by
    rw [e11, e17, e22]
    exact Cert.Proof.CrossBridge.crossDet_eq _ _ _ r11 r17 r22
  have e39 : rowsBack (crossDet (colsT (lin a1 a4 a5)) (colsT (lin a1 a6 a7)) (cols (lin a0 a8 a9)))
      = Cert.ReferenceIdeal.Read.val_main_v39 (F := Ideal) a0 a1 a4 a5 a6 a7 a8 a9 := by rw [e37]; rfl
  -- the last launch, with its residual
  unfold kernelDet
  rw [e39]
  exact Cert.Proof.LinBridge.linres_eq _ _ _ _ _ a12 a13 a0

end Cert.Proof.RefBridge

end
-- ==== Proof.Finite.lean ====
/-
  From the precondition to real numbers. The precondition says of every input array that each entry x has
  |x| < +∞; on the extended reals that leaves exactly the real numbers.
-/
import proofs.«170012_j14542759264790_1_alg».proof.Proof.Gen.Pre_finite_inputs
import proofs.«170012_j14542759264790_1_alg».proof.Proof.LibReal
import Idealize.ShloMosaic.Lib.ReduceAll

noncomputable section

open scoped BigOperators

namespace Cert.Proof.Finite

open Cert.Pre_finite_inputs Idealize.ShloMosaic Cert.LibReal

/-- The 32-bit word 0x7F800000 (sign 0, exponent all ones, mantissa 0) denotes +∞. -/
theorem ofBits_inf : Ideal.ofBits .f32 0x7F800000#32 = (⊤ : EReal) := by simp [Ideal.ofBits, Ideal.ieee]

/-- The ordered comparison "less than" answers 1 only when a < b in the linear order of the extended reals. -/
theorem lt_of_cmp_olt {a b : EReal} (h : Ideal.cmp .olt a b = 1#1) : a < b := by
  by_contra hn
  simp [Ideal.cmp, hn] at h

/-- An extended real whose absolute value max x (-x) lies strictly below +∞ is a real number: at x = +∞ the maximum
    is +∞ itself, and at x = -∞ it is -(-∞) = +∞. -/
theorem real_of_abs_lt_top (x : EReal) (h : max x (-x) < ⊤) : ∃ r : ℝ, x = (r : EReal) := by
  induction x using EReal.rec with
  | bot => simp at h
  | coe r => exact ⟨r, rfl⟩
  | top => simp at h

/-- One array, any shape: if the conjunction over all entries of "|x i| < +∞" (a reduction by "and" from the initial
    value 1 into the shape with a single index) is 1, then every entry of x is a real number. A conjunction that is 1
    had 1 at every entry; there the comparison reads max (x i) (-(x i)) < +∞. -/
theorem allReal_of_all {S : Shape} {axes : List (Fin S.rank)} (x : FVec Ideal S .f32)
    (hb : S_.BroadcastsInDim S (![] : Fin 0 → Fin S.rank)) (hr : S.ReducesTo axes S_) (hpos : 0 < S_.numel) (j : S_.Idx)
    (e : Host.reduce IntOp.andi (cmpf .olt (Host.absf x) (broadcastInDim S ![] hb (constant (F := Ideal) S_ .f32 0x7F800000#32)))
      (constantI S_ 1 1#1) hr hpos j = 1#1) : AllReal x := by
  intro i
  -- the shape with no axes has exactly one index
  haveI : Subsingleton S_.Idx := ⟨fun a b => funext fun d => d.elim0⟩
  have hi := Host.reduce_andi_all _ _ hr hpos j e i
  -- at the entry i: the absolute value is max (x i) (-(x i)), and the repeated constant reads its one value everywhere
  have hc : Ideal.cmp .olt (max (x i) (-(x i))) (Ideal.ofBits .f32 0x7F800000#32) = 1#1 := hi
  rw [ofBits_inf] at hc
  exact real_of_abs_lt_top _ (lt_of_cmp_olt hc)

/-- A pointwise "and" of two one-bit arrays that is 1 at an index has both operands 1 there. -/
theorem andi_vec {x y : IVec S_ 1} {j : S_.Idx} (h : andi x y j = 1#1) : x j = 1#1 ∧ y j = 1#1 := IntOp.andi_eq_one.1 h

/-- Under the precondition every entry of the first ten input arrays (the two activations and the four weight / bias
    pairs that feed the cross term) is a real number. -/
theorem allReal_of_pre (a0 : FVec Ideal S4x2048x256 .f32) (a1 : FVec Ideal S4x2048x256 .f32) (a2 : FVec Ideal S256x256 .f32) (a3 : FVec Ideal S256 .f32) (a4 : FVec Ideal S256x256 .f32) (a5 : FVec Ideal S256 .f32) (a6 : FVec Ideal S256x256 .f32) (a7 : FVec Ideal S256 .f32) (a8 : FVec Ideal S256x256 .f32) (a9 : FVec Ideal S256 .f32) (a10 : FVec Ideal S256x256 .f32) (a11 : FVec Ideal S256 .f32) (a12 : FVec Ideal S256x256 .f32) (a13 : FVec Ideal S256 .f32)
    (h : Cert.Pre_finite_inputs.fn (F := Ideal) a0 a1 a2 a3 a4 a5 a6 a7 a8 a9 a10 a11 a12 a13 = fun _ => 1#1) :
    AllReal a0 ∧ AllReal a1 ∧ AllReal a2 ∧ AllReal a3 ∧ AllReal a4 ∧ AllReal a5 ∧ AllReal a6 ∧ AllReal a7 ∧ AllReal a8 ∧ AllReal a9 := by
  -- the precondition at its one index: a left-nested conjunction ((…(c0 ∧ c1) ∧ c2) … ∧ c13) of the fourteen
  -- per-array conjunctions c_k = "every entry of a_k has |x| < +∞"
  have h0 := congrFun h (fun d => d.elim0)
  dsimp only [fn, fn_part1, fn_part2, fn_part3, fn_part4] at h0
  -- split from the outside, the last array joined first; c13 … c10 are not needed
  obtain ⟨h12, _⟩ := andi_vec h0
  obtain ⟨h11, _⟩ := andi_vec h12
  obtain ⟨h10, _⟩ := andi_vec h11
  obtain ⟨h9, _⟩ := andi_vec h10
  obtain ⟨h8, e9⟩ := andi_vec h9
  obtain ⟨h7, e8⟩ := andi_vec h8
  obtain ⟨h6, e7⟩ := andi_vec h7
  obtain ⟨h5, e6⟩ := andi_vec h6
  obtain ⟨h4, e5⟩ := andi_vec h5
  obtain ⟨h3, e4⟩ := andi_vec h4
  obtain ⟨h2, e3⟩ := andi_vec h3
  obtain ⟨h1, e2⟩ := andi_vec h2
  obtain ⟨e0, e1⟩ := andi_vec h1
  exact ⟨allReal_of_all a0 _ _ _ _ e0, allReal_of_all a1 _ _ _ _ e1, allReal_of_all a2 _ _ _ _ e2, allReal_of_all a3 _ _ _ _ e3,
    allReal_of_all a4 _ _ _ _ e4, allReal_of_all a5 _ _ _ _ e5, allReal_of_all a6 _ _ _ _ e6, allReal_of_all a7 _ _ _ _ e7,
    allReal_of_all a8 _ _ _ _ e8, allReal_of_all a9 _ _ _ _ e9⟩

end Cert.Proof.Finite

end
-- ==== Proof.lean ====
/-
  What is certified: a non-local cross block without a softmax, computed by a tiled program and by a plain reference,
  agree on the extended reals whenever every input entry is finite.

  The inputs are two activations, detect and aim, each [4, 2048, 256], and six linear layers (a transposed weight
  [256, 256] and a bias [256] each). A linear layer sends a row x to x · WT + b. Four layers come first: g of detect, g2 of
  aim, theta of aim, phi of detect. Per batch their outputs are regrouped as matrices dx, ax, tx [4096, 128] and
  px [128, 4096], and between them sits the cross term, a product of three matrices divided by 4096:

    toward aim      tx · px · dx / 4096
    toward detect   (tx · px)ᵀ · ax / 4096

  Two more layers follow, each with a residual: W of the cross term toward aim, plus aim; Q of the cross term toward
  detect, plus detect. These two arrays are the results.

  The reference multiplies in the order written: it forms the 4096 x 4096 matrix tx · px (toward detect, its
  transpose), divides every entry by 4096, and multiplies by dx (by ax). The tiled program never forms that matrix. It
  forms the 128 x 128 matrix px · dx (toward detect, txᵀ · ax) first, and then tx · (px · dx) (toward detect,
  pxᵀ · (txᵀ · ax)), and multiplies by the single-precision word for 2⁻¹² instead of dividing by 4096.

  Why the two agree. On the extended reals a product does not distribute over a sum, and sums do not regroup, once an
  infinity is among the terms, so the regrouping is not free. The precondition says of every entry x of every input
  that |x| < +∞, which on the extended reals leaves exactly the real numbers. Sums, products and the quotient by 4096
  of real numbers are real, so every entry of every intermediate array is real, and on real numbers
    Σ_l tx(p, l) · (Σ_q px(l, q) · dx(q, j)) = Σ_q (Σ_l tx(p, l) · px(l, q)) · dx(q, j)
  by distributing each product over the inner sum and exchanging the two finite sums; x / 4096 = x · 2⁻¹², and the
  factor moves through the outer sum by distributivity again. The layers before and after are the same functions of
  the same arrays in both programs.

  How the claim is put together. Each program's run ends with its arguments unchanged (the three frame claims), and
  with its results at a named function of its arguments: for the tiled program, the values the last launch leaves in
  the two result arrays, followed back launch by launch to the arguments; for the reference, the composed term of its
  operations. From memories that agree on the fourteen arguments the two functions are applied to the same arrays, and
  the identity above, with the precondition read back to "every entry is real", makes them equal. The tiled program's
  idealization rewrote no operation, so nothing is claimed of it beyond its own text read on the extended reals.
-/
import proofs.«170012_j14542759264790_1_alg».proof.Defs
import proofs.«170012_j14542759264790_1_alg».proof.Proof.Gen.Kernel
import proofs.«170012_j14542759264790_1_alg».proof.Proof.Gen.Kernel.Skeleton
import proofs.«170012_j14542759264790_1_alg».proof.Proof.Gen.Kernel.Launch
import proofs.«170012_j14542759264790_1_alg».proof.Proof.Gen.Kernel.Points
import proofs.«170012_j14542759264790_1_alg».proof.Proof.Gen.Kernel.Frame
import proofs.«170012_j14542759264790_1_alg».proof.Proof.Gen.KernelIdeal
import proofs.«170012_j14542759264790_1_alg».proof.Proof.Gen.KernelIdeal.Skeleton
import proofs.«170012_j14542759264790_1_alg».proof.Proof.Gen.KernelIdeal.Launch
import proofs.«170012_j14542759264790_1_alg».proof.Proof.Gen.KernelIdeal.Points
import proofs.«170012_j14542759264790_1_alg».proof.Proof.Gen.KernelIdeal.Frame
import proofs.«170012_j14542759264790_1_alg».proof.Proof.Gen.ReferenceIdeal
import proofs.«170012_j14542759264790_1_alg».proof.Proof.Gen.ReferenceIdeal.Run
import proofs.«170012_j14542759264790_1_alg».proof.Proof.Gen.ReferenceIdeal.Read
import proofs.«170012_j14542759264790_1_alg».proof.Proof.Gen.Pre_finite_inputs
import proofs.«170012_j14542759264790_1_alg».proof.Proof.KernelRun
import proofs.«170012_j14542759264790_1_alg».proof.Proof.KernelWalk
import proofs.«170012_j14542759264790_1_alg».proof.Proof.RefBridge
import proofs.«170012_j14542759264790_1_alg».proof.Proof.Finite
import Idealize.ShloMosaic.Adequacy
import Idealize.ShloMosaic.Init

noncomputable section

namespace Cert.Proof.Claims

open Idealize.ShloMosaic Idealize.SL.Sem Cert.Proof.KernelTerm

/-- The tiled program as printed runs and leaves its arguments unchanged. -/
theorem frame_k : Cert.frame_Kernel := fun m ρ _ => Cert.Kernel.Gen.frame m ρ

/-- The tiled program on the extended reals runs and leaves its arguments unchanged. -/
theorem frame_ki : Cert.frame_KernelIdeal := fun m ρ _ => Cert.KernelIdeal.Gen.frame m ρ

/-- The reference on the extended reals runs and leaves its arguments unchanged: its run with the two results named,
    the results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- No operation of the tiled program was rewritten on the way to the extended reals, so there is nothing to preserve. -/
theorem preserves : Cert.preserves_Kernel_KernelIdeal := trivial

/-- On the extended reals, from memories that agree on the fourteen arguments and of which every entry is finite, the
    two programs end with equal results: toward detect both end at the tiled program's function of the arguments
    (the reference's composed term equals it because the eight arrays feeding the cross term have real entries), and
    likewise toward aim. -/
theorem algebraic : Cert.algebraic_KernelIdeal_ReferenceIdeal := by
  intro m ρ m' ρ' hpre hagree
  refine ⟨fun c => kernelDet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => kernelAim (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · -- the tiled program: the last launch's contents of the two result arrays, followed back to the arguments
    exact (θ_run Cert.KernelIdeal.defs _ _).mono
      (fun r h c => ⟨(h c).1.trans (Cert.Proof.KernelWalk.det_value m ρ c), (h c).2.1.trans (Cert.Proof.KernelWalk.aim_value m ρ c), (h c).2.2⟩)
      (Cert.KernelIdeal.GenV.run_values (F := Ideal) m ρ)
  · -- the reference: its composed term, at arguments equal to the tiled program's, all of real entries
    refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10, e11, e12, e13⟩ := hagree c
      obtain ⟨h0, h1, h2, h3, h4, h5, h6, h7, h8, h9⟩ := Cert.Proof.Finite.allReal_of_pre _ _ _ _ _ _ _ _ _ _ _ _ _ _ (hpre c)
      rw [e0, e1, e4, e5, e6, e7, e8, e9, e12, e13]
      exact (Cert.ReferenceIdeal.Read.val_main_v44_eq _ _ _ _ _ _ _ _ _ _).trans
        (Cert.Proof.RefBridge.det_eq _ _ _ _ _ _ _ _ _ _ h0 h1 h4 h5 h6 h7 h8 h9).symm
    · obtain ⟨e0, e1, e2, e3, e4, e5, e6, e7, e8, e9, e10, e11, e12, e13⟩ := hagree c
      obtain ⟨h0, h1, h2, h3, h4, h5, h6, h7, h8, h9⟩ := Cert.Proof.Finite.allReal_of_pre _ _ _ _ _ _ _ _ _ _ _ _ _ _ (hpre c)
      rw [e0, e1, e2, e3, e6, e7, e8, e9, e10, e11]
      exact (Cert.ReferenceIdeal.Read.val_main_v36_eq _ _ _ _ _ _ _ _ _ _).trans
        (Cert.Proof.RefBridge.aim_eq _ _ _ _ _ _ _ _ _ _ h0 h1 h2 h3 h6 h7 h8 h9).symm

end Cert.Proof.Claims

namespace Cert.Proof

open Cert.Proof.Claims

/-- Everything this certificate claims, with the witnesses of the side conditions the programs state. -/
theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
